-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x4096x64 : Shape := ⟨4, ![4, 12, 4096, 64]⟩
abbrev S4x4096 : Shape := ⟨2, ![4, 4096]⟩
abbrev S_ : Shape := ⟨0, ![]⟩

class Facts : Prop where
  bcast_S_S4x12x4096x64 : S_.BroadcastsInDim S4x12x4096x64 (![] : Fin 0 → Fin S4x12x4096x64.rank)
  reducesTo_S4x12x4096x64_S_d0_1_2_3 : S4x12x4096x64.ReducesTo [0, 1, 2, 3] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  main_v18

def fn {F : FTy → Type} [FloatOps F] (main_arg0 : FVec F S4x12x4096x64 .f32) (main_arg1 : FVec F S4x12x4096x64 .f32) (main_arg2 : FVec F S4x12x4096x64 .f32) (main_arg3 : FVec F S4x4096 .f32) : IVec S_ 1 :=
  let main_v0 : FVec F S4x12x4096x64 .f32 := Host.absf main_arg0
  let main_cst : FVec F S_ .f32 := constant S_ .f32 0x7F800000#32
  let main_v1 : FVec F S4x12x4096x64 .f32 := broadcastInDim S4x12x4096x64 ![] bcast_S_S4x12x4096x64 main_cst
  let main_v2 : IVec S4x12x4096x64 1 := cmpf .olt main_v0 main_v1
  let main_c : IVec S_ 1 := constantI S_ 1 1#1
  let main_v3 : IVec S_ 1 := (fun x v => Host.reduce IntOp.andi x v reducesTo_S4x12x4096x64_S_d0_1_2_3 h_S_) main_v2 main_c
  let main_v4 : FVec F S4x12x4096x64 .f32 := Host.absf main_arg1
  let main_cst_0 : FVec F S_ .f32 := constant S_ .f32 0x7F800000#32
  let main_v5 : FVec F S4x12x4096x64 .f32 := broadcastInDim S4x12x4096x64 ![] bcast_S_S4x12x4096x64 main_cst_0
  let main_v6 : IVec S4x12x4096x64 1 := cmpf .olt main_v4 main_v5
  let main_c_1 : IVec S_ 1 := constantI S_ 1 1#1
  let main_v7 : IVec S_ 1 := (fun x v => Host.reduce IntOp.andi x v reducesTo_S4x12x4096x64_S_d0_1_2_3 h_S_) main_v6 main_c_1
  let main_v8 : IVec S_ 1 := andi main_v3 main_v7
  let main_v9 : FVec F S4x12x4096x64 .f32 := Host.absf main_arg2
  let main_cst_2 : FVec F S_ .f32 := constant S_ .f32 0x7F800000#32
  let main_v10 : FVec F S4x12x4096x64 .f32 := broadcastInDim S4x12x4096x64 ![] bcast_S_S4x12x4096x64 main_cst_2
  let main_v11 : IVec S4x12x4096x64 1 := cmpf .olt main_v9 main_v10
  let main_c_3 : IVec S_ 1 := constantI S_ 1 1#1
  let main_v12 : IVec S_ 1 := (fun x v => Host.reduce IntOp.andi x v reducesTo_S4x12x4096x64_S_d0_1_2_3 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_v13 main_v16
-- ==== Kernel.lean ====
abbrev S4x12x4096x64 : Shape := ⟨4, ![4, 12, 4096, 64]⟩
abbrev S4x4096 : Shape := ⟨2, ![4, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩
abbrev S_ : Shape := ⟨0, ![]⟩
abbrev S64x4096 : Shape := ⟨2, ![64, 4096]⟩
abbrev S4x1x4096 : Shape := ⟨3, ![4, 1, 4096]⟩
abbrev S1x2x4096x64 : Shape := ⟨4, ![1, 2, 4096, 64]⟩
abbrev S1x1x4096 : Shape := ⟨3, ![1, 1, 4096]⟩
abbrev S4096x1 : Shape := ⟨2, ![4096, 1]⟩
abbrev S1x1x4096x64 : Shape := ⟨4, ![1, 1, 4096, 64]⟩
abbrev S4096x64 : Shape := ⟨2, ![4096, 64]⟩
abbrev S4096x128 : Shape := ⟨2, ![4096, 128]⟩
abbrev S64x128 : Shape := ⟨2, ![64, 128]⟩
abbrev S64x64 : Shape := ⟨2, ![64, 64]⟩
abbrev S1x64 : Shape := ⟨2, ![1, 64]⟩
abbrev S1 : Shape := ⟨1, ![1]⟩
abbrev S1x1 : Shape := ⟨2, ![1, 1]⟩
abbrev S1x4096x64 : Shape := ⟨3, ![1, 4096, 64]⟩
abbrev S2x4096x64 : Shape := ⟨3, ![2, 4096, 64]⟩

abbrev nBuf : Space → Nat
  | .hbm => 37
  | .vmem => 10
  | .smem => 0
  | _ => 0

abbrev bufTy : (tb : Table) → Fin (tcTables nBuf tb) → BufTy
  | .hbm, ⟨0, _⟩ => ⟨S4x12x4096x64, .f32⟩
  | .hbm, ⟨1, _⟩ => ⟨S4x12x4096x64, .f32⟩
  | .hbm, ⟨2, _⟩ => ⟨S4x12x4096x64, .f32⟩
  | .hbm, ⟨3, _⟩ => ⟨S4x4096, .f32⟩
  | .hbm, ⟨4, _⟩ => ⟨S4096, .i32⟩
  | .hbm, ⟨5, _⟩ => ⟨S1x4096, .i32⟩
  | .hbm, ⟨6, _⟩ => ⟨S64, .i32⟩
  | .hbm, ⟨7, _⟩ => ⟨S64x1, .i32⟩
  | .hbm, ⟨8, _⟩ => ⟨S_, .i32⟩
  | .hbm, ⟨9, _⟩ => ⟨S_, .i32⟩
  | .hbm, ⟨10, _⟩ => ⟨S1x4096, .i32⟩
  | .hbm, ⟨11, _⟩ => ⟨S1x4096, .i32⟩
  | .hbm, ⟨12, _⟩ => ⟨S1x4096, .i32⟩
  | .hbm, ⟨13, _⟩ => ⟨S_, .i32⟩
  | .hbm, ⟨14, _⟩ => ⟨S1x4096, .i32⟩
  | .hbm, ⟨15, _⟩ => ⟨S1x4096, .i1⟩
  | .hbm, ⟨16, _⟩ => ⟨S1x4096, .i32⟩
  | .hbm, ⟨17, _⟩ => ⟨S1x4096, .i32⟩
  | .hbm, ⟨18, _⟩ => ⟨S_, .i32⟩
  | .hbm, ⟨19, _⟩ => ⟨S1x4096, .i32⟩
  | .hbm, ⟨20, _⟩ => ⟨S1x4096, .i1⟩
  | .hbm, ⟨21, _⟩ => ⟨S1x4096, .i1⟩
  | .hbm, ⟨22, _⟩ => ⟨S_, .i32⟩
  | .hbm, ⟨23, _⟩ => ⟨S1x4096, .i32⟩
  | .hbm, ⟨24, _⟩ => ⟨S1x4096, .i32⟩
  | .hbm, ⟨25, _⟩ => ⟨S1x4096, .i32⟩
  | .hbm, ⟨26, _⟩ => ⟨S64x4096, .i32⟩
  | .hbm, ⟨27, _⟩ => ⟨S64x4096, .i32⟩
  | .hbm, ⟨28, _⟩ => ⟨S64x4096, .i1⟩
  | .hbm, ⟨29, _⟩ => ⟨S_, .f32⟩
  | .hbm, ⟨30, _⟩ => ⟨S_, .f32⟩
  | .hbm, ⟨31, _⟩ => ⟨S64x4096, .f32⟩
  | .hbm, ⟨32, _⟩ => ⟨S64x4096, .f32⟩
  | .hbm, ⟨33, _⟩ => ⟨S64x4096, .f32⟩
  | .hbm, ⟨34, _⟩ => ⟨S64x4096, .bf16⟩
  | .hbm, ⟨35, _⟩ => ⟨S4x1x4096, .f32⟩
  | .hbm, ⟨36, _⟩ => ⟨S4x12x4096x64, .f32⟩
  | .local _ .vmem, ⟨0, _⟩ => ⟨S1x2x4096x64, .f32⟩
  | .local _ .vmem, ⟨1, _⟩ => ⟨S1x2x4096x64, .f32⟩
  | .local _ .vmem, ⟨2, _⟩ => ⟨S1x2x4096x64, .f32⟩
  | .local _ .vmem, ⟨3, _⟩ => ⟨S1x2x4096x64, .f32⟩
  | .local _ .vmem, ⟨4, _⟩ => ⟨S1x2x4096x64, .f32⟩
  | .local _ .vmem, ⟨5, _⟩ => ⟨S1x2x4096x64, .f32⟩
  | .local _ .vmem, ⟨6, _⟩ => ⟨S4x1x4096, .f32⟩
  | .local _ .vmem, ⟨7, _⟩ => ⟨S64x4096, .bf16⟩
  | .local _ .vmem, ⟨8, _⟩ => ⟨S1x2x4096x64, .f32⟩
  | .local _ .vmem, ⟨9, _⟩ => ⟨S1x2x4096x64, .f32⟩
  | _, _ => ⟨S4x12x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 6], ![false, false]⟩

def k0_off1 (i : grid0.Coords) : Fin 3 → Nat :=
  let arg0 : BitVec 32 := BitVec.ofNat 32 (i 0).val
  let v0 : Index := Scalar.indexCast arg0
  let c0 : Index := 0#32
  let c0_0 : Index := 0#32
  ![v0.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S4096_S1x4096_1 : S4096.BroadcastsInDim S1x4096 (![1] : Fin 1 → Fin S1x4096.rank)
  bcast_S64_S64x1_0 : S64.BroadcastsInDim S64x1 (![0] : Fin 1 → Fin S64x1.rank)
  bcast_S_S1x4096 : S_.BroadcastsInDim S1x4096 (![] : Fin 0 → Fin S1x4096.rank)
  bcast_S1x4096_S64x4096_0_1 : S1x4096.BroadcastsInDim S64x4096 (![0, 1] : Fin 2 → Fin S64x4096.rank)
  bcast_S64x1_S64x4096_0_1 : S64x1.BroadcastsInDim S64x4096 (![0, 1] : Fin 2 → Fin S64x4096.rank)
  bcast_S_S64x4096 : S_.BroadcastsInDim S64x4096 (![] : Fin 0 → Fin S64x4096.rank)
  bitsLt_bf16_f32 : FTy.bits .bf16 < FTy.bits .f32
  bcast_S4x4096_S4x1x4096_0_2 : S4x4096.BroadcastsInDim S4x1x4096 (![0, 2] : Fin 2 → Fin S4x1x4096.rank)
  h_S1x1x4096 : 0 < S1x1x4096.numel
  shapeCasts_S1x1x4096_S1x4096 : S1x1x4096.ShapeCasts S1x4096
  transposes_S1x4096_p1_0_S4096x1 : S1x4096.Transposes [1, 0] S4096x1
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x2x4096x64_S1x1x4096x64_0_0_0_0 : ∀ a, (![0, 0, 0, 0] : Fin 4 → Nat) a + S1x1x4096x64.size a ≤ S1x2x4096x64.size a
  h_S1x1x4096x64 : 0 < S1x1x4096x64.numel
  shapeCasts_S1x1x4096x64_S4096x64 : S1x1x4096x64.ShapeCasts S4096x64
  broadcasts_S4096x1_S4096x64 : S4096x1.Broadcasts S4096x64
  concatenates_S4096x64_S4096x64_S4096x128_d1 : Shape.Concatenates [S4096x64, S4096x64] S4096x128 1
  slices_S64x128_o0_0_S64x64 : S64x128.Slices ![0, 0] S64x64
  slices_S64x128_o0_64_S64x64 : S64x128.Slices ![0, 64] S64x64
  reduces_S4096x64_S4096 : S4096x64.Reduces [1] S4096
  shapeCasts_S4096_S4096x1 : S4096.ShapeCasts S4096x1
  reduces_S64x64_S64 : S64x64.Reduces [1] S64
  shapeCasts_S64_S64x1 : S64.ShapeCasts S64x1
  broadcasts_S64x1_S64x64 : S64x1.Broadcasts S64x64
  broadcasts_S1x4096_S64x4096 : S1x4096.Broadcasts S64x4096
  reduces_S64x4096_S64 : S64x4096.Reduces [1] S64
  broadcasts_S64x1_S64x4096 : S64x1.Broadcasts S64x4096
  iota_S64x64_d0_w32 : S64x64.Iotas .tc 32 [0]
  iota_S64x64_d1_w32 : S64x64.Iotas .tc 32 [1]
  natLt_1_32 : 1 < 32
  reduces_S64x64_S64_2 : S64x64.Reduces [0] S64
  shapeCasts_S64_S1x64 : S64.ShapeCasts S1x64
  reduces_S1x64_S1 : S1x64.Reduces [1] S1
  shapeCasts_S1_S1x1 : S1.ShapeCasts S1x1
  transposes_S64x64_p1_0_S64x64 : S64x64.Transposes [1, 0] S64x64
  broadcasts_S1x1_S64x64 : S1x1.Broadcasts S64x64
  inb_S1x2x4096x64_S1x1x4096x64_0_1_0_0 : ∀ a, (![0, 1, 0, 0] : Fin 4 → Nat) a + S1x1x4096x64.size a ≤ S1x2x4096x64.size a
  shapeCasts_S4096x64_S1x4096x64 : S4096x64.ShapeCasts S1x4096x64
  concatenates_S1x4096x64_S1x4096x64_S2x4096x64_d0 : Shape.Concatenates [S1x4096x64, S1x4096x64] S2x4096x64 0
  inb_S1x2x4096x64_S1x2x4096x64_0_0_0_0 : ∀ a, (![0, 0, 0, 0] : Fin 4 → Nat) a + S1x2x4096x64.size a ≤ S1x2x4096x64.size a
  h_S1x2x4096x64 : 0 < S1x2x4096x64.numel
  shapeCasts_S1x2x4096x64_S2x4096x64 : S1x2x4096x64.ShapeCasts S2x4096x64
  shapeCasts_S2x4096x64_S1x2x4096x64 : S2x4096x64.ShapeCasts S1x2x4096x64
  dot_S64x4096_S4096x128_S64x128_1_0_0_1_n_n_wf : DotDims.WF S64x4096 S4096x128 S64x128 [1] [0] [0] [1] [] []
  dot_S4096x64_S64x64_S4096x64_1_1_0_0_n_n_wf : DotDims.WF S4096x64 S64x64 S4096x64 [1] [1] [0] [0] [] []
  dot_S64x64_S64x64_S64x64_1_1_0_0_n_n_wf : DotDims.WF S64x64 S64x64 S64x64 [1] [1] [0] [0] [] []
  dot_S64x64_S4096x64_S64x4096_1_1_0_0_n_n_wf : DotDims.WF S64x64 S4096x64 S64x4096 [1] [1] [0] [0] [] []
  dot_S64x64_S64x64_S64x64_1_0_0_1_n_n_wf : DotDims.WF S64x64 S64x64 S64x64 [1] [0] [0] [1] [] []
  dot_S64x4096_S4096x64_S64x64_1_0_0_1_n_n_wf : DotDims.WF S64x4096 S4096x64 S64x64 [1] [0] [0] [1] [] []
  dot_S4096x64_S64x64_S4096x64_1_0_0_1_n_n_wf : DotDims.WF S4096x64 S64x64 S4096x64 [1] [0] [0] [1] [] []
  hrank0 : 0 < grid0.rank
  k0_off1_inb : ∀ i : grid0.Coords, ∀ a, (k0_off1 i) a + S1x1x4096.size a ≤ S4x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x4096x64.size a ≤ S4x12x4096x64.size a
  hwx0_0 : ∀ i : grid0.Coords, EltTy.bits .f32 = 32 ∨ (Rect.block (s := S4x12x4096x64) S1x2x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096x64.size a ≤ S4x12x4096x64.size a
  hwx0_1 : ∀ i : grid0.Coords, EltTy.bits .f32 = 32 ∨ (Rect.block (s := S4x12x4096x64) S1x2x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x4096x64.size a ≤ S4x12x4096x64.size a
  hwx0_2 : ∀ i : grid0.Coords, EltTy.bits .f32 = 32 ∨ (Rect.block (s := S4x12x4096x64) S1x2x4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1x4096.size a ≤ S4x1x4096.size a
  hwx0_3 : ∀ i : grid0.Coords, EltTy.bits .f32 = 32 ∨ (Rect.block (s := S4x1x4096) S4x1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x4096.size a
  hwx0_4 : ∀ i : grid0.Coords, EltTy.bits .bf16 = 32 ∨ (Rect.block (s := S64x4096) S64x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x4096x64.size a ≤ S4x12x4096x64.size a
  hwx0_5 : ∀ i : grid0.Coords, EltTy.bits .f32 = 32 ∨ (Rect.block (s := S4x12x4096x64) S1x2x4096x64.size (cc0_transform_5 i) (hinb0_5 i)).WholeWords (EltTy.packing .f32)

variable [Facts₀]

def dot_S64x4096_S4096x128_S64x128_1_0_0_1_n_n : DotDims S64x4096 S4096x128 S64x128 where
  lhsContracting := [1]
  rhsContracting := [0]
  lhsNonContracting := [0]
  rhsNonContracting := [1]
  lhsBatch := []
  rhsBatch := []
  wf := dot_S64x4096_S4096x128_S64x128_1_0_0_1_n_n_wf
def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf
def dot_S64x64_S64x64_S64x64_1_1_0_0_n_n : DotDims S64x64 S64x64 S64x64 where
  lhsContracting := [1]
  rhsContracting := [1]
  lhsNonContracting := [0]
  rhsNonContracting := [0]
  lhsBatch := []
  rhsBatch := []
  wf := dot_S64x64_S64x64_S64x64_1_1_0_0_n_n_wf
def dot_S64x64_S4096x64_S64x4096_1_1_0_0_n_n : DotDims S64x64 S4096x64 S64x4096 where
  lhsContracting := [1]
  rhsContracting := [1]
  lhsNonContracting := [0]
  rhsNonContracting := [0]
  lhsBatch := []
  rhsBatch := []
  wf := dot_S64x64_S4096x64_S64x4096_1_1_0_0_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x4096_S4096x64_S64x64_1_0_0_1_n_n : DotDims S64x4096 S4096x64 S64x64 where
  lhsContracting := [1]
  rhsContracting := [0]
  lhsNonContracting := [0]
  rhsNonContracting := [1]
  lhsBatch := []
  rhsBatch := []
  wf := dot_S64x4096_S4096x64_S64x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S1x2x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4x1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x2x4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x12x4096x64 : Shape := ⟨4, ![4, 12, 4096, 64]⟩
abbrev S4x4096 : Shape := ⟨2, ![4, 4096]⟩
abbrev S4x1x4096x1 : Shape := ⟨4, ![4, 1, 4096, 1]⟩
abbrev S_ : Shape := ⟨0, ![]⟩
abbrev S4x12x64x64x64 : Shape := ⟨5, ![4, 12, 64, 64, 64]⟩
abbrev S4x12x64x64 : Shape := ⟨4, ![4, 12, 64, 64]⟩
abbrev S4x12x4096 : Shape := ⟨3, ![4, 12, 4096]⟩
abbrev S4x12x4096x1 : Shape := ⟨4, ![4, 12, 4096, 1]⟩
abbrev S4x12x64 : Shape := ⟨3, ![4, 12, 64]⟩
abbrev S4x12x64x1 : Shape := ⟨4, ![4, 12, 64, 1]⟩
abbrev S4x12x64x4096 : Shape := ⟨4, ![4, 12, 64, 4096]⟩
abbrev S4x1x1x4096 : Shape := ⟨4, ![4, 1, 1, 4096]⟩
abbrev S64x64 : Shape := ⟨2, ![64, 64]⟩
abbrev S4x12 : Shape := ⟨2, ![4, 12]⟩
abbrev S4x12x1x1 : Shape := ⟨4, ![4, 12, 1, 1]⟩
abbrev S1x1x64x64 : Shape := ⟨4, ![1, 1, 64, 64]⟩

abbrev nBuf : Space → Nat
  | .hbm => 250
  | .vmem => 0
  | .smem => 0
  | _ => 0

abbrev hbmTy0_0 (i : Nat) : BufTy := match i % 128 with
  | 0 => ⟨S4x12x4096x64, .f32⟩
  | 1 => ⟨S4x12x4096x64, .f32⟩
  | 2 => ⟨S4x12x4096x64, .f32⟩
  | 3 => ⟨S4x4096, .f32⟩
  | 4 => ⟨S4x1x4096x1, .f32⟩
  | 5 => ⟨S4x12x4096x64, .f32⟩
  | 6 => ⟨S4x12x4096x64, .f32⟩
  | 7 => ⟨S_, .f32⟩
  | 8 => ⟨S4x12x4096x64, .f32⟩
  | 9 => ⟨S4x12x4096x64, .f32⟩
  | 10 => ⟨S4x1x4096x1, .f32⟩
  | 11 => ⟨S4x12x4096x64, .f32⟩
  | 12 => ⟨S4x12x4096x64, .f32⟩
  | 13 => ⟨S_, .f32⟩
  | 14 => ⟨S4x12x4096x64, .f32⟩
  | 15 => ⟨S4x12x4096x64, .f32⟩
  | 16 => ⟨S4x12x64x64x64, .f32⟩
  | 17 => ⟨S_, .f32⟩
  | 18 => ⟨S4x12x64x64, .f32⟩
  | 19 => ⟨S_, .f32⟩
  | 20 => ⟨S4x12x64x64, .f32⟩
  | 21 => ⟨S4x12x64x64, .f32⟩
  | 22 => ⟨S4x12x64x64x64, .f32⟩
  | 23 => ⟨S_, .f32⟩
  | 24 => ⟨S4x12x64x64, .f32⟩
  | 25 => ⟨S_, .f32⟩
  | 26 => ⟨S4x12x64x64, .f32⟩
  | 27 => ⟨S4x12x64x64, .f32⟩
  | 28 => ⟨S4x12x4096x64, .f32⟩
  | 29 => ⟨S_, .f32⟩
  | 30 => ⟨S4x12x4096, .f32⟩
  | 31 => ⟨S_, .f32⟩
  | 32 => ⟨S4x12x4096, .f32⟩
  | 33 => ⟨S4x12x4096, .f32⟩
  | 34 => ⟨S4x12x4096x1, .f32⟩
  | 35 => ⟨S4x12x4096x64, .f32⟩
  | 36 => ⟨S4x12x4096x64, .f32⟩
  | 37 => ⟨S4x12x4096x64, .f32⟩
  | 38 => ⟨S_, .f32⟩
  | 39 => ⟨S4x12x4096, .f32⟩
  | 40 => ⟨S4x12x4096x1, .f32⟩
  | 41 => ⟨S4x12x4096x64, .f32⟩
  | 42 => ⟨S4x12x4096x64, .f32⟩
  | 43 => ⟨S4x12x64x64, .f32⟩
  | 44 => ⟨S_, .f32⟩
  | 45 => ⟨S4x12x64, .f32⟩
  | 46 => ⟨S_, .f32⟩
  | 47 => ⟨S4x12x64, .f32⟩
  | 48 => ⟨S4x12x64, .f32⟩
  | 49 => ⟨S4x12x64x1, .f32⟩
  | 50 => ⟨S4x12x64x64, .f32⟩
  | 51 => ⟨S4x12x64x64, .f32⟩
  | 52 => ⟨S4x12x64x64, .f32⟩
  | 53 => ⟨S_, .f32⟩
  | 54 => ⟨S4x12x64, .f32⟩
  | 55 => ⟨S4x12x64x1, .f32⟩
  | 56 => ⟨S4x12x64x64, .f32⟩
  | 57 => ⟨S4x12x64x64, .f32⟩
  | 58 => ⟨S4x12x64x4096, .f32⟩
  | 59 => ⟨S_, .f32⟩
  | 60 => ⟨S4x4096, .f32⟩
  | 61 => ⟨S4x4096, .f32⟩
  | 62 => ⟨S4x1x1x4096, .f32⟩
  | 63 => ⟨S_, .f32⟩
  | 64 => ⟨S4x1x1x4096, .f32⟩
  | 65 => ⟨S4x1x1x4096, .f32⟩
  | 66 => ⟨S4x12x64x4096, .f32⟩
  | 67 => ⟨S4x12x64x4096, .f32⟩
  | 68 => ⟨S_, .f32⟩
  | 69 => ⟨S4x12x64, .f32⟩
  | 70 => ⟨S_, .f32⟩
  | 71 => ⟨S4x12x64, .f32⟩
  | 72 => ⟨S4x12x64, .f32⟩
  | 73 => ⟨S4x12x64x1, .f32⟩
  | 74 => ⟨S4x12x64x4096, .f32⟩
  | 75 => ⟨S4x12x64x4096, .f32⟩
  | 76 => ⟨S4x12x64x4096, .f32⟩
  | 77 => ⟨S_, .f32⟩
  | 78 => ⟨S4x12x64, .f32⟩
  | 79 => ⟨S4x12x64x1, .f32⟩
  | 80 => ⟨S4x12x64x4096, .f32⟩
  | 81 => ⟨S4x12x64x4096, .f32⟩
  | 82 => ⟨S64x64, .i32⟩
  | 83 => ⟨S64x64, .i32⟩
  | 84 => ⟨S_, .i32⟩
  | 85 => ⟨S64x64, .i32⟩
  | 86 => ⟨S64x64, .i32⟩
  | 87 => ⟨S64x64, .i1⟩
  | 88 => ⟨S64x64, .f32⟩
  | 89 => ⟨S_, .f32⟩
  | 90 => ⟨S4x12x64, .f32⟩
  | 91 => ⟨S_, .f32⟩
  | 92 => ⟨S4x12, .f32⟩
  | 93 => ⟨S4x12x1x1, .f32⟩
  | 94 => ⟨S4x12x64x64, .f32⟩
  | 95 => ⟨S4x12x64x64, .f32⟩
  | 96 => ⟨S4x12x64x64, .f32⟩
  | 97 => ⟨S4x12x64x64, .f32⟩
  | 98 => ⟨S_, .f32⟩
  | 99 => ⟨S4x12x64x64, .f32⟩
  | 100 => ⟨S4x12x64x64, .f32⟩
  | 101 => ⟨S_, .f32⟩
  | 102 => ⟨S64x64, .f32⟩
  | 103 => ⟨S64x64, .f32⟩
  | 104 => ⟨S_, .f32⟩
  | 105 => ⟨S64x64, .f32⟩
  | 106 => ⟨S64x64, .f32⟩
  | 107 => ⟨S_, .f32⟩
  | 108 => ⟨S64x64, .f32⟩
  | 109 => ⟨S64x64, .f32⟩
  | 110 => ⟨S1x1x64x64, .f32⟩
  | 111 => ⟨S4x12x64x64, .f32⟩
  | 112 => ⟨S4x12x64x64, .f32⟩
  | 113 => ⟨S4x12x64x64, .f32⟩
  | 114 => ⟨S1x1x64x64, .f32⟩
  | 115 => ⟨S4x12x64x64, .f32⟩
  | 116 => ⟨S4x12x64x64, .f32⟩
  | 117 => ⟨S4x12x64x64, .f32⟩
  | 118 => ⟨S1x1x64x64, .f32⟩
  | 119 => ⟨S4x12x64x64, .f32⟩
  | 120 => ⟨S4x12x64x64, .f32⟩
  | 121 => ⟨S4x12x64x64, .f32⟩
  | 122 => ⟨S4x12x64x64, .f32⟩
  | 123 => ⟨S_, .f32⟩
  | 124 => ⟨S4x12x64x64, .f32⟩
  | 125 => ⟨S4x12x64x64, .f32⟩
  | 126 => ⟨S_, .f32⟩
  | 127 => ⟨S64x64, .f32⟩
  | _ => ⟨S4x12x4096x64, .f32⟩

abbrev hbmTy0_1 (i : Nat) : BufTy := match i % 128 with
  | 0 => ⟨S64x64, .f32⟩
  | 1 => ⟨S_, .f32⟩
  | 2 => ⟨S64x64, .f32⟩
  | 3 => ⟨S64x64, .f32⟩
  | 4 => ⟨S_, .f32⟩
  | 5 => ⟨S64x64, .f32⟩
  | 6 => ⟨S64x64, .f32⟩
  | 7 => ⟨S1x1x64x64, .f32⟩
  | 8 => ⟨S4x12x64x64, .f32⟩
  | 9 => ⟨S4x12x64x64, .f32⟩
  | 10 => ⟨S4x12x64x64, .f32⟩
  | 11 => ⟨S1x1x64x64, .f32⟩
  | 12 => ⟨S4x12x64x64, .f32⟩
  | 13 => ⟨S4x12x64x64, .f32⟩
  | 14 => ⟨S4x12x64x64, .f32⟩
  | 15 => ⟨S1x1x64x64, .f32⟩
  | 16 => ⟨S4x12x64x64, .f32⟩
  | 17 => ⟨S4x12x64x64, .f32⟩
  | 18 => ⟨S4x12x64x64, .f32⟩
  | 19 => ⟨S4x12x64x64, .f32⟩
  | 20 => ⟨S_, .f32⟩
  | 21 => ⟨S4x12x64x64, .f32⟩
  | 22 => ⟨S4x12x64x64, .f32⟩
  | 23 => ⟨S_, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S1x1x64x64, .f32⟩
  | 33 => ⟨S4x12x64x64, .f32⟩
  | 34 => ⟨S4x12x64x64, .f32⟩
  | 35 => ⟨S4x12x64x64, .f32⟩
  | 36 => ⟨S1x1x64x64, .f32⟩
  | 37 => ⟨S4x12x64x64, .f32⟩
  | 38 => ⟨S4x12x64x64, .f32⟩
  | 39 => ⟨S4x12x64x64, .f32⟩
  | 40 => ⟨S1x1x64x64, .f32⟩
  | 41 => ⟨S4x12x64x64, .f32⟩
  | 42 => ⟨S4x12x64x64, .f32⟩
  | 43 => ⟨S4x12x64x64, .f32⟩
  | 44 => ⟨S4x12x64x64, .f32⟩
  | 45 => ⟨S_, .f32⟩
  | 46 => ⟨S4x12x64x64, .f32⟩
  | 47 => ⟨S4x12x64x64, .f32⟩
  | 48 => ⟨S_, .f32⟩
  | 49 => ⟨S64x64, .f32⟩
  | 50 => ⟨S64x64, .f32⟩
  | 51 => ⟨S_, .f32⟩
  | 52 => ⟨S64x64, .f32⟩
  | 53 => ⟨S64x64, .f32⟩
  | 54 => ⟨S_, .f32⟩
  | 55 => ⟨S64x64, .f32⟩
  | 56 => ⟨S64x64, .f32⟩
  | 57 => ⟨S1x1x64x64, .f32⟩
  | 58 => ⟨S4x12x64x64, .f32⟩
  | 59 => ⟨S4x12x64x64, .f32⟩
  | 60 => ⟨S4x12x64x64, .f32⟩
  | 61 => ⟨S1x1x64x64, .f32⟩
  | 62 => ⟨S4x12x64x64, .f32⟩
  | 63 => ⟨S4x12x64x64, .f32⟩
  | 64 => ⟨S4x12x64x64, .f32⟩
  | 65 => ⟨S1x1x64x64, .f32⟩
  | 66 => ⟨S4x12x64x64, .f32⟩
  | 67 => ⟨S4x12x64x64, .f32⟩
  | 68 => ⟨S4x12x64x64, .f32⟩
  | 69 => ⟨S4x12x64x64, .f32⟩
  | 70 => ⟨S_, .f32⟩
  | 71 => ⟨S4x12x64x64, .f32⟩
  | 72 => ⟨S4x12x64x64, .f32⟩
  | 73 => ⟨S_, .f32⟩
  | 74 => ⟨S64x64, .f32⟩
  | 75 => ⟨S64x64, .f32⟩
  | 76 => ⟨S_, .f32⟩
  | 77 => ⟨S64x64, .f32⟩
  | 78 => ⟨S64x64, .f32⟩
  | 79 => ⟨S_, .f32⟩
  | 80 => ⟨S64x64, .f32⟩
  | 81 => ⟨S64x64, .f32⟩
  | 82 => ⟨S1x1x64x64, .f32⟩
  | 83 => ⟨S4x12x64x64, .f32⟩
  | 84 => ⟨S4x12x64x64, .f32⟩
  | 85 => ⟨S4x12x64x64, .f32⟩
  | 86 => ⟨S1x1x64x64, .f32⟩
  | 87 => ⟨S4x12x64x64, .f32⟩
  | 88 => ⟨S4x12x64x64, .f32⟩
  | 89 => ⟨S4x12x64x64, .f32⟩
  | 90 => ⟨S1x1x64x64, .f32⟩
  | 91 => ⟨S4x12x64x64, .f32⟩
  | 92 => ⟨S4x12x64x64, .f32⟩
  | 93 => ⟨S4x12x64x64, .f32⟩
  | 94 => ⟨S4x12x64x64, .f32⟩
  | 95 => ⟨S_, .f32⟩
  | 96 => ⟨S4x12x64x64, .f32⟩
  | 97 => ⟨S4x12x64x64, .f32⟩
  | 98 => ⟨S_, .f32⟩
  | 99 => ⟨S64x64, .f32⟩
  | 100 => ⟨S64x64, .f32⟩
  | 101 => ⟨S_, .f32⟩
  | 102 => ⟨S64x64, .f32⟩
  | 103 => ⟨S64x64, .f32⟩
  | 104 => ⟨S_, .f32⟩
  | 105 => ⟨S64x64, .f32⟩
  | 106 => ⟨S64x64, .f32⟩
  | 107 => ⟨S1x1x64x64, .f32⟩
  | 108 => ⟨S4x12x64x64, .f32⟩
  | 109 => ⟨S4x12x64x64, .f32⟩
  | 110 => ⟨S4x12x64x64, .f32⟩
  | 111 => ⟨S1x1x64x64, .f32⟩
  | 112 => ⟨S4x12x64x64, .f32⟩
  | 113 => ⟨S4x12x64x64, .f32⟩
  | 114 => ⟨S4x12x64x64, .f32⟩
  | 115 => ⟨S1x1x64x64, .f32⟩
  | 116 => ⟨S4x12x64x64, .f32⟩
  | 117 => ⟨S4x12x64x64, .f32⟩
  | 118 => ⟨S4x12x64x64, .f32⟩
  | 119 => ⟨S4x12x4096x64, .f32⟩
  | 120 => ⟨S4x12x64x64, .f32⟩
  | 121 => ⟨S4x12x4096x64, .f32⟩
  | _ => ⟨S4x12x4096x64, .f32⟩

abbrev hbmTy (i : Nat) : BufTy := match i / 128 with
  | 0 => hbmTy0_0 i
  | 1 => hbmTy0_1 i
  | _ => ⟨S4x12x4096x64, .f32⟩

abbrev bufTy : (tb : Table) → Fin (tcTables nBuf tb) → BufTy
  | .hbm, ⟨i, _⟩ => hbmTy i
  | _, _ => ⟨S4x12x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_cst_14 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_16 : Ref sig .tc := ⟨.hbm, 89, rfl⟩
abbrev main_v67 : Ref sig .tc := ⟨.hbm, 90, rfl⟩
abbrev main_cst_17 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_18 : Ref sig .tc := ⟨.hbm, 98, rfl⟩
abbrev main_v74 : Ref sig .tc := ⟨.hbm, 99, rfl⟩
abbrev main_v75 : Ref sig .tc := ⟨.hbm, 100, rfl⟩
abbrev main_cst_19 : Ref sig .tc := ⟨.hbm, 101, rfl⟩
abbrev main_v76 : Ref sig .tc := ⟨.hbm, 102, rfl⟩
abbrev main_v77 : Ref sig .tc := ⟨.hbm, 103, rfl⟩
abbrev main_cst_20 : Ref sig .tc := ⟨.hbm, 104, rfl⟩
abbrev main_v78 : Ref sig .tc := ⟨.hbm, 105, rfl⟩
abbrev main_v79 : Ref sig .tc := ⟨.hbm, 106, rfl⟩
abbrev main_cst_21 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_22 : Ref sig .tc := ⟨.hbm, 123, rfl⟩
abbrev main_v95 : Ref sig .tc := ⟨.hbm, 124, rfl⟩
abbrev main_v96 : Ref sig .tc := ⟨.hbm, 125, rfl⟩
abbrev main_cst_23 : Ref sig .tc := ⟨.hbm, 126, rfl⟩
abbrev main_v97 : Ref sig .tc := ⟨.hbm, 127, rfl⟩
abbrev main_v98 : Ref sig .tc := ⟨.hbm, 128, rfl⟩
abbrev main_cst_24 : Ref sig .tc := ⟨.hbm, 129, rfl⟩
abbrev main_v99 : Ref sig .tc := ⟨.hbm, 130, rfl⟩
abbrev main_v100 : Ref sig .tc := ⟨.hbm, 131, rfl⟩
abbrev main_cst_25 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_26 : Ref sig .tc := ⟨.hbm, 148, rfl⟩
abbrev main_v116 : Ref sig .tc := ⟨.hbm, 149, rfl⟩
abbrev main_v117 : Ref sig .tc := ⟨.hbm, 150, rfl⟩
abbrev main_cst_27 : Ref sig .tc := ⟨.hbm, 151, rfl⟩
abbrev main_v118 : Ref sig .tc := ⟨.hbm, 152, rfl⟩
abbrev main_v119 : Ref sig .tc := ⟨.hbm, 153, rfl⟩
abbrev main_cst_28 : Ref sig .tc := ⟨.hbm, 154, rfl⟩
abbrev main_v120 : Ref sig .tc := ⟨.hbm, 155, rfl⟩
abbrev main_v121 : Ref sig .tc := ⟨.hbm, 156, rfl⟩
abbrev main_cst_29 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_30 : Ref sig .tc := ⟨.hbm, 173, rfl⟩
abbrev main_v137 : Ref sig .tc := ⟨.hbm, 174, rfl⟩
abbrev main_v138 : Ref sig .tc := ⟨.hbm, 175, rfl⟩
abbrev main_cst_31 : Ref sig .tc := ⟨.hbm, 176, rfl⟩
abbrev main_v139 : Ref sig .tc := ⟨.hbm, 177, rfl⟩
abbrev main_v140 : Ref sig .tc := ⟨.hbm, 178, rfl⟩
abbrev main_cst_32 : Ref sig .tc := ⟨.hbm, 179, rfl⟩
abbrev main_v141 : Ref sig .tc := ⟨.hbm, 180, rfl⟩
abbrev main_v142 : Ref sig .tc := ⟨.hbm, 181, rfl⟩
abbrev main_cst_33 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_34 : Ref sig .tc := ⟨.hbm, 198, rfl⟩
abbrev main_v158 : Ref sig .tc := ⟨.hbm, 199, rfl⟩
abbrev main_v159 : Ref sig .tc := ⟨.hbm, 200, rfl⟩
abbrev main_cst_35 : Ref sig .tc := ⟨.hbm, 201, rfl⟩
abbrev main_v160 : Ref sig .tc := ⟨.hbm, 202, rfl⟩
abbrev main_v161 : Ref sig .tc := ⟨.hbm, 203, rfl⟩
abbrev main_cst_36 : Ref sig .tc := ⟨.hbm, 204, rfl⟩
abbrev main_v162 : Ref sig .tc := ⟨.hbm, 205, rfl⟩
abbrev main_v163 : Ref sig .tc := ⟨.hbm, 206, rfl⟩
abbrev main_cst_37 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_38 : Ref sig .tc := ⟨.hbm, 223, rfl⟩
abbrev main_v179 : Ref sig .tc := ⟨.hbm, 224, rfl⟩
abbrev main_v180 : Ref sig .tc := ⟨.hbm, 225, rfl⟩
abbrev main_cst_39 : Ref sig .tc := ⟨.hbm, 226, rfl⟩
abbrev main_v181 : Ref sig .tc := ⟨.hbm, 227, rfl⟩
abbrev main_v182 : Ref sig .tc := ⟨.hbm, 228, rfl⟩
abbrev main_cst_40 : Ref sig .tc := ⟨.hbm, 229, rfl⟩
abbrev main_v183 : Ref sig .tc := ⟨.hbm, 230, rfl⟩
abbrev main_v184 : Ref sig .tc := ⟨.hbm, 231, rfl⟩
abbrev main_cst_41 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩

abbrev nD : Nat := 1
abbrev τ : Topo := Topo.v7x

variable {F : FTy → Type} [FloatOps F]

class Facts₀ : Prop where
  bcast_S4x4096_S4x1x4096x1_0_2 : S4x4096.BroadcastsInDim S4x1x4096x1 (![0, 2] : Fin 2 → Fin S4x1x4096x1.rank)
  bcast_S4x1x4096x1_S4x12x4096x64_0_1_2_3 : S4x1x4096x1.BroadcastsInDim S4x12x4096x64 (![0, 1, 2, 3] : Fin 4 → Fin S4x12x4096x64.rank)
  bcast_S_S4x12x4096x64 : S_.BroadcastsInDim S4x12x4096x64 (![] : Fin 0 → Fin S4x12x4096x64.rank)
  shapeCasts_S4x12x4096x64_S4x12x64x64x64 : S4x12x4096x64.ShapeCasts S4x12x64x64x64
  reducesTo_S4x12x64x64x64_S4x12x64x64_d3 : S4x12x64x64x64.ReducesTo [3] S4x12x64x64
  h_S_ : 0 < S_.numel
  bcast_S_S4x12x64x64 : S_.BroadcastsInDim S4x12x64x64 (![] : Fin 0 → Fin S4x12x64x64.rank)
  reducesTo_S4x12x4096x64_S4x12x4096_d3 : S4x12x4096x64.ReducesTo [3] S4x12x4096
  bcast_S_S4x12x4096 : S_.BroadcastsInDim S4x12x4096 (![] : Fin 0 → Fin S4x12x4096.rank)
  bcast_S4x12x4096_S4x12x4096x1_0_1_2 : S4x12x4096.BroadcastsInDim S4x12x4096x1 (![0, 1, 2] : Fin 3 → Fin S4x12x4096x1.rank)
  bcast_S4x12x4096x1_S4x12x4096x64_0_1_2_3 : S4x12x4096x1.BroadcastsInDim S4x12x4096x64 (![0, 1, 2, 3] : Fin 4 → Fin S4x12x4096x64.rank)
  reducesTo_S4x12x64x64_S4x12x64_d3 : S4x12x64x64.ReducesTo [3] S4x12x64
  bcast_S_S4x12x64 : S_.BroadcastsInDim S4x12x64 (![] : Fin 0 → Fin S4x12x64.rank)
  bcast_S4x12x64_S4x12x64x1_0_1_2 : S4x12x64.BroadcastsInDim S4x12x64x1 (![0, 1, 2] : Fin 3 → Fin S4x12x64x1.rank)
  bcast_S4x12x64x1_S4x12x64x64_0_1_2_3 : S4x12x64x1.BroadcastsInDim S4x12x64x64 (![0, 1, 2, 3] : Fin 4 → Fin S4x12x64x64.rank)
  bcast_S_S4x4096 : S_.BroadcastsInDim S4x4096 (![] : Fin 0 → Fin S4x4096.rank)
  bcast_S4x4096_S4x1x1x4096_0_3 : S4x4096.BroadcastsInDim S4x1x1x4096 (![0, 3] : Fin 2 → Fin S4x1x1x4096.rank)
  bcast_S_S4x1x1x4096 : S_.BroadcastsInDim S4x1x1x4096 (![] : Fin 0 → Fin S4x1x1x4096.rank)
  bcast_S4x1x1x4096_S4x12x64x4096_0_1_2_3 : S4x1x1x4096.BroadcastsInDim S4x12x64x4096 (![0, 1, 2, 3] : Fin 4 → Fin S4x12x64x4096.rank)
  reducesTo_S4x12x64x4096_S4x12x64_d3 : S4x12x64x4096.ReducesTo [3] S4x12x64
  bcast_S4x12x64x1_S4x12x64x4096_0_1_2_3 : S4x12x64x1.BroadcastsInDim S4x12x64x4096 (![0, 1, 2, 3] : Fin 4 → Fin S4x12x64x4096.rank)
  bcast_S_S64x64 : S_.BroadcastsInDim S64x64 (![] : Fin 0 → Fin S64x64.rank)
  reducesTo_S4x12x64x64_S4x12x64_d2 : S4x12x64x64.ReducesTo [2] S4x12x64
  reducesTo_S4x12x64_S4x12_d2 : S4x12x64.ReducesTo [2] S4x12
  bcast_S4x12_S4x12x1x1_0_1 : S4x12.BroadcastsInDim S4x12x1x1 (![0, 1] : Fin 2 → Fin S4x12x1x1.rank)
  transposes_S4x12x64x64_S4x12x64x64_0_1_3_2 : S4x12x64x64.Transposes [0, 1, 3, 2] S4x12x64x64
  bcast_S4x12x1x1_S4x12x64x64_0_1_2_3 : S4x12x1x1.BroadcastsInDim S4x12x64x64 (![0, 1, 2, 3] : Fin 4 → Fin S4x12x64x64.rank)
  bcast_S64x64_S1x1x64x64_2_3 : S64x64.BroadcastsInDim S1x1x64x64 (![2, 3] : Fin 2 → Fin S1x1x64x64.rank)
  bcast_S1x1x64x64_S4x12x64x64_0_1_2_3 : S1x1x64x64.BroadcastsInDim S4x12x64x64 (![0, 1, 2, 3] : Fin 4 → Fin S4x12x64x64.rank)
  dot_S4x12x4096x64_S4x12x64x64_S4x12x4096x64_3_3_2_2_01_01_wf : DotDims.WF S4x12x4096x64 S4x12x64x64 S4x12x4096x64 [3] [3] [2] [2] [0, 1] [0, 1]
  dot_S4x12x64x64_S4x12x64x64_S4x12x64x64_3_3_2_2_01_01_wf : DotDims.WF S4x12x64x64 S4x12x64x64 S4x12x64x64 [3] [3] [2] [2] [0, 1] [0, 1]
  dot_S4x12x64x64_S4x12x4096x64_S4x12x64x4096_3_3_2_2_01_01_wf : DotDims.WF S4x12x64x64 S4x12x4096x64 S4x12x64x4096 [3] [3] [2] [2] [0, 1] [0, 1]
  dot_S4x12x64x64_S4x12x64x64_S4x12x64x64_3_2_2_3_01_01_wf : DotDims.WF S4x12x64x64 S4x12x64x64 S4x12x64x64 [3] [2] [2] [3] [0, 1] [0, 1]
  dot_S4x12x4096x64_S4x12x64x64_S4x12x4096x64_3_2_2_3_01_01_wf : DotDims.WF S4x12x4096x64 S4x12x64x64 S4x12x4096x64 [3] [2] [2] [3] [0, 1] [0, 1]
  dot_S4x12x64x4096_S4x12x4096x64_S4x12x64x64_3_2_2_3_01_01_wf : DotDims.WF S4x12x64x4096 S4x12x4096x64 S4x12x64x64 [3] [2] [2] [3] [0, 1] [0, 1]

variable [Facts₀]

def dot_S4x12x4096x64_S4x12x64x64_S4x12x4096x64_3_3_2_2_01_01 : DotDims S4x12x4096x64 S4x12x64x64 S4x12x4096x64 where
  lhsContracting := [3]
  rhsContracting := [3]
  lhsNonContracting := [2]
  rhsNonContracting := [2]
  lhsBatch := [0, 1]
  rhsBatch := [0, 1]
  wf := dot_S4x12x4096x64_S4x12x64x64_S4x12x4096x64_3_3_2_2_01_01_wf
def dot_S4x12x64x64_S4x12x64x64_S4x12x64x64_3_3_2_2_01_01 : DotDims S4x12x64x64 S4x12x64x64 S4x12x64x64 where
  lhsContracting := [3]
  rhsContracting := [3]
  lhsNonContracting := [2]
  rhsNonContracting := [2]
  lhsBatch := [0, 1]
  rhsBatch := [0, 1]
  wf := dot_S4x12x64x64_S4x12x64x64_S4x12x64x64_3_3_2_2_01_01_wf
def dot_S4x12x64x64_S4x12x4096x64_S4x12x64x4096_3_3_2_2_01_01 : DotDims S4x12x64x64 S4x12x4096x64 S4x12x64x4096 where
  lhsContracting := [3]
  rhsContracting := [3]
  lhsNonContracting := [2]
  rhsNonContracting := [2]
  lhsBatch := [0, 1]
  rhsBatch := [0, 1]
  wf := dot_S4x12x64x64_S4x12x4096x64_S4x12x64x4096_3_3_2_2_01_01_wf
def dot_S4x12x64x64_S4x12x64x64_S4x12x64x64_3_2_2_3_01_01 : DotDims S4x12x64x64 S4x12x64x64 S4x12x64x64 where
  lhsContracting := [3]
  rhsContracting := [2]
  lhsNonContracting := [2]
  rhsNonContracting := [3]
  lhsBatch := [0, 1]
  rhsBatch := [0, 1]
  wf := dot_S4x12x64x64_S4x12x64x64_S4x12x64x64_3_2_2_3_01_01_wf
def dot_S4x12x4096x64_S4x12x64x64_S4x12x4096x64_3_2_2_3_01_01 : DotDims S4x12x4096x64 S4x12x64x64 S4x12x4096x64 where
  lhsContracting := [3]
  rhsContracting := [2]
  lhsNonContracting := [2]
  rhsNonContracting := [3]
  lhsBatch := [0, 1]
  rhsBatch := [0, 1]
  wf := dot_S4x12x4096x64_S4x12x64x64_S4x12x4096x64_3_2_2_3_01_01_wf
def dot_S4x12x64x4096_S4x12x4096x64_S4x12x64x64_3_2_2_3_01_01 : DotDims S4x12x64x4096 S4x12x4096x64 S4x12x64x64 where
  lhsContracting := [3]
  rhsContracting := [2]
  lhsNonContracting := [2]
  rhsNonContracting := [3]
  lhsBatch := [0, 1]
  rhsBatch := [0, 1]
  wf := dot_S4x12x64x4096_S4x12x4096x64_S4x12x64x64_3_2_2_3_01_01_wf

class Facts : Prop extends Facts₀ where

variable [Facts]
-- ==== Proof.KerFun.lean ====
import proofs.«416977_j76355928588535_3_alg».proof.Proof.Gen.KernelIdeal

/-!
  The kernel body's arithmetic, cut into the pieces its mathematics suggests, for any float instance.

  One head: queries and keys scaled by the mask column and a constant; both landmark sets by ONE product
  of the pooling block with the two scaled blocks laid side by side; three logit products, each followed
  by a row softmax (row maximum, exponential, row sum, quotient); the identity from two iotas; the
  Newton–Schulz start (transpose over the largest column sum) and step; and the three final products
  `k₁ · (Z · (k₃ · v))`.  The body runs two heads on the two halves of its blocks and stacks the results.
-/

noncomputable section

namespace Cert.KernelIdeal.Hand

open Idealize.ShloMosaic Cert.KernelIdeal Cert.KernelIdeal.Facts₀ Cert.KernelIdeal.Facts

variable {F : FTy → Type} [FloatOps F]

/-- A block times the mask column times the scale constant, narrowed. -/
def hScaled (x : FVec F S4096x64 .f32) (v3 : FVec F S4096x1 .f32) : FVec F S4096x64 .bf16 :=
  truncf .bf16 (mulf (mulf x (broadcastTo S4096x64 v3 broadcasts_S4096x1_S4096x64))
    (broadcast S4096x64 (Scalar.ofBits .f32 0x3EB504F3#32))) bitsLt_bf16_f32

/-- The pooling block times the scaled queries and keys side by side. -/
def hLand (v5 : FVec F S64x4096 .bf16) (qs ks : FVec F S4096x64 .bf16) : FVec F S64x128 .f32 :=
  matmul dot_S64x4096_S4096x128_S64x128_1_0_0_1_n_n none v5
    (concatenate S4096x128 1 [⟨S4096x64, qs⟩, ⟨S4096x64, ks⟩] concatenates_S4096x64_S4096x64_S4096x128_d1)
    (constant S64x128 .f32 0x00000000#32)

/-- The query landmarks: the left half. -/
def hQl (land : FVec F S64x128 .f32) : FVec F S64x64 .bf16 :=
  truncf .bf16 (extractStridedSlice S64x64 ![0, 0] land slices_S64x128_o0_0_S64x64) bitsLt_bf16_f32

/-- The key landmarks: the right half. -/
def hKl (land : FVec F S64x128 .f32) : FVec F S64x64 .bf16 :=
  truncf .bf16 (extractStridedSlice S64x64 ![0, 64] land slices_S64x128_o0_64_S64x64) bitsLt_bf16_f32

def hLogits1 (qs : FVec F S4096x64 .bf16) (kl : FVec F S64x64 .bf16) : FVec F S4096x64 .f32 :=
  matmul dot_S4096x64_S64x64_S4096x64_1_1_0_0_n_n none qs kl (constant S4096x64 .f32 0x00000000#32)

def hLogits2 (ql kl : FVec F S64x64 .bf16) : FVec F S64x64 .f32 :=
  matmul dot_S64x64_S64x64_S64x64_1_1_0_0_n_n none ql kl (constant S64x64 .f32 0x00000000#32)

def hLogits3 (ql : FVec F S64x64 .bf16) (ks : FVec F S4096x64 .bf16) (v2 : FVec F S1x4096 .f32) : FVec F S64x4096 .f32 :=
  subf (matmul dot_S64x64_S4096x64_S64x4096_1_1_0_0_n_n none ql ks (constant S64x4096 .f32 0x00000000#32))
    (broadcastTo S64x4096 (mulf (broadcast S1x4096 (Scalar.ofBits .f32 0x4E6E6B28#32))
      (subf (broadcast S1x4096 (Scalar.ofBits .f32 0x3F800000#32)) v2)) broadcasts_S1x4096_S64x4096)

/-- The exponentials of a `4096 × 64` block's rows less their maxima. -/
def hExpA (L : FVec F S4096x64 .f32) : FVec F S4096x64 .f32 :=
  exp (subf L (broadcastTo S4096x64 (shapeCast S4096x1
    (multiReduction .maximumf [1] S4096 L 0xFF800000#32 reduces_S4096x64_S4096 (.inl rfl) rfl) shapeCasts_S4096_S4096x1)
    broadcasts_S4096x1_S4096x64))

/-- The row softmax of a `4096 × 64` block. -/
def hSoftmaxA (L : FVec F S4096x64 .f32) : FVec F S4096x64 .f32 :=
  divf (hExpA L) (broadcastTo S4096x64 (shapeCast S4096x1
    (multiReduction .add [1] S4096 (hExpA L) 0x00000000#32 reduces_S4096x64_S4096 (.inl rfl) rfl) shapeCasts_S4096_S4096x1)
    broadcasts_S4096x1_S4096x64)

def hExpB (L : FVec F S64x64 .f32) : FVec F S64x64 .f32 :=
  exp (subf L (broadcastTo S64x64 (shapeCast S64x1
    (multiReduction .maximumf [1] S64 L 0xFF800000#32 reduces_S64x64_S64 (.inl rfl) rfl) shapeCasts_S64_S64x1)
    broadcasts_S64x1_S64x64))

/-- The row softmax of a `64 × 64` block. -/
def hSoftmaxB (L : FVec F S64x64 .f32) : FVec F S64x64 .f32 :=
  divf (hExpB L) (broadcastTo S64x64 (shapeCast S64x1
    (multiReduction .add [1] S64 (hExpB L) 0x00000000#32 reduces_S64x64_S64 (.inl rfl) rfl) shapeCasts_S64_S64x1)
    broadcasts_S64x1_S64x64)

def hExpC (L : FVec F S64x4096 .f32) : FVec F S64x4096 .f32 :=
  exp (subf L (broadcastTo S64x4096 (shapeCast S64x1
    (multiReduction .maximumf [1] S64 L 0xFF800000#32 reduces_S64x4096_S64 (.inl rfl) rfl) shapeCasts_S64_S64x1)
    broadcasts_S64x1_S64x4096))

/-- The row softmax of a `64 × 4096` block. -/
def hSoftmaxC (L : FVec F S64x4096 .f32) : FVec F S64x4096 .f32 :=
  divf (hExpC L) (broadcastTo S64x4096 (shapeCast S64x1
    (multiReduction .add [1] S64 (hExpC L) 0x00000000#32 reduces_S64x4096_S64 (.inl rfl) rfl) shapeCasts_S64_S64x1)
    broadcasts_S64x1_S64x4096)

/-- The identity: row number equals column number, as a float. -/
def hEye : FVec F S64x64 .f32 :=
  sitofp .f32 (extui 32 (cmpi .eq (iota .tc S64x64 32 [0] iota_S64x64_d0_w32) (iota .tc S64x64 32 [1] iota_S64x64_d1_w32)) natLt_1_32)

/-- The transpose over the largest column sum. -/
def hInit (A : FVec F S64x64 .f32) : FVec F S64x64 .f32 :=
  divf (transpose S64x64 [1, 0] A transposes_S64x64_p1_0_S64x64)
    (broadcastTo S64x64 (shapeCast S1x1 (multiReduction .maximumf [1] S1
      (shapeCast S1x64 (multiReduction .add [0] S64 A 0x00000000#32 reduces_S64x64_S64_2 (.inl rfl) rfl) shapeCasts_S64_S1x64)
      0xFF800000#32 reduces_S1x64_S1 (.inl rfl) rfl) shapeCasts_S1_S1x1) broadcasts_S1x1_S64x64)

/-- A `64 × 64` product. -/
def hMM (A B : FVec F S64x64 .f32) : FVec F S64x64 .f32 :=
  matmul dot_S64x64_S64x64_S64x64_1_0_0_1_n_n (some .fp32) A B (constant S64x64 .f32 0x00000000#32)

/-- One Newton–Schulz step. -/
def hStep (A Z I : FVec F S64x64 .f32) : FVec F S64x64 .f32 :=
  hMM (mulf (broadcast S64x64 (Scalar.ofBits .f32 0x3E800000#32)) Z)
    (subf (mulf (broadcast S64x64 (Scalar.ofBits .f32 0x41500000#32)) I)
      (hMM (hMM A Z) (subf (mulf (broadcast S64x64 (Scalar.ofBits .f32 0x41700000#32)) I)
        (hMM (hMM A Z) (subf (mulf (broadcast S64x64 (Scalar.ofBits .f32 0x40E00000#32)) I) (hMM A Z))))))

/-- `k₁ · (Z · (k₃ · v))`, each factor narrowed before its product. -/
def hFinal (k1 : FVec F S4096x64 .f32) (Z : FVec F S64x64 .f32) (k3 : FVec F S64x4096 .f32) (v : FVec F S4096x64 .f32) :
    FVec F S4096x64 .f32 :=
  matmul dot_S4096x64_S64x64_S4096x64_1_0_0_1_n_n none (truncf .bf16 k1 bitsLt_bf16_f32)
    (truncf .bf16 (matmul dot_S64x64_S64x64_S64x64_1_0_0_1_n_n none (truncf .bf16 Z bitsLt_bf16_f32)
      (truncf .bf16 (matmul dot_S64x4096_S4096x64_S64x64_1_0_0_1_n_n none (truncf .bf16 k3 bitsLt_bf16_f32)
        (truncf .bf16 v bitsLt_bf16_f32) (constant S64x64 .f32 0x00000000#32)) bitsLt_bf16_f32)
      (constant S64x64 .f32 0x00000000#32)) bitsLt_bf16_f32)
    (constant S4096x64 .f32 0x00000000#32)

/-- The second softmax of a head. -/
def hK2 (v5 : FVec F S64x4096 .bf16) (v3 : FVec F S4096x1 .f32) (q k : FVec F S4096x64 .f32) : FVec F S64x64 .f32 :=
  hSoftmaxB (hLogits2 (hQl (hLand v5 (hScaled q v3) (hScaled k v3))) (hKl (hLand v5 (hScaled q v3) (hScaled k v3))))

/-- Six steps from the start. -/
def hInv (A : FVec F S64x64 .f32) : FVec F S64x64 .f32 :=
  hStep A (hStep A (hStep A (hStep A (hStep A (hStep A (hInit A) hEye) hEye) hEye) hEye) hEye) hEye

/-- One head. -/
def headVec (v2 : FVec F S1x4096 .f32) (v3 : FVec F S4096x1 .f32) (v5 : FVec F S64x4096 .bf16)
    (q k v : FVec F S4096x64 .f32) : FVec F S4096x64 .f32 :=
  hFinal (hSoftmaxA (hLogits1 (hScaled q v3) (hKl (hLand v5 (hScaled q v3) (hScaled k v3)))))
    (hInv (hK2 v5 v3 q k))
    (hSoftmaxC (hLogits3 (hQl (hLand v5 (hScaled q v3) (hScaled k v3))) (hScaled k v3) v2))
    v

/-- The whole body over its eight loaded values: the mask row, the pooling block, and queries, keys and values
    of the block's two heads. -/
def bodyOf (v1 : Vec F S1x1x4096 .f32) (v4 : Vec F S64x4096 .bf16)
    (v6 v8 v10 v175 v177 v179 : Vec F S1x1x4096x64 .f32) : FVec F S1x2x4096x64 .f32 :=
  shapeCast S1x2x4096x64 (concatenate S2x4096x64 0
    [⟨S1x4096x64, shapeCast S1x4096x64 (headVec (shapeCast S1x4096 v1 shapeCasts_S1x1x4096_S1x4096)
        (transpose S4096x1 [1, 0] (shapeCast S1x4096 v1 shapeCasts_S1x1x4096_S1x4096) transposes_S1x4096_p1_0_S4096x1)
        (shapeCast S64x4096 v4 shapeCasts_S64x4096_S64x4096)
        (shapeCast S4096x64 v6 shapeCasts_S1x1x4096x64_S4096x64) (shapeCast S4096x64 v8 shapeCasts_S1x1x4096x64_S4096x64)
        (shapeCast S4096x64 v10 shapeCasts_S1x1x4096x64_S4096x64)) shapeCasts_S4096x64_S1x4096x64⟩,
     ⟨S1x4096x64, shapeCast S1x4096x64 (headVec (shapeCast S1x4096 v1 shapeCasts_S1x1x4096_S1x4096)
        (transpose S4096x1 [1, 0] (shapeCast S1x4096 v1 shapeCasts_S1x1x4096_S1x4096) transposes_S1x4096_p1_0_S4096x1)
        (shapeCast S64x4096 v4 shapeCasts_S64x4096_S64x4096)
        (shapeCast S4096x64 v175 shapeCasts_S1x1x4096x64_S4096x64) (shapeCast S4096x64 v177 shapeCasts_S1x1x4096x64_S4096x64)
        (shapeCast S4096x64 v179 shapeCasts_S1x1x4096x64_S4096x64)) shapeCasts_S4096x64_S1x4096x64⟩]
    concatenates_S1x4096x64_S1x4096x64_S2x4096x64_d0) shapeCasts_S2x4096x64_S1x2x4096x64

end Cert.KernelIdeal.Hand

end
-- ==== Proof.Spec.lean ====
import Idealize.ShloMosaic.PureOps.Ideal
import Idealize.ShloMosaic.Lib.ValueIdx
import Mathlib.Algebra.BigOperators.Group.Finset.Basic

/-!
  Nyström attention on one head, as mathematics over the extended reals.

  A head has queries, keys and values `q k v : 4096 × 64` and a key mask `mk : 4096`.  Queries and keys
  are scaled by the mask and a constant; 64 landmarks are the means of 64 consecutive rows; three row
  softmaxes `k₁ = softmax(qs · klᵀ)`, `k₂ = softmax(ql · klᵀ)`, `k₃ = softmax(ql · ksᵀ − bias)`; a
  pseudo-inverse of `k₂` by six Newton–Schulz steps; and the result `k₁ · inv(k₂) · (k₃ · v)`.

  Two spellings of the same head are given.  `headR` takes the landmark means as sums divided by 64 and
  multiplies `(k₁ · Z) · (k₃ · v)`.  `headK` takes the landmarks as a product with the pooling matrix
  (entries 1/64 on a landmark's segment and 0 elsewhere) and multiplies `k₁ · (Z · (k₃ · v))`.
  They agree when every input entry is a real number.
-/

noncomputable section

open scoped BigOperators

namespace Cert.Nys

open Idealize.ShloMosaic

/-- A matrix of extended reals. -/
abbrev Mat (n m : ℕ) := Fin n → Fin m → EReal

/-! ## The float literals, as the words both programs print -/

abbrev cScale : EReal := Ideal.ofBits .f32 0x3EB504F3#32
abbrev cOne : EReal := Ideal.ofBits .f32 0x3F800000#32
abbrev cBig : EReal := Ideal.ofBits .f32 0x4E6E6B28#32
abbrev cNegInf : EReal := Ideal.ofBits .f32 0xFF800000#32
abbrev cZero : EReal := Ideal.ofBits .f32 0x00000000#32
abbrev c7 : EReal := Ideal.ofBits .f32 0x40E00000#32
abbrev c15 : EReal := Ideal.ofBits .f32 0x41700000#32
abbrev c13 : EReal := Ideal.ofBits .f32 0x41500000#32
abbrev cQuarter : EReal := Ideal.ofBits .f32 0x3E800000#32
abbrev c64 : EReal := Ideal.ofBits .f32 0x42800000#32
abbrev cInv64 : EReal := Ideal.ofBits .f32 0x3C800000#32

/-! ## Matrix products, row maxima, the row softmax -/

/-- `A · B`. -/
def mmul {n k m : ℕ} (A : Mat n k) (B : Mat k m) : Mat n m := fun i j => ∑ l : Fin k, A i l * B l j

/-- `A · Bᵀ`. -/
def mmulT {n k m : ℕ} (A : Mat n k) (B : Mat m k) : Mat n m := fun i j => ∑ l : Fin k, A i l * B j l

/-- The maximum of a finite family, folded from the `-∞` word. -/
def vmax {n : ℕ} (f : Fin n → EReal) : EReal := (Finset.univ : Finset (Fin n)).fold max cNegInf f

/-- The softmax of each row: `exp (L i j − max_j L i j)` over its row sum. -/
def softmax {n m : ℕ} (L : Mat n m) : Mat n m := fun i j =>
  Ideal.div (Ideal.exp (L i j - vmax (L i))) (∑ j' : Fin m, Ideal.exp (L i j' - vmax (L i)))

/-- The identity matrix. -/
def eye {n : ℕ} : Mat n n := fun i j => if i = j then 1 else 0

/-! ## Scaling and landmarks -/

/-- Rows scaled by the mask and the constant: `x s d · mk s · c`. -/
def scaled (x : Mat 4096 64) (mk : Fin 4096 → EReal) : Mat 4096 64 := fun s d => x s d * mk s * cScale

/-- Row `r` of landmark `l`'s segment: `64 l + r`. -/
def segIdx (l r : Fin 64) : Fin 4096 := ⟨64 * l.val + r.val, by have := l.isLt; have := r.isLt; omega⟩

/-- Landmarks as means: the sum over a segment's 64 rows, divided by 64. -/
def poolMean (x : Mat 4096 64) : Mat 64 64 := fun l d => Ideal.div (∑ r : Fin 64, x (segIdx l r) d) c64

/-- The pooling matrix: `1/64` on a landmark's own segment, `0` elsewhere. -/
def poolW : Mat 64 4096 := fun l s => if s.val / 64 = l.val then cInv64 else cZero

/-- Landmarks as a product with the pooling matrix. -/
def poolDot (x : Mat 4096 64) : Mat 64 64 := mmul poolW x

/-! ## The three kernels -/

def ker1 (qs : Mat 4096 64) (kl : Mat 64 64) : Mat 4096 64 := softmax (mmulT qs kl)

def ker2 (ql kl : Mat 64 64) : Mat 64 64 := softmax (mmulT ql kl)

/-- The additive mask bias of a key position: `10⁹ · (1 − mk s)`. -/
def maskBias (mk : Fin 4096 → EReal) : Fin 4096 → EReal := fun s => cBig * (cOne - mk s)

def ker3 (ql : Mat 64 64) (ks : Mat 4096 64) (mk : Fin 4096 → EReal) : Mat 64 4096 :=
  softmax (fun l s => mmulT ql ks l s - maskBias mk s)

/-! ## The Newton–Schulz pseudo-inverse -/

/-- The start: the transpose over the largest column sum. -/
def nsInit (A : Mat 64 64) : Mat 64 64 := fun i j =>
  Ideal.div (A j i) (vmax fun j' : Fin 64 => ∑ i' : Fin 64, A i' j')

/-- One step: `Z ↦ (¼ Z) · (13 I − AZ · (15 I − AZ · (7 I − AZ)))`. -/
def nsStep (A Z : Mat 64 64) : Mat 64 64 :=
  mmul (fun i j => cQuarter * Z i j)
    (fun i j => c13 * eye i j - mmul (mmul A Z)
      (fun i j => c15 * eye i j - mmul (mmul A Z) (fun i j => c7 * eye i j - mmul A Z i j) i j) i j)

/-- Six steps from the start. -/
def nsInv (A : Mat 64 64) : Mat 64 64 :=
  nsStep A (nsStep A (nsStep A (nsStep A (nsStep A (nsStep A (nsInit A))))))

/-! ## One head, in its two spellings -/

/-- Landmark means; `(k₁ · Z) · (k₃ · v)`. -/
def headR (q k v : Mat 4096 64) (mk : Fin 4096 → EReal) : Mat 4096 64 :=
  mmul (mmul (ker1 (scaled q mk) (poolMean (scaled k mk)))
        (nsInv (ker2 (poolMean (scaled q mk)) (poolMean (scaled k mk)))))
    (mmul (ker3 (poolMean (scaled q mk)) (scaled k mk) mk) v)

/-- Landmarks by the pooling matrix; `k₁ · (Z · (k₃ · v))`. -/
def headK (q k v : Mat 4096 64) (mk : Fin 4096 → EReal) : Mat 4096 64 :=
  mmul (ker1 (scaled q mk) (poolDot (scaled k mk)))
    (mmul (nsInv (ker2 (poolDot (scaled q mk)) (poolDot (scaled k mk))))
      (mmul (ker3 (poolDot (scaled q mk)) (scaled k mk) mk) v))

/-! ## The whole arrays -/

open Idealize.ShloMosaic.ValueIdx

abbrev S4 : Shape := ⟨4, ![4, 12, 4096, 64]⟩
abbrev S2 : Shape := ⟨2, ![4, 4096]⟩

/-- Head `(b, h)` of a `[4, 12, 4096, 64]` array, as a matrix. -/
def slice (X : S4.Idx → EReal) (b : Fin 4) (h : Fin 12) : Mat 4096 64 := fun s d => X (ix4 b h s d)

/-- Row `b` of the `[4, 4096]` mask. -/
def mrow (M : S2.Idx → EReal) (b : Fin 4) : Fin 4096 → EReal := fun s => M (ix2 b s)

/-- The result array in the reference's spelling: head `(b, h)` of the output is `headR` of head `(b, h)`
    of the inputs and row `b` of the mask. -/
def G (Q K V : S4.Idx → EReal) (M : S2.Idx → EReal) : S4.Idx → EReal := fun i =>
  headR (slice Q (i 0) (i 1)) (slice K (i 0) (i 1)) (slice V (i 0) (i 1)) (mrow M (i 0)) (i 2) (i 3)

/-- The same array in the kernel's spelling. -/
def GK (Q K V : S4.Idx → EReal) (M : S2.Idx → EReal) : S4.Idx → EReal := fun i =>
  headK (slice Q (i 0) (i 1)) (slice K (i 0) (i 1)) (slice V (i 0) (i 1)) (mrow M (i 0)) (i 2) (i 3)

end Cert.Nys

end
-- ==== Proof.KerMat.lean ====
import proofs.«416977_j76355928588535_3_alg».proof.Proof.KerFun
import proofs.«416977_j76355928588535_3_alg».proof.Proof.Spec
import Idealize.ShloMosaic.Lib.ValueIdx

noncomputable section

namespace Cert.KernelIdeal.Hand

open Idealize.ShloMosaic Idealize.ShloMosaic.ValueIdx Cert.KernelIdeal Cert.KernelIdeal.Facts₀ Cert.KernelIdeal.Facts Cert.Nys

/-- A rank-2 vector at the ideal instance, as a matrix. -/
def mat2 {n m : ℕ} {φ : FTy} (X : FVec Ideal (⟨2, ![n, m]⟩ : Shape) φ) : Mat n m := fun i j => X (ix2 i j)

theorem mat2_apply {n m : ℕ} {φ : FTy} (X : FVec Ideal (⟨2, ![n, m]⟩ : Shape) φ) (i : Fin n) (j : Fin m) :
    mat2 X i j = X (ix2 i j) := rfl

end Cert.KernelIdeal.Hand

end
-- ==== Proof.KerHeadA.lean ====
import proofs.«416977_j76355928588535_3_alg».proof.Proof.KerMat
import Idealize.ShloMosaic.PureOps.Ideal.Laws
import Idealize.ShloMosaic.Lib.Pipeline.Value

noncomputable section

namespace Cert.KernelIdeal.Hand

open Idealize.ShloMosaic Idealize.ShloMosaic.ValueIdx Cert.KernelIdeal Cert.KernelIdeal.Facts₀ Cert.KernelIdeal.Facts Cert.Nys

/-! ## Layout operations of a rank-2 block, read at an entry -/

/-- A column stretched along rows reads, at row `i`, the column's entry `i`. -/
private theorem bcastCol_apply {α : Type} {n m : ℕ} (v : (⟨2, ![n, 1]⟩ : Shape).Idx → α)
    (hb : (⟨2, ![n, 1]⟩ : Shape).Broadcasts ⟨2, ![n, m]⟩) (i : Fin n) (j : Fin m) :
    broadcastTo (⟨2, ![n, m]⟩ : Shape) v hb (ix2 i j) = v (ix2 i (0 : Fin 1)) := by
  refine broadcastTo_apply _ hb (ix2 i j) (ix2 i (0 : Fin 1)) ?_
  intro a
  match a with
  | ⟨0, _⟩ =>
    show i.val = if n = 1 then 0 else i.val
    have := i.isLt
    split <;> omega
  | ⟨1, _⟩ =>
    show 0 = if (1 : ℕ) = 1 then 0 else _
    rw [if_pos rfl]

/-- A row stretched along columns reads, at column `j`, the row's entry `j`. -/
private theorem bcastRow_apply {α : Type} {n m : ℕ} (v : (⟨2, ![1, m]⟩ : Shape).Idx → α)
    (hb : (⟨2, ![1, m]⟩ : Shape).Broadcasts ⟨2, ![n, m]⟩) (i : Fin n) (j : Fin m) :
    broadcastTo (⟨2, ![n, m]⟩ : Shape) v hb (ix2 i j) = v (ix2 (0 : Fin 1) j) := by
  refine broadcastTo_apply _ hb (ix2 i j) (ix2 (0 : Fin 1) j) ?_
  intro a
  match a with
  | ⟨0, _⟩ =>
    show 0 = if (1 : ℕ) = 1 then 0 else _
    rw [if_pos rfl]
  | ⟨1, _⟩ =>
    show j.val = if m = 1 then 0 else j.val
    have := j.isLt
    split <;> omega

/-- A vector laid as a column and stretched along rows reads, at row `i`, its entry `i`. -/
private theorem keepCol_apply {α : Type} {n m : ℕ} (v : (⟨1, ![n]⟩ : Shape).Idx → α)
    (hs : (⟨1, ![n]⟩ : Shape).ShapeCasts ⟨2, ![n, 1]⟩) (hb : (⟨2, ![n, 1]⟩ : Shape).Broadcasts ⟨2, ![n, m]⟩)
    (i : Fin n) (j : Fin m) :
    broadcastTo (⟨2, ![n, m]⟩ : Shape) (shapeCast (⟨2, ![n, 1]⟩ : Shape) v hs) hb (ix2 i j) = v (ix1 i) := by
  refine (bcastCol_apply _ hb i j).trans ?_
  refine shapeCast_apply v hs (ix2 i (0 : Fin 1)) (ix1 i) ?_
  rw [Shape.rowMajor_val_one, Shape.rowMajor_val_two]
  show i.val = i.val * 1 + 0
  omega

/-! ## Row reductions -/

/-- The index over row `i` with column `k` inserted. -/
private theorem lift_row {n m : ℕ} (hr : (⟨2, ![n, m]⟩ : Shape).Reduces [1] ⟨1, ![n]⟩) (i : Fin n) (k : Fin m) :
    hr.lift (ix1 i) k = ix2 i k := by
  funext c
  refine Fin.ext ?_
  match c with
  | ⟨0, _⟩ => rfl
  | ⟨1, _⟩ => rfl

/-- A row sum. -/
private theorem rowSum_apply {n m : ℕ} (src : FVec Ideal (⟨2, ![n, m]⟩ : Shape) .f32)
    (hr : (⟨2, ![n, m]⟩ : Shape).Reduces [1] ⟨1, ![n]⟩) (hφ : FKind.Formats .f32)
    (hacc : (0x00000000#32 : BitVec 32) = FKind.add.neutral .f32 hφ) (i : Fin n) :
    multiReduction .add [1] (⟨1, ![n]⟩ : Shape) src 0x00000000#32 hr hφ hacc (ix1 i) = ∑ k : Fin m, src (ix2 i k) := by
  refine (Ideal.multiReduction_add_single src _ hr hφ hacc (ix1 i)).trans ?_
  exact Finset.sum_congr rfl fun k _ => congrArg src (lift_row hr i k)

/-- A row maximum. -/
private theorem rowMax_apply {n m : ℕ} (src : FVec Ideal (⟨2, ![n, m]⟩ : Shape) .f32)
    (hr : (⟨2, ![n, m]⟩ : Shape).Reduces [1] ⟨1, ![n]⟩) (hφ : FKind.Formats .f32)
    (hacc : (0xFF800000#32 : BitVec 32) = FKind.maximumf.neutral .f32 hφ) (i : Fin n) :
    multiReduction .maximumf [1] (⟨1, ![n]⟩ : Shape) src 0xFF800000#32 hr hφ hacc (ix1 i) = vmax (mat2 src i) := by
  refine (Ideal.multiReduction_maximumf_single src _ hr hφ hacc (ix1 i)).trans ?_
  unfold vmax
  congr 1
  funext k
  exact congrArg src (lift_row hr i k)

/-! ## The row softmax -/

/-- The exponentials of a block's rows less their maxima, at an entry. -/
private theorem expRows_apply {n m : ℕ} (L : FVec Ideal (⟨2, ![n, m]⟩ : Shape) .f32)
    (hr : (⟨2, ![n, m]⟩ : Shape).Reduces [1] ⟨1, ![n]⟩)
    (hs : (⟨1, ![n]⟩ : Shape).ShapeCasts ⟨2, ![n, 1]⟩) (hb : (⟨2, ![n, 1]⟩ : Shape).Broadcasts ⟨2, ![n, m]⟩)
    (hφ : FKind.Formats .f32) (hacc : (0xFF800000#32 : BitVec 32) = FKind.maximumf.neutral .f32 hφ)
    (i : Fin n) (j : Fin m) :
    exp (subf L (broadcastTo (⟨2, ![n, m]⟩ : Shape) (shapeCast (⟨2, ![n, 1]⟩ : Shape)
      (multiReduction .maximumf [1] (⟨1, ![n]⟩ : Shape) L 0xFF800000#32 hr hφ hacc) hs) hb)) (ix2 i j)
      = Ideal.exp (mat2 L i j - vmax (mat2 L i)) := by
  show Ideal.exp (L (ix2 i j) - broadcastTo (⟨2, ![n, m]⟩ : Shape) (shapeCast (⟨2, ![n, 1]⟩ : Shape)
      (multiReduction .maximumf [1] (⟨1, ![n]⟩ : Shape) L 0xFF800000#32 hr hφ hacc) hs) hb (ix2 i j)) = _
  rw [keepCol_apply, rowMax_apply]
  rfl

/-- The quotient of a block by its row sums, at an entry. -/
private theorem divRows_apply {n m : ℕ} (E : FVec Ideal (⟨2, ![n, m]⟩ : Shape) .f32)
    (hr : (⟨2, ![n, m]⟩ : Shape).Reduces [1] ⟨1, ![n]⟩)
    (hs : (⟨1, ![n]⟩ : Shape).ShapeCasts ⟨2, ![n, 1]⟩) (hb : (⟨2, ![n, 1]⟩ : Shape).Broadcasts ⟨2, ![n, m]⟩)
    (hφ : FKind.Formats .f32) (hacc : (0x00000000#32 : BitVec 32) = FKind.add.neutral .f32 hφ)
    (i : Fin n) (j : Fin m) :
    divf E (broadcastTo (⟨2, ![n, m]⟩ : Shape) (shapeCast (⟨2, ![n, 1]⟩ : Shape)
      (multiReduction .add [1] (⟨1, ![n]⟩ : Shape) E 0x00000000#32 hr hφ hacc) hs) hb) (ix2 i j)
      = Ideal.div (E (ix2 i j)) (∑ k : Fin m, E (ix2 i k)) := by
  rw [divf_apply, keepCol_apply, rowSum_apply]

/-! ## Products -/

/-- A product `A · B` into the zero block, read at an entry: the sum over the contracted coordinate. -/
private theorem matmulNN_apply {m k n : ℕ} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product `A · Bᵀ` into the zero block, read at an entry. -/
private theorem matmulNT_apply {m k n : ℕ} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## The two scaled blocks side by side, and the halves of a `64 × 128` block -/

/-- Left of column 64 the side-by-side block is its first piece. -/
private theorem concat_left (qs ks : FVec Ideal S4096x64 .bf16) (s : Fin 4096) (d : Fin 64) :
    concatenate S4096x128 1 [⟨S4096x64, qs⟩, ⟨S4096x64, ks⟩] concatenates_S4096x64_S4096x64_S4096x128_d1
      (ix2 s (⟨d.val, by have := d.isLt; omega⟩ : Fin 128)) = qs (ix2 s d) := by
  refine concatenate_pair_apply_left (t := S4096x128) (1 : Fin 2) qs ks _ _ rfl (ix2 s d) ?_
  intro b
  match b with
  | ⟨0, _⟩ => rfl
  | ⟨1, _⟩ => rfl

/-- From column 64 on it is its second piece, 64 columns back. -/
private theorem concat_right (qs ks : FVec Ideal S4096x64 .bf16) (s : Fin 4096) (d : Fin 64) :
    concatenate S4096x128 1 [⟨S4096x64, qs⟩, ⟨S4096x64, ks⟩] concatenates_S4096x64_S4096x64_S4096x128_d1
      (ix2 s (⟨64 + d.val, by have := d.isLt; omega⟩ : Fin 128)) = ks (ix2 s d) := by
  refine concatenate_pair_apply_right (t := S4096x128) (1 : Fin 2) qs ks _ _ rfl rfl (ix2 s d) ?_ ?_
  · intro b hb
    match b with
    | ⟨0, _⟩ => rfl
    | ⟨1, _⟩ => exact absurd rfl hb
  · show d.val + 64 = 64 + d.val
    omega

/-- The left half of a `64 × 128` block. -/
private theorem sliceL_apply (land : FVec Ideal S64x128 .f32) (l d : Fin 64) :
    extractStridedSlice S64x64 ![0, 0] land slices_S64x128_o0_0_S64x64 (ix2 l d)
      = land (ix2 l (⟨d.val, by have := d.isLt; omega⟩ : Fin 128)) := by
  refine extractStridedSlice_apply _ land _ (ix2 l d) _ ?_
  intro a
  match a with
  | ⟨0, _⟩ => show l.val = 0 + l.val; omega
  | ⟨1, _⟩ => show d.val = 0 + d.val; omega

/-- The right half of a `64 × 128` block. -/
private theorem sliceR_apply (land : FVec Ideal S64x128 .f32) (l d : Fin 64) :
    extractStridedSlice S64x64 ![0, 64] land slices_S64x128_o0_64_S64x64 (ix2 l d)
      = land (ix2 l (⟨64 + d.val, by have := d.isLt; omega⟩ : Fin 128)) := by
  refine extractStridedSlice_apply _ land _ (ix2 l d) _ ?_
  intro a
  match a with
  | ⟨0, _⟩ => show l.val = 0 + l.val; omega
  | ⟨1, _⟩ => show 64 + d.val = 64 + d.val; rfl

/-- The landmark product at an entry. -/
private theorem hLand_apply (v5 : FVec Ideal S64x4096 .bf16) (qs ks : FVec Ideal S4096x64 .bf16) (l : Fin 64) (c : Fin 128) :
    hLand v5 qs ks (ix2 l c) = ∑ s : Fin 4096, v5 (ix2 l s) *
      concatenate S4096x128 1 [⟨S4096x64, qs⟩, ⟨S4096x64, ks⟩] concatenates_S4096x64_S4096x64_S4096x128_d1 (ix2 s c) := by
  unfold hLand
  exact matmulNN_apply _ none v5 _ l c

/-- Scaling: each entry times its row's mask value times the constant. -/
theorem hScaled_eq (x : FVec Ideal S4096x64 .f32) (v3 : FVec Ideal S4096x1 .f32) :
    mat2 (hScaled x v3) = scaled (mat2 x) (fun s => v3 (ix2 s 0)) := by
  funext s d
  rw [mat2_apply]
  unfold hScaled scaled
  show x (ix2 s d) * broadcastTo S4096x64 v3 broadcasts_S4096x1_S4096x64 (ix2 s d) * Ideal.ofBits .f32 0x3EB504F3#32 = _
  rw [bcastCol_apply]
  rfl

/-- The query landmarks: the pooling block times the scaled queries. -/
theorem hQl_eq (v5 : FVec Ideal S64x4096 .bf16) (qs ks : FVec Ideal S4096x64 .bf16) :
    mat2 (hQl (hLand v5 qs ks)) = mmul (mat2 v5) (mat2 qs) := by
  funext l d
  rw [mat2_apply]
  unfold hQl mmul
  rw [truncf_apply, sliceL_apply, hLand_apply]
  exact Finset.sum_congr rfl fun s _ => congrArg (v5 (ix2 l s) * ·) (concat_left qs ks s d)

/-- The key landmarks: the pooling block times the scaled keys. -/
theorem hKl_eq (v5 : FVec Ideal S64x4096 .bf16) (qs ks : FVec Ideal S4096x64 .bf16) :
    mat2 (hKl (hLand v5 qs ks)) = mmul (mat2 v5) (mat2 ks) := by
  funext l d
  rw [mat2_apply]
  unfold hKl mmul
  rw [truncf_apply, sliceR_apply, hLand_apply]
  exact Finset.sum_congr rfl fun s _ => congrArg (v5 (ix2 l s) * ·) (concat_right qs ks s d)

theorem hLogits1_eq (qs : FVec Ideal S4096x64 .bf16) (kl : FVec Ideal S64x64 .bf16) :
    mat2 (hLogits1 qs kl) = mmulT (mat2 qs) (mat2 kl) := by
  funext i j
  rw [mat2_apply]
  unfold hLogits1 mmulT
  exact matmulNT_apply _ none qs kl i j

theorem hLogits2_eq (ql kl : FVec Ideal S64x64 .bf16) : mat2 (hLogits2 ql kl) = mmulT (mat2 ql) (mat2 kl) := by
  funext i j
  rw [mat2_apply]
  unfold hLogits2 mmulT
  exact matmulNT_apply _ none ql kl i j

theorem hLogits3_eq (ql : FVec Ideal S64x64 .bf16) (ks : FVec Ideal S4096x64 .bf16) (v2 : FVec Ideal S1x4096 .f32) :
    mat2 (hLogits3 ql ks v2) = fun l s => mmulT (mat2 ql) (mat2 ks) l s - maskBias (fun s => v2 (ix2 0 s)) s := by
  funext l s
  rw [mat2_apply]
  unfold hLogits3 mmulT maskBias
  rw [subf_apply, bcastRow_apply]
  exact congrArg (· - _) (matmulNT_apply _ none ql ks l s)

theorem hSoftmaxA_eq (L : FVec Ideal S4096x64 .f32) : mat2 (hSoftmaxA L) = softmax (mat2 L) := by
  funext i j
  have hE : ∀ (i : Fin 4096) (j : Fin 64), hExpA L (ix2 i j) = Ideal.exp (mat2 L i j - vmax (mat2 L i)) :=
    fun i j => expRows_apply L _ _ _ _ _ i j
  rw [mat2_apply]
  unfold hSoftmaxA softmax
  refine (divRows_apply (hExpA L) _ _ _ _ _ i j).trans ?_
  rw [hE]
  exact congrArg (Ideal.div _) (Finset.sum_congr rfl fun k _ => hE i k)

theorem hSoftmaxB_eq (L : FVec Ideal S64x64 .f32) : mat2 (hSoftmaxB L) = softmax (mat2 L) := by
  funext i j
  have hE : ∀ (i : Fin 64) (j : Fin 64), hExpB L (ix2 i j) = Ideal.exp (mat2 L i j - vmax (mat2 L i)) :=
    fun i j => expRows_apply L _ _ _ _ _ i j
  rw [mat2_apply]
  unfold hSoftmaxB softmax
  refine (divRows_apply (hExpB L) _ _ _ _ _ i j).trans ?_
  rw [hE]
  exact congrArg (Ideal.div _) (Finset.sum_congr rfl fun k _ => hE i k)

theorem hSoftmaxC_eq (L : FVec Ideal S64x4096 .f32) : mat2 (hSoftmaxC L) = softmax (mat2 L) := by
  funext i j
  have hE : ∀ (i : Fin 64) (j : Fin 4096), hExpC L (ix2 i j) = Ideal.exp (mat2 L i j - vmax (mat2 L i)) :=
    fun i j => expRows_apply L _ _ _ _ _ i j
  rw [mat2_apply]
  unfold hSoftmaxC softmax
  refine (divRows_apply (hExpC L) _ _ _ _ _ i j).trans ?_
  rw [hE]
  exact congrArg (Ideal.div _) (Finset.sum_congr rfl fun k _ => hE i k)

end Cert.KernelIdeal.Hand

end
-- ==== Proof.KerHeadB.lean ====
import proofs.«416977_j76355928588535_3_alg».proof.Proof.KerMat
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Facts₀ Cert.KernelIdeal.Facts Cert.Nys
open scoped BigOperators

/-! ## The identity from two iotas -/

/-- Below `64` a number is read back from its 32-bit word. -/
private theorem ofNat32_inj {a b : ℕ} (ha : a < 64) (hb : b < 64) (h : BitVec.ofNat 32 a = BitVec.ofNat 32 b) : a = b := by
  have h' := congrArg BitVec.toNat h
  simp only [BitVec.toNat_ofNat] at h'
  omega

theorem hEye_eq : mat2 (hEye (F := Ideal)) = eye := by
  funext i j
  rw [mat2_apply]
  unfold hEye
  rw [sitofp_apply, extui_apply]
  show FloatOps.sitofp (F := Ideal) .f32
      ((IntOp.cmpi .eq (iota .tc S64x64 32 [0] iota_S64x64_d0_w32 (ix2 i j))
        (iota .tc S64x64 32 [1] iota_S64x64_d1_w32 (ix2 i j))).setWidth 32) = eye i j
  rw [iota_single_apply, iota_single_apply]
  show (((((IntOp.cmpi .eq (BitVec.ofNat 32 i.val) (BitVec.ofNat 32 j.val)).setWidth 32).toInt : ℝ)) : EReal) = if i = j then 1 else 0
  by_cases hij : i = j
  · subst hij
    rw [if_pos rfl]
    have : ((IntOp.cmpi .eq (BitVec.ofNat 32 i.val) (BitVec.ofNat 32 i.val)).setWidth 32).toInt = 1 := by
      simp [IntOp.cmpi]
    rw [this]; simp
  · rw [if_neg hij]
    have hne : BitVec.ofNat 32 i.val ≠ BitVec.ofNat 32 j.val := fun h => hij (Fin.ext (ofNat32_inj i.isLt j.isLt h))
    have hb : (BitVec.ofNat 32 i.val == BitVec.ofNat 32 j.val) = false := beq_eq_false_iff_ne.mpr hne
    have : ((IntOp.cmpi .eq (BitVec.ofNat 32 i.val) (BitVec.ofNat 32 j.val)).setWidth 32).toInt = 0 := by
      simp [IntOp.cmpi, hb]
    rw [this]; simp

/-! ## The Newton–Schulz start -/

/-- A `[1, 1]` array broadcast to `[a, b]` reads its one element everywhere. -/
private theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Column sums: the sum over the rows. -/
private theorem colsum_apply (A : FVec Ideal S64x64 .f32) (k : Fin 64) :
    multiReduction .add [0] S64 A 0x00000000#32 reduces_S64x64_S64_2 (.inl rfl) rfl (ix1 k) = ∑ r : Fin 64, A (ix2 r k) := by
  refine (Ideal.multiReduction_add_single A _ reduces_S64x64_S64_2 _ _ (ix1 k)).trans ?_
  refine Finset.sum_congr rfl fun r _ => congrArg A ?_
  funext c
  match c with
  | ⟨0, _⟩ => exact Fin.ext rfl
  | ⟨1, _⟩ => exact Fin.ext rfl

/-- The maximum of a one-row block's row. -/
private theorem rowmax1_apply (C : FVec Ideal S1x64 .f32) :
    multiReduction .maximumf [1] S1 C 0xFF800000#32 reduces_S1x64_S1 (.inl rfl) rfl (ix1 (0 : Fin 1))
      = vmax fun k : Fin 64 => C (ix2 (0 : Fin 1) k) := by
  refine (Ideal.multiReduction_maximumf_single C _ reduces_S1x64_S1 _ _ (ix1 (0 : Fin 1))).trans ?_
  unfold vmax
  have hf : (C ∘ reduces_S1x64_S1.lift (ix1 (0 : Fin 1))) = fun k : Fin 64 => C (ix2 (0 : Fin 1) k) := by
    funext k
    refine congrArg C ?_
    funext c
    match c with
    | ⟨0, _⟩ => exact Fin.ext rfl
    | ⟨1, _⟩ => exact Fin.ext rfl
  rw [hf]
  rfl

theorem hInit_eq (A : FVec Ideal S64x64 .f32) : mat2 (hInit A) = nsInit (mat2 A) := by
  funext i j
  rw [mat2_apply]
  unfold hInit nsInit
  rw [divf_apply, transpose_ix2_apply]
  refine congrArg (Ideal.div (A (ix2 j i))) ?_
  refine (broadcastTo_11_ab_apply _ _ i j).trans ?_
  refine (shapeCast_a_1a_apply _ _ (0 : Fin 1) (0 : Fin 1)).trans ?_
  refine (rowmax1_apply _).trans ?_
  refine congrArg vmax (funext fun k => ?_)
  refine (shapeCast_a_1a_apply _ _ (0 : Fin 1) k).trans ?_
  exact colsum_apply A k

/-! ## A plain product `[n, k] × [k, m]` read as a matrix product -/

/-- The left operand's index of a plain product at contraction coordinate `l`. -/
private theorem plain_lhsIdx {n k m : ℕ} (i : Fin n) (j : Fin m) (l : Fin k) :
    (DotDims.plain n k m).lhsIdx (ix2 i j) ((contrEquiv1 (DotDims.plain n k m) k rfl rfl).symm l) = ix2 i l := by
  funext a
  match a with
  | ⟨0, _⟩ => exact Fin.ext rfl
  | ⟨1, _⟩ => exact Fin.ext rfl

/-- The right operand's index of a plain product at contraction coordinate `l`. -/
private theorem plain_rhsIdx {n k m : ℕ} (i : Fin n) (j : Fin m) (l : Fin k) :
    (DotDims.plain n k m).rhsIdx (ix2 i j) ((contrEquiv1 (DotDims.plain n k m) k rfl rfl).symm l) = ix2 l j := by
  funext a
  match a with
  | ⟨0, _⟩ => exact Fin.ext rfl
  | ⟨1, _⟩ => exact Fin.ext rfl

/-- A plain product into the zero accumulator is the matrix product. -/
private theorem mat2_matmul_plain {n k m : ℕ} {φ₁ φ₂ : FTy} (prec : Option ContractPrecision)
    (A : FVec Ideal ⟨2, ![n, k]⟩ φ₁) (B : FVec Ideal ⟨2, ![k, m]⟩ φ₂) :
    mat2 (matmul (DotDims.plain n k m) prec A B (constant ⟨2, ![n, m]⟩ .f32 0x00000000#32)) = mmul (mat2 A) (mat2 B) := by
  funext i j
  rw [mat2_apply]
  refine (Ideal.matmul_constant_zero_apply (DotDims.plain n k m) prec A B (ix2 i j)).trans ?_
  unfold mmul
  rw [← Equiv.sum_comp (contrEquiv1 (DotDims.plain n k m) k rfl rfl).symm]
  refine Finset.sum_congr rfl fun l _ => ?_
  rw [plain_lhsIdx, plain_rhsIdx]
  rfl

theorem hMM_eq (A B : FVec Ideal S64x64 .f32) : mat2 (hMM A B) = mmul (mat2 A) (mat2 B) :=
  mat2_matmul_plain (some .fp32) A B

/-! ## Pointwise operations as matrices -/

private theorem mat2_truncf {n m : ℕ} (X : FVec Ideal ⟨2, ![n, m]⟩ .f32) (h : FTy.bits .bf16 < FTy.bits .f32) :
    mat2 (truncf .bf16 X h) = mat2 X := rfl

private theorem mat2_subf {n m : ℕ} (X Y : FVec Ideal ⟨2, ![n, m]⟩ .f32) :
    mat2 (subf X Y) = fun i j => mat2 X i j - mat2 Y i j := rfl

private theorem mat2_mulf_splat {n m : ℕ} (w : BitVec 32) (X : FVec Ideal ⟨2, ![n, m]⟩ .f32) :
    mat2 (mulf (broadcast ⟨2, ![n, m]⟩ (Scalar.ofBits (F := Ideal) .f32 w)) X) = fun i j => Ideal.ofBits .f32 w * mat2 X i j := rfl

theorem hStep_eq (A Z I : FVec Ideal S64x64 .f32) (hI : mat2 I = eye) : mat2 (hStep A Z I) = nsStep (mat2 A) (mat2 Z) := by
  unfold hStep nsStep
  simp only [hMM_eq, mat2_subf, mat2_mulf_splat, hI]

theorem hInv_eq (A : FVec Ideal S64x64 .f32) : mat2 (hInv A) = nsInv (mat2 A) := by
  unfold hInv nsInv
  rw [hStep_eq _ _ _ hEye_eq, hStep_eq _ _ _ hEye_eq, hStep_eq _ _ _ hEye_eq, hStep_eq _ _ _ hEye_eq,
    hStep_eq _ _ _ hEye_eq, hStep_eq _ _ _ hEye_eq, hInit_eq]

theorem hFinal_eq (k1 : FVec Ideal S4096x64 .f32) (Z : FVec Ideal S64x64 .f32) (k3 : FVec Ideal S64x4096 .f32)
    (v : FVec Ideal S4096x64 .f32) :
    mat2 (hFinal k1 Z k3 v) = mmul (mat2 k1) (mmul (mat2 Z) (mmul (mat2 k3) (mat2 v))) := by
  unfold hFinal
  refine (mat2_matmul_plain none _ _).trans ?_
  rw [mat2_truncf, mat2_truncf]
  refine congrArg (mmul (mat2 k1)) ?_
  refine (mat2_matmul_plain none _ _).trans ?_
  rw [mat2_truncf, mat2_truncf]
  refine congrArg (mmul (mat2 Z)) ?_
  refine (mat2_matmul_plain none _ _).trans ?_
  rw [mat2_truncf, mat2_truncf]

end Cert.KernelIdeal.Hand

end
-- ==== Proof.KerHead.lean ====
import proofs.«416977_j76355928588535_3_alg».proof.Proof.KerHeadA
import proofs.«416977_j76355928588535_3_alg».proof.Proof.KerHeadB

noncomputable section

namespace Cert.KernelIdeal.Hand

open Idealize.ShloMosaic Idealize.ShloMosaic.ValueIdx Cert.KernelIdeal Cert.KernelIdeal.Facts₀ Cert.KernelIdeal.Facts Cert.Nys

/-- One head of the kernel is the specification's head in the kernel's spelling, when the pooling block is the
    pooling matrix and the mask column is the mask row transposed. -/
theorem headVec_eq (v2 : FVec Ideal S1x4096 .f32) (v3 : FVec Ideal S4096x1 .f32) (v5 : FVec Ideal S64x4096 .bf16)
    (q k v : FVec Ideal S4096x64 .f32) (hv3 : ∀ s : Fin 4096, v3 (ix2 s 0) = v2 (ix2 0 s)) (hpool : mat2 v5 = poolW) :
    mat2 (headVec v2 v3 v5 q k v) = headK (mat2 q) (mat2 k) (mat2 v) (fun s => v2 (ix2 0 s)) := by
  have hm : (fun s : Fin 4096 => v3 (ix2 s 0)) = fun s => v2 (ix2 0 s) := funext hv3
  unfold headVec hK2
  rw [hFinal_eq, hSoftmaxA_eq, hLogits1_eq, hInv_eq, hSoftmaxB_eq, hLogits2_eq, hSoftmaxC_eq, hLogits3_eq]
  simp only [hQl_eq, hKl_eq, hScaled_eq, hpool, hm]
  rfl

end Cert.KernelIdeal.Hand

end
-- ==== Proof.KerBodyOf.lean ====
import proofs.«416977_j76355928588535_3_alg».proof.Proof.KerHead
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Facts₀ Cert.KernelIdeal.Facts Cert.Nys

/-- A `[1, 1, a, b]` array cast to `[a, b]` reads, at `(i, j)`, the operand at `(0, 0, i, j)`: both indices have
    the row-major position `i · b + j`. -/
private theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- Two `4096 × 64` blocks, each given a leading unit axis, stacked along it, and the stack given one more leading
    unit axis: at `(0, 0, s, d)` the first block at `(s, d)`, at `(0, 1, s, d)` the second. -/
private theorem stack_apply (p0 p1 : FVec Ideal S4096x64 .f32) (s : Fin 4096) (d : Fin 64) :
    shapeCast S1x2x4096x64 (concatenate S2x4096x64 0
        [⟨S1x4096x64, shapeCast S1x4096x64 p0 shapeCasts_S4096x64_S1x4096x64⟩,
         ⟨S1x4096x64, shapeCast S1x4096x64 p1 shapeCasts_S4096x64_S1x4096x64⟩]
        concatenates_S1x4096x64_S1x4096x64_S2x4096x64_d0) shapeCasts_S2x4096x64_S1x2x4096x64 (ix4 0 0 s d)
      = p0 (ix2 s d)
    ∧ shapeCast S1x2x4096x64 (concatenate S2x4096x64 0
        [⟨S1x4096x64, shapeCast S1x4096x64 p0 shapeCasts_S4096x64_S1x4096x64⟩,
         ⟨S1x4096x64, shapeCast S1x4096x64 p1 shapeCasts_S4096x64_S1x4096x64⟩]
        concatenates_S1x4096x64_S1x4096x64_S2x4096x64_d0) shapeCasts_S2x4096x64_S1x2x4096x64 (ix4 0 1 s d)
      = p1 (ix2 s d) := by
  constructor
  · refine (shapeCast_abc_1abc_apply _ shapeCasts_S2x4096x64_S1x2x4096x64 0 0 s d).trans ?_
    refine (concatenate_pair_apply_left (t := S2x4096x64) (s₁ := S1x4096x64) (s₂ := S1x4096x64) 0 _ _ concatenates_S1x4096x64_S1x4096x64_S2x4096x64_d0
      (ix3 (0 : Fin 2) s d) rfl (ix3 (0 : Fin 1) s d) ?_).trans ?_
    · intro b
      match b with
      | ⟨0, _⟩ => rfl
      | ⟨1, _⟩ => rfl
      | ⟨2, _⟩ => rfl
    · exact shapeCast_ab_1ab_apply p0 shapeCasts_S4096x64_S1x4096x64 0 s d
  · refine (shapeCast_abc_1abc_apply _ shapeCasts_S2x4096x64_S1x2x4096x64 0 1 s d).trans ?_
    refine (concatenate_pair_apply_right (t := S2x4096x64) (s₁ := S1x4096x64) (s₂ := S1x4096x64) 0 _ _ concatenates_S1x4096x64_S1x4096x64_S2x4096x64_d0
      (ix3 (1 : Fin 2) s d) rfl rfl (ix3 (0 : Fin 1) s d) ?_ ?_).trans ?_
    · intro b hb
      match b, hb with
      | ⟨0, _⟩, hb => exact absurd rfl hb
      | ⟨1, _⟩, _ => rfl
      | ⟨2, _⟩, _ => rfl
    · rfl
    · exact shapeCast_ab_1ab_apply p1 shapeCasts_S4096x64_S1x4096x64 0 s d

/-- The body's value over its eight loaded values, entry by entry: head 0 of the stacked block is the specification's
    head of the first three loaded blocks, head 1 that of the last three, both with the loaded mask row, when the
    loaded pooling block is the pooling matrix. -/
theorem bodyOf_apply (v1 : Vec Ideal S1x1x4096 .f32) (v4 : Vec Ideal S64x4096 .bf16)
    (v6 v8 v10 v175 v177 v179 : Vec Ideal S1x1x4096x64 .f32)
    (hpool : ∀ (l : Fin 64) (s : Fin 4096), v4 (ix2 l s) = poolW l s) (s : Fin 4096) (d : Fin 64) :
    bodyOf (F := Ideal) v1 v4 v6 v8 v10 v175 v177 v179 (ix4 0 0 s d)
        = headK (fun s d => v6 (ix4 0 0 s d)) (fun s d => v8 (ix4 0 0 s d)) (fun s d => v10 (ix4 0 0 s d))
            (fun s => v1 (ix3 0 0 s)) s d
    ∧ bodyOf (F := Ideal) v1 v4 v6 v8 v10 v175 v177 v179 (ix4 0 1 s d)
        = headK (fun s d => v175 (ix4 0 0 s d)) (fun s d => v177 (ix4 0 0 s d)) (fun s d => v179 (ix4 0 0 s d))
            (fun s => v1 (ix3 0 0 s)) s d := by
  -- the mask row, the mask column, the pooling block and a loaded block, each read at an index
  have hv2 : ∀ s : Fin 4096,
      (shapeCast S1x4096 v1 shapeCasts_S1x1x4096_S1x4096 : FVec Ideal S1x4096 .f32) (ix2 0 s) = v1 (ix3 0 0 s) :=
    fun s => shapeCast_1ab_ab_apply v1 shapeCasts_S1x1x4096_S1x4096 0 s
  have hmask : (fun s : Fin 4096 =>
      (shapeCast S1x4096 v1 shapeCasts_S1x1x4096_S1x4096 : FVec Ideal S1x4096 .f32) (ix2 0 s))
        = fun s => v1 (ix3 0 0 s) := funext hv2
  have hv3 : ∀ s : Fin 4096,
      (transpose S4096x1 [1, 0] (shapeCast S1x4096 v1 shapeCasts_S1x1x4096_S1x4096 : FVec Ideal S1x4096 .f32)
          transposes_S1x4096_p1_0_S4096x1 : FVec Ideal S4096x1 .f32) (ix2 s 0)
        = (shapeCast S1x4096 v1 shapeCasts_S1x1x4096_S1x4096 : FVec Ideal S1x4096 .f32) (ix2 0 s) :=
    fun s => transpose_ix2_apply _ transposes_S1x4096_p1_0_S4096x1 s 0
  have hpool' : mat2 (shapeCast S64x4096 v4 shapeCasts_S64x4096_S64x4096 : FVec Ideal S64x4096 .bf16) = poolW := by
    rw [shapeCast_self]
    funext l s
    exact hpool l s
  have hblk : ∀ x : Vec Ideal S1x1x4096x64 .f32,
      mat2 (shapeCast S4096x64 x shapeCasts_S1x1x4096x64_S4096x64 : FVec Ideal S4096x64 .f32)
        = fun s d => x (ix4 0 0 s d) :=
    fun x => funext fun s => funext fun d => shapeCast_11ab_ab_apply x shapeCasts_S1x1x4096x64_S4096x64 s d
  have e0 := congrFun (congrFun (headVec_eq _ _ _
    (shapeCast S4096x64 v6 shapeCasts_S1x1x4096x64_S4096x64) (shapeCast S4096x64 v8 shapeCasts_S1x1x4096x64_S4096x64)
    (shapeCast S4096x64 v10 shapeCasts_S1x1x4096x64_S4096x64) hv3 hpool') s) d
  have e1 := congrFun (congrFun (headVec_eq _ _ _
    (shapeCast S4096x64 v175 shapeCasts_S1x1x4096x64_S4096x64) (shapeCast S4096x64 v177 shapeCasts_S1x1x4096x64_S4096x64)
    (shapeCast S4096x64 v179 shapeCasts_S1x1x4096x64_S4096x64) hv3 hpool') s) d
  rw [hblk, hblk, hblk, hmask] at e0 e1
  unfold bodyOf
  exact ⟨(stack_apply _ _ s d).1.trans e0, (stack_apply _ _ s d).2.trans e1⟩

end Cert.KernelIdeal.Hand

end
-- ==== Proof.KerBody.lean ====
import proofs.«416977_j76355928588535_3_alg».proof.Proof.KerBodyOf
import proofs.«416977_j76355928588535_3_alg».proof.Proof.Gen.KernelIdeal.Frame
import Idealize.ShloMosaic.Lib.ValueLayout
import Idealize.ShloMosaic.Lib.Tactic

/-!
  What the kernel body leaves in its output block.

  The body loads row `i 0` of the mask block, the whole pooling block, and heads 0 and 1 of the query, key
  and value blocks; it computes one head of attention from each triple and stores the two results stacked.
  First, for any float instance, the stored block is the body's arithmetic (`bodyOf`) of those eight loads.
  Then, at the ideal instance, entry `(0, hi, s, d)` of the block is the specification's head of heads `hi`
  of the inputs, each load read at an index being the entry of its block that the rectangle names.
-/

set_option maxRecDepth 16384

noncomputable section

namespace Cert.KernelIdeal.Hand

open Idealize.ShloMosaic Idealize.ShloMosaic.TcCoe Idealize.ShloMosaic.ValueIdx Idealize.SL.Sem
open Idealize.ShloMosaic.Tactic
open Cert.KernelIdeal Cert.KernelIdeal.Gen Cert.KernelIdeal.Facts₀ Cert.KernelIdeal.Facts Cert.Nys

section AnyInstance

variable {F : FTy → Type} [FloatOps F]

private theorem zeros4 : (![0, 0, 0, 0] : Fin 4 → Nat) = fun _ => 0 := funext fun a => by fin_cases a <;> rfl
private theorem zeros2 : (![0, 0] : Fin 2 → Nat) = fun _ => 0 := funext fun a => by fin_cases a <;> rfl

/-- The mask row the body loads: row `i 0` of the mask block. -/
abbrev ldMask (i : grid0.Coords) (x3 : Vec F S4x1x4096 .f32) : Vec F S1x1x4096 .f32 :=
  View.ld x3 (Rect.unit (s := S4x1x4096) (k0_off1 i) S1x1x4096.size (Gen.k0_off1_inb i))

/-- Head 0 of a block of two heads, as the body loads it. -/
abbrev ldHead0 (x : Vec F S1x2x4096x64 .f32) : Vec F S1x1x4096x64 .f32 :=
  View.ld x (Rect.unit (s := S1x2x4096x64) ![0, 0, 0, 0] S1x1x4096x64.size Gen.inb_S1x2x4096x64_S1x1x4096x64_0_0_0_0)

/-- Head 1 of a block of two heads, as the body loads it. -/
abbrev ldHead1 (x : Vec F S1x2x4096x64 .f32) : Vec F S1x1x4096x64 .f32 :=
  View.ld x (Rect.unit (s := S1x2x4096x64) ![0, 1, 0, 0] S1x1x4096x64.size Gen.inb_S1x2x4096x64_S1x1x4096x64_0_1_0_0)

/-- The block the body stores is its arithmetic of the eight values it loads: the one store covers the block, so
    the block is the store's payload, and the payload's chain of operations is `bodyOf`'s. -/
theorem out_eq_bodyOf (c : Dev nD) (i : grid0.Coords) (arg2 : Memref sig .tc .vmem S1x2x4096x64 .f32) (harg2 : arg2.IsWhole) (arg3 : Memref sig .tc .vmem S1x2x4096x64 .f32) (harg3 : arg3.IsWhole) (arg4 : Memref sig .tc .vmem S1x2x4096x64 .f32) (harg4 : arg4.IsWhole) (arg5 : Memref sig .tc .vmem S4x1x4096 .f32) (harg5 : arg5.IsWhole) (arg6 : Memref sig .tc .vmem S64x4096 .bf16) (harg6 : arg6.IsWhole) (arg7 : Memref sig .tc .vmem S1x2x4096x64 .f32) (harg7 : arg7.IsWhole)
    (x0 x1 x2 : Vec F S1x2x4096x64 .f32) (x3 : Vec F S4x1x4096 .f32) (x4 : Vec F S64x4096 .bf16) :
    out0_A_5 c i arg2 harg2 arg3 harg3 arg4 harg4 arg5 harg5 arg6 harg6 arg7 harg7 x0 x1 x2 x3 x4
      = bodyOf (ldMask i x3) x4 (ldHead0 x0) (ldHead0 x1) (ldHead0 x2) (ldHead1 x0) (ldHead1 x1) (ldHead1 x2) := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  rw [View.canon_unit_zero zeros4]
  simp only [View.readAt_eq_ld, harg2.read_unread, harg3.read_unread, harg4.read_unread, harg5.read_unread,
    harg6.read_unread, View.ld_unit_zero (S := S64x4096) zeros2]
  rfl

/-! ## The loads read at an index

A load through a unit-stride rectangle reads, at an index, the block at the rectangle's offsets plus the index. -/

/-- Head 0 at `(0, 0, s, d)` is the block at `(0, 0, s, d)`. -/
theorem ldHead0_apply (x : Vec F S1x2x4096x64 .f32) (s : Fin 4096) (d : Fin 64) :
    ldHead0 x (ix4 (0 : Fin 1) (0 : Fin 1) s d) = x (ix4 (0 : Fin 1) (0 : Fin 2) s d) := by
  show x _ = x _
  refine congrArg x (funext fun a => Fin.ext ?_)
  match a with
  | ⟨0, _⟩ => rfl
  | ⟨1, _⟩ => rfl
  | ⟨2, _⟩ => show 0 + 1 * s.val = s.val; omega
  | ⟨3, _⟩ => show 0 + 1 * d.val = d.val; omega

/-- Head 1 at `(0, 0, s, d)` is the block at `(0, 1, s, d)`. -/
theorem ldHead1_apply (x : Vec F S1x2x4096x64 .f32) (s : Fin 4096) (d : Fin 64) :
    ldHead1 x (ix4 (0 : Fin 1) (0 : Fin 1) s d) = x (ix4 (0 : Fin 1) (1 : Fin 2) s d) := by
  show x _ = x _
  refine congrArg x (funext fun a => Fin.ext ?_)
  match a with
  | ⟨0, _⟩ => rfl
  | ⟨1, _⟩ => rfl
  | ⟨2, _⟩ => show 0 + 1 * s.val = s.val; omega
  | ⟨3, _⟩ => show 0 + 1 * d.val = d.val; omega

/-- The mask row at `(0, 0, s)` is the mask block at `(i 0, 0, s)`: the row offset is the first grid coordinate. -/
theorem ldMask_apply (i : grid0.Coords) (x3 : Vec F S4x1x4096 .f32) (s : Fin 4096) :
    ldMask i x3 (ix3 (0 : Fin 1) (0 : Fin 1) s) = x3 (ix3 (i 0) (0 : Fin 1) s) := by
  show x3 _ = x3 _
  refine congrArg x3 (funext fun a => Fin.ext ?_)
  have h0 : k0_off1 i 0 = (i 0).val := by rw [k0_off1_eq]; rfl
  have h1 : k0_off1 i 1 = 0 := by rw [k0_off1_eq]; rfl
  have h2 : k0_off1 i 2 = 0 := by rw [k0_off1_eq]; rfl
  match a with
  | ⟨0, _⟩ => show k0_off1 i 0 + 1 * 0 = (i 0).val; omega
  | ⟨1, _⟩ => show k0_off1 i 1 + 1 * 0 = 0; omega
  | ⟨2, _⟩ => show k0_off1 i 2 + 1 * s.val = s.val; omega

end AnyInstance

/-! ## The output block at the ideal instance -/

/-- What the body leaves in the output's staging buffer, at the ideal instance, entry by entry: head `hi` of the
    block is the specification's head of heads `hi` of the three input blocks and row `i 0` of the mask block,
    when the pooling block is the pooling matrix. -/
theorem out_apply (c : Dev nD) (i : grid0.Coords) (arg2 : Memref sig .tc .vmem S1x2x4096x64 .f32) (harg2 : arg2.IsWhole) (arg3 : Memref sig .tc .vmem S1x2x4096x64 .f32) (harg3 : arg3.IsWhole) (arg4 : Memref sig .tc .vmem S1x2x4096x64 .f32) (harg4 : arg4.IsWhole) (arg5 : Memref sig .tc .vmem S4x1x4096 .f32) (harg5 : arg5.IsWhole) (arg6 : Memref sig .tc .vmem S64x4096 .bf16) (harg6 : arg6.IsWhole) (arg7 : Memref sig .tc .vmem S1x2x4096x64 .f32) (harg7 : arg7.IsWhole)
    (x0 x1 x2 : Vec Ideal S1x2x4096x64 .f32) (x3 : Vec Ideal S4x1x4096 .f32) (x4 : Vec Ideal S64x4096 .bf16)
    (hpool : ∀ (l : Fin 64) (s : Fin 4096), x4 (ix2 l s) = poolW l s) (hi : Fin 2) (s : Fin 4096) (d : Fin 64) :
    out0_A_5 (F := Ideal) c i arg2 harg2 arg3 harg3 arg4 harg4 arg5 harg5 arg6 harg6 arg7 harg7 x0 x1 x2 x3 x4 (ix4 0 hi s d)
      = headK (fun s d => x0 (ix4 0 hi s d)) (fun s d => x1 (ix4 0 hi s d)) (fun s d => x2 (ix4 0 hi s d))
          (fun s => x3 (ix3 (i 0) 0 s)) s d := by
  refine (congrFun (out_eq_bodyOf (F := Ideal) c i arg2 harg2 arg3 harg3 arg4 harg4 arg5 harg5 arg6 harg6 arg7 harg7 x0 x1 x2 x3 x4) (ix4 0 hi s d)).trans ?_
  have hb := bodyOf_apply (ldMask i x3) x4 (ldHead0 x0) (ldHead0 x1) (ldHead0 x2) (ldHead1 x0) (ldHead1 x1) (ldHead1 x2)
    hpool s d
  have hm : (fun s : Fin 4096 => ldMask i x3 (ix3 (0 : Fin 1) (0 : Fin 1) s)) = fun s => x3 (ix3 (i 0) (0 : Fin 1) s) :=
    funext fun s => ldMask_apply i x3 s
  have h0 : ∀ x : Vec Ideal S1x2x4096x64 .f32,
      (fun (s : Fin 4096) (d : Fin 64) => ldHead0 x (ix4 (0 : Fin 1) (0 : Fin 1) s d))
        = fun s d => x (ix4 (0 : Fin 1) (0 : Fin 2) s d) :=
    fun x => funext fun s => funext fun d => ldHead0_apply x s d
  have h1 : ∀ x : Vec Ideal S1x2x4096x64 .f32,
      (fun (s : Fin 4096) (d : Fin 64) => ldHead1 x (ix4 (0 : Fin 1) (0 : Fin 1) s d))
        = fun s d => x (ix4 (0 : Fin 1) (1 : Fin 2) s d) :=
    fun x => funext fun s => funext fun d => ldHead1_apply x s d
  match hi with
  | ⟨0, _⟩ =>
    refine hb.1.trans ?_
    rw [hm, h0 x0, h0 x1, h0 x2]
    rfl
  | ⟨1, _⟩ =>
    refine hb.2.trans ?_
    rw [hm, h1 x0, h1 x1, h1 x2]
    rfl

end Cert.KernelIdeal.Hand

end
-- ==== Proof.KerHost.lean ====
import proofs.«416977_j76355928588535_3_alg».proof.Proof.Gen.KernelIdeal.Frame
import proofs.«416977_j76355928588535_3_alg».proof.Proof.Spec
import Idealize.ShloMosaic.Lib.ValueIdx
import Idealize.ShloMosaic.Lib.StableHlo.Run
import Idealize.ShloMosaic.Lib.StableHlo.Predicate
import Idealize.ShloMosaic.Lib.Pipeline.Value

/-!
  The two operands the host builds before the region, read at an index.

  The mask operand is the mask argument with a unit axis inserted.  The pooling operand is built from integer
  words: the column numbers, their floor division by 64, compared with the row numbers, choosing between the float
  words of 1/64 and 0; at (l, s) it is 1/64 exactly when s / 64 = l.
-/

noncomputable section

namespace Cert.KernelIdeal.Hand

open Idealize.ShloMosaic Idealize.ShloMosaic.TcCoe Idealize.ShloMosaic.ValueIdx Idealize.SL.Sem
open Cert.KernelIdeal Cert.KernelIdeal.Gen Cert.KernelIdeal.Facts₀ Cert.KernelIdeal.Facts Cert.Nys

variable (m : (ℓ : Loc nD τ sig) → Buf (Elt Ideal) ℓ)

/-! ## The mask operand -/

/-- The mask operand as the region finds it: the mask argument broadcast along a new unit axis. -/
theorem V_mask_eq (c : Dev nD) :
    (V (F := Ideal) m c main_v10 : S4x1x4096.Idx → EReal)
      = broadcastInDim S4x1x4096 ![0, 2] Gen.bcast_S4x4096_S4x1x4096_0_2
          (m ((c : Thread nD τ).loc main_arg3) : S4x4096.Idx → EReal) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results

/-- The mask operand of the region is the mask argument with a unit axis inserted. -/
theorem V_mask (c : Dev nD) (b : Fin 4) (s : Fin 4096) :
    (V (F := Ideal) m c main_v10 : S4x1x4096.Idx → EReal) (ix3 b 0 s)
      = (m ((c : Thread nD τ).loc main_arg3) : S4x4096.Idx → EReal) (ix2 b s) := by
  rw [V_mask_eq]
  refine broadcastInDim_apply _ _ _ (ix3 b 0 s) (ix2 b s) (fun a => ?_)
  match a with
  | ⟨0, _⟩ => rfl
  | ⟨1, _⟩ => rfl

/-! ## The pooling operand: the words -/

/-- The sign of a two's-complement word: 0, -1 or 1. -/
def sgnw (w : BitVec 32) : BitVec 32 := if w = 0 then 0 else if w.msb then -1 else 1

/-- The floor division by 64 of a 32-bit word, as the host spells it: the quotient rounded toward zero, less one
    where the signs differ and the remainder is not zero. -/
def fdiv64 (w : BitVec 32) : BitVec 32 :=
  Scalar.select
    (IntOp.andi
      (IntOp.cmpi .ne (sgnw w) (sgnw 64#32))
      (IntOp.cmpi .ne (IntOp.remsi .host w 64#32) 0#32))
    (IntOp.subi (IntOp.divsi .host w 64#32) 1#32)
    (IntOp.divsi .host w 64#32)

/-- On the word of a column number below 4096 it is the word of the number's quotient by 64: the dividend is not
    negative, so the correction never applies. Checked on each of the 4096 words. -/
theorem fdiv64_eq : ∀ s : Fin 4096, fdiv64 (BitVec.ofNat 32 s.val) = BitVec.ofNat 32 (s.val / 64) := by
  decide +kernel

/-- Two numbers below 2³² are equal exactly when their words are. -/
theorem ofNat_eq_iff (a b : ℕ) (ha : a < 2 ^ 32) (hb : b < 2 ^ 32) : BitVec.ofNat 32 a = BitVec.ofNat 32 b ↔ a = b := by
  constructor
  · intro h
    have h' := congrArg BitVec.toNat h
    simp only [BitVec.toNat_ofNat] at h'
    rw [Nat.mod_eq_of_lt ha, Nat.mod_eq_of_lt hb] at h'
    exact h'
  · intro h; rw [h]

/-! ## The pooling operand: the arrays read at an index -/

/-- The floor division by 64 of a row of words, read at an index, is the word-level chain at the entry. -/
theorem floorDiv_apply (x : IVec S1x4096 32) (j : S1x4096.Idx) :
    (select
      (andi
        (cmpi .ne (signi x) (broadcastInDim S1x4096 ![] Gen.bcast_S_S1x4096 (signi (constantI S_ 32 64#32))))
        (cmpi .ne (Host.remsi x (broadcastInDim S1x4096 ![] Gen.bcast_S_S1x4096 (constantI S_ 32 64#32)))
          (broadcastInDim S1x4096 ![] Gen.bcast_S_S1x4096 (constantI S_ 32 0#32))))
      (subi (Host.divsi x (broadcastInDim S1x4096 ![] Gen.bcast_S_S1x4096 (constantI S_ 32 64#32)))
        (broadcastInDim S1x4096 ![] Gen.bcast_S_S1x4096 (constantI S_ 32 1#32)))
      (Host.divsi x (broadcastInDim S1x4096 ![] Gen.bcast_S_S1x4096 (constantI S_ 32 64#32))) : IVec S1x4096 32) j
      = fdiv64 (x j) := rfl

/-- The column numbers as one row: entry (0, s) is the word of s. -/
theorem colIota_apply (s : Fin 4096) :
    (broadcastInDim S1x4096 ![1] Gen.bcast_S4096_S1x4096_1 (iotaInDim S4096 32 0) : IVec S1x4096 32) (ix2 (0 : Fin 1) s)
      = BitVec.ofNat 32 s.val := by
  refine (broadcastInDim_apply _ _ _ (ix2 (0 : Fin 1) s) (ix1 s) (fun a => ?_)).trans rfl
  match a with
  | ⟨0, _⟩ => rfl

/-- A row copied down the 64 rows: entry (l, s) is the row's entry (0, s). -/
theorem bcastRow_apply (x : IVec S1x4096 32) (l : Fin 64) (s : Fin 4096) :
    (broadcastInDim S64x4096 ![0, 1] Gen.bcast_S1x4096_S64x4096_0_1 x : IVec S64x4096 32) (ix2 l s) = x (ix2 (0 : Fin 1) s) := by
  refine broadcastInDim_apply _ _ _ (ix2 l s) (ix2 (0 : Fin 1) s) (fun a => ?_)
  match a with
  | ⟨0, _⟩ => rfl
  | ⟨1, _⟩ => rfl

/-- The row numbers copied along the columns: entry (l, s) is the word of l. -/
theorem rowIota_apply (l : Fin 64) (s : Fin 4096) :
    (broadcastInDim S64x4096 ![0, 1] Gen.bcast_S64x1_S64x4096_0_1
        (broadcastInDim S64x1 ![0] Gen.bcast_S64_S64x1_0 (iotaInDim S64 32 0)) : IVec S64x4096 32) (ix2 l s)
      = BitVec.ofNat 32 l.val := by
  refine (broadcastInDim_apply _ _ _ (ix2 l s) (ix2 l (0 : Fin 1)) (fun a => ?_)).trans ?_
  · match a with
    | ⟨0, _⟩ => rfl
    | ⟨1, _⟩ => rfl
  · refine (broadcastInDim_apply _ _ _ (ix2 l (0 : Fin 1)) (ix1 l) (fun a => ?_)).trans rfl
    match a with
    | ⟨0, _⟩ => rfl

/-- A choice between two broadcast float words by the equality of two word arrays, narrowed (the identity on
    extended reals), read at an index. -/
theorem whereEq_apply (A B : IVec S64x4096 32) (u v : BitVec 32) (j : S64x4096.Idx) :
    (truncf .bf16
        (select (cmpi .eq A B)
          (broadcastInDim S64x4096 ![] Gen.bcast_S_S64x4096 (constant (F := Ideal) S_ .f32 u))
          (broadcastInDim S64x4096 ![] Gen.bcast_S_S64x4096 (constant (F := Ideal) S_ .f32 v)))
        Gen.bitsLt_bf16_f32 : FVec Ideal S64x4096 .bf16) j
      = if A j = B j then Ideal.ofBits .f32 u else Ideal.ofBits .f32 v := by
  show Scalar.select (IntOp.cmpi .eq (A j) (B j)) (Ideal.ofBits .f32 u) (Ideal.ofBits .f32 v) = _
  unfold Scalar.select
  by_cases h : A j = B j
  · have hc : IntOp.cmpi .eq (A j) (B j) = 1 := StableHlo.Predicate.cmpi_eq_iff.mpr h
    rw [if_pos h]; exact if_pos hc
  · have hc : ¬ IntOp.cmpi .eq (A j) (B j) = 1 := fun h' => h (StableHlo.Predicate.cmpi_eq_iff.mp h')
    rw [if_neg h]; exact if_neg hc

/-- The pooling matrix as the host builds it, read at (l, s): 1/64 where s / 64 = l, else 0. -/
theorem pool_entry (l : Fin 64) (s : Fin 4096) :
    (truncf .bf16
        (select
          (cmpi .eq
            (broadcastInDim S64x4096 ![0, 1] Gen.bcast_S1x4096_S64x4096_0_1
              (select
                (andi
                  (cmpi .ne
                    (signi (broadcastInDim S1x4096 ![1] Gen.bcast_S4096_S1x4096_1 (iotaInDim S4096 32 0)))
                    (broadcastInDim S1x4096 ![] Gen.bcast_S_S1x4096 (signi (constantI S_ 32 64#32))))
                  (cmpi .ne
                    (Host.remsi (broadcastInDim S1x4096 ![1] Gen.bcast_S4096_S1x4096_1 (iotaInDim S4096 32 0))
                      (broadcastInDim S1x4096 ![] Gen.bcast_S_S1x4096 (constantI S_ 32 64#32)))
                    (broadcastInDim S1x4096 ![] Gen.bcast_S_S1x4096 (constantI S_ 32 0#32))))
                (subi
                  (Host.divsi (broadcastInDim S1x4096 ![1] Gen.bcast_S4096_S1x4096_1 (iotaInDim S4096 32 0))
                    (broadcastInDim S1x4096 ![] Gen.bcast_S_S1x4096 (constantI S_ 32 64#32)))
                  (broadcastInDim S1x4096 ![] Gen.bcast_S_S1x4096 (constantI S_ 32 1#32)))
                (Host.divsi (broadcastInDim S1x4096 ![1] Gen.bcast_S4096_S1x4096_1 (iotaInDim S4096 32 0))
                  (broadcastInDim S1x4096 ![] Gen.bcast_S_S1x4096 (constantI S_ 32 64#32)))))
            (broadcastInDim S64x4096 ![0, 1] Gen.bcast_S64x1_S64x4096_0_1
              (broadcastInDim S64x1 ![0] Gen.bcast_S64_S64x1_0 (iotaInDim S64 32 0))))
          (broadcastInDim S64x4096 ![] Gen.bcast_S_S64x4096 (constant (F := Ideal) S_ .f32 0x3C800000#32))
          (broadcastInDim S64x4096 ![] Gen.bcast_S_S64x4096 (constant (F := Ideal) S_ .f32 0x00000000#32)))
        Gen.bitsLt_bf16_f32 : FVec Ideal S64x4096 .bf16) (ix2 l s)
      = poolW l s := by
  refine (whereEq_apply _ _ _ _ (ix2 l s)).trans ?_
  rw [bcastRow_apply, floorDiv_apply, colIota_apply, fdiv64_eq, rowIota_apply]
  have hs := s.isLt
  have hl := l.isLt
  exact if_congr (ofNat_eq_iff (s.val / 64) l.val (by omega) (by omega)) rfl rfl

/-- The pooling operand of the region is the pooling matrix: `1/64` where the column's segment is the row, else `0`. -/
theorem V_pool (c : Dev nD) (l : Fin 64) (s : Fin 4096) :
    (V (F := Ideal) m c main_v9 : S64x4096.Idx → EReal) (ix2 l s) = poolW l s := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  simp only [StableHlo.TRef.toBuf, StableHlo.TRef.ofBuf, cast_eq, id_eq]
  exact pool_entry l s

end Cert.KernelIdeal.Hand

end
-- ==== Proof.KerBlocks.lean ====
import proofs.«416977_j76355928588535_3_alg».proof.Proof.KerBody
import proofs.«416977_j76355928588535_3_alg».proof.Proof.KerHost
import proofs.«416977_j76355928588535_3_alg».proof.Proof.Gen.KernelIdeal.Value
import Idealize.ShloMosaic.Lib.Pipeline.Value

noncomputable section

namespace Cert.KernelIdeal.Hand

open Idealize.ShloMosaic Idealize.ShloMosaic.TcCoe Idealize.ShloMosaic.ValueIdx Idealize.SL.Sem
open Cert.KernelIdeal Cert.KernelIdeal.Gen Cert.KernelIdeal.Facts₀ Cert.KernelIdeal.Facts Cert.Nys

variable (m : (ℓ : Loc nD τ sig) → Buf (Elt Ideal) ℓ)

/-! ## The block index maps, decided over the 24 grid points -/

/-- The three head windows and the output window sit at block `(b, p, 0, 0)` at the point of coordinates `(b, p)`. -/
theorem arr_idx_q : ∀ t : Fin cfg0.N,
    win0_0.index t (0 : Fin 4) = (grid0.coords t 0).val ∧ win0_0.index t (1 : Fin 4) = (grid0.coords t 1).val
    ∧ win0_0.index t (2 : Fin 4) = 0 ∧ win0_0.index t (3 : Fin 4) = 0 :=
  (by decide +kernel : ∀ t : Fin grid0.N, _)

theorem arr_idx_k : ∀ t : Fin cfg0.N,
    win0_1.index t (0 : Fin 4) = (grid0.coords t 0).val ∧ win0_1.index t (1 : Fin 4) = (grid0.coords t 1).val
    ∧ win0_1.index t (2 : Fin 4) = 0 ∧ win0_1.index t (3 : Fin 4) = 0 :=
  (by decide +kernel : ∀ t : Fin grid0.N, _)

theorem arr_idx_v : ∀ t : Fin cfg0.N,
    win0_2.index t (0 : Fin 4) = (grid0.coords t 0).val ∧ win0_2.index t (1 : Fin 4) = (grid0.coords t 1).val
    ∧ win0_2.index t (2 : Fin 4) = 0 ∧ win0_2.index t (3 : Fin 4) = 0 :=
  (by decide +kernel : ∀ t : Fin grid0.N, _)

theorem arr_idx_o : ∀ t : Fin cfg0.N,
    win0_5.index t (0 : Fin 4) = (grid0.coords t 0).val ∧ win0_5.index t (1 : Fin 4) = (grid0.coords t 1).val
    ∧ win0_5.index t (2 : Fin 4) = 0 ∧ win0_5.index t (3 : Fin 4) = 0 :=
  (by decide +kernel : ∀ t : Fin grid0.N, _)

/-- The mask window and the pooling window are the whole array at every point: block 0. -/
theorem arr_idx_mask : ∀ t : Fin cfg0.N,
    win0_3.index t (0 : Fin 3) = 0 ∧ win0_3.index t (1 : Fin 3) = 0 ∧ win0_3.index t (2 : Fin 3) = 0 :=
  (by decide +kernel : ∀ t : Fin grid0.N, _)

theorem arr_idx_pool : ∀ t : Fin cfg0.N, win0_4.index t (0 : Fin 2) = 0 ∧ win0_4.index t (1 : Fin 2) = 0 :=
  (by decide +kernel : ∀ t : Fin grid0.N, _)

/-- Every pair of coordinates `(b, p)` is some grid point's. -/
theorem arr_coords_onto : ∀ (b : Fin 4) (p : Fin 6), ∃ t : Fin cfg0.N, (grid0.coords t 0).val = b.val ∧ (grid0.coords t 1).val = p.val :=
  (by decide +kernel : ∀ (b : Fin 4) (p : Fin 6), ∃ t : Fin grid0.N, (grid0.coords t 0).val = b.val ∧ (grid0.coords t 1).val = p.val)

/-! ## Each input block, read where the point's rectangle says -/

/-- Head `hi` of the query block at the point of coordinates `(b, p)` is head `2 p + hi` of row `b` of the query argument. -/
theorem arr_blk_q (c : Dev nD) (t : Fin cfg0.N) (hi : Fin 2) (s : Fin 4096) (d : Fin 64) (b : Fin 4) (h : Fin 12)
    (hb : b.val = (grid0.coords t 0).val) (hh : h.val = 2 * (grid0.coords t 1).val + hi.val) :
    (iblk (F := Ideal) m c 0 t : S1x2x4096x64.Idx → EReal) (ix4 0 hi s d)
      = (m ((c : Thread nD τ).loc main_arg0) : S4x12x4096x64.Idx → EReal) (ix4 b h s d) := by
  obtain ⟨e0, e1, e2, e3⟩ := arr_idx_q t
  unfold iblk
  rw [View.read_apply]
  show V m c main_arg0 _ = m (c.tc.loc main_arg0) _
  rw [V_main_arg0 m c]
  congr 1
  funext a
  apply Fin.ext
  match a with
  | ⟨0, _⟩ => show win0_0.index t (0 : Fin 4) * 1 + 1 * (0 : Fin 1).val = b.val; rw [e0, hb]; simp
  | ⟨1, _⟩ => show win0_0.index t (1 : Fin 4) * 2 + 1 * hi.val = h.val; rw [e1, hh]; omega
  | ⟨2, _⟩ => show win0_0.index t (2 : Fin 4) * 4096 + 1 * s.val = s.val; rw [e2]; omega
  | ⟨3, _⟩ => show win0_0.index t (3 : Fin 4) * 64 + 1 * d.val = d.val; rw [e3]; omega

/-- The same for the key block. -/
theorem arr_blk_k (c : Dev nD) (t : Fin cfg0.N) (hi : Fin 2) (s : Fin 4096) (d : Fin 64) (b : Fin 4) (h : Fin 12)
    (hb : b.val = (grid0.coords t 0).val) (hh : h.val = 2 * (grid0.coords t 1).val + hi.val) :
    (iblk (F := Ideal) m c 1 t : S1x2x4096x64.Idx → EReal) (ix4 0 hi s d)
      = (m ((c : Thread nD τ).loc main_arg1) : S4x12x4096x64.Idx → EReal) (ix4 b h s d) := by
  obtain ⟨e0, e1, e2, e3⟩ := arr_idx_k t
  unfold iblk
  rw [View.read_apply]
  show V m c main_arg1 _ = m (c.tc.loc main_arg1) _
  rw [V_main_arg1 m c]
  congr 1
  funext a
  apply Fin.ext
  match a with
  | ⟨0, _⟩ => show win0_1.index t (0 : Fin 4) * 1 + 1 * (0 : Fin 1).val = b.val; rw [e0, hb]; simp
  | ⟨1, _⟩ => show win0_1.index t (1 : Fin 4) * 2 + 1 * hi.val = h.val; rw [e1, hh]; omega
  | ⟨2, _⟩ => show win0_1.index t (2 : Fin 4) * 4096 + 1 * s.val = s.val; rw [e2]; omega
  | ⟨3, _⟩ => show win0_1.index t (3 : Fin 4) * 64 + 1 * d.val = d.val; rw [e3]; omega

/-- The same for the value block. -/
theorem arr_blk_v (c : Dev nD) (t : Fin cfg0.N) (hi : Fin 2) (s : Fin 4096) (d : Fin 64) (b : Fin 4) (h : Fin 12)
    (hb : b.val = (grid0.coords t 0).val) (hh : h.val = 2 * (grid0.coords t 1).val + hi.val) :
    (iblk (F := Ideal) m c 2 t : S1x2x4096x64.Idx → EReal) (ix4 0 hi s d)
      = (m ((c : Thread nD τ).loc main_arg2) : S4x12x4096x64.Idx → EReal) (ix4 b h s d) := by
  obtain ⟨e0, e1, e2, e3⟩ := arr_idx_v t
  unfold iblk
  rw [View.read_apply]
  show V m c main_arg2 _ = m (c.tc.loc main_arg2) _
  rw [V_main_arg2 m c]
  congr 1
  funext a
  apply Fin.ext
  match a with
  | ⟨0, _⟩ => show win0_2.index t (0 : Fin 4) * 1 + 1 * (0 : Fin 1).val = b.val; rw [e0, hb]; simp
  | ⟨1, _⟩ => show win0_2.index t (1 : Fin 4) * 2 + 1 * hi.val = h.val; rw [e1, hh]; omega
  | ⟨2, _⟩ => show win0_2.index t (2 : Fin 4) * 4096 + 1 * s.val = s.val; rw [e2]; omega
  | ⟨3, _⟩ => show win0_2.index t (3 : Fin 4) * 64 + 1 * d.val = d.val; rw [e3]; omega

/-- The mask block is the whole mask operand, which is the mask argument with a unit axis inserted. -/
theorem arr_blk_mask (c : Dev nD) (t : Fin cfg0.N) (b : Fin 4) (s : Fin 4096) :
    (iblk (F := Ideal) m c 3 t : S4x1x4096.Idx → EReal) (ix3 b 0 s)
      = (m ((c : Thread nD τ).loc main_arg3) : S4x4096.Idx → EReal) (ix2 b s) := by
  obtain ⟨e0, e1, e2⟩ := arr_idx_mask t
  refine Eq.trans ?_ (V_mask m c b s)
  unfold iblk
  rw [View.read_apply]
  show V m c main_v10 _ = V m c main_v10 _
  congr 1
  funext a
  apply Fin.ext
  match a with
  | ⟨0, _⟩ => show win0_3.index t (0 : Fin 3) * 4 + 1 * b.val = b.val; rw [e0]; omega
  | ⟨1, _⟩ => show win0_3.index t (1 : Fin 3) * 1 + 1 * (0 : Fin 1).val = (0 : Fin 1).val; rw [e1]; simp
  | ⟨2, _⟩ => show win0_3.index t (2 : Fin 3) * 4096 + 1 * s.val = s.val; rw [e2]; omega

/-- The pooling block is the whole pooling operand, which is the pooling matrix. -/
theorem arr_blk_pool (c : Dev nD) (t : Fin cfg0.N) (l : Fin 64) (s : Fin 4096) :
    (iblk (F := Ideal) m c 4 t : S64x4096.Idx → EReal) (ix2 l s) = poolW l s := by
  obtain ⟨e0, e1⟩ := arr_idx_pool t
  refine Eq.trans ?_ (V_pool m c l s)
  unfold iblk
  rw [View.read_apply]
  show V m c main_v9 _ = V m c main_v9 _
  congr 1
  funext a
  apply Fin.ext
  match a with
  | ⟨0, _⟩ => show win0_4.index t (0 : Fin 2) * 64 + 1 * l.val = l.val; rw [e0]; omega
  | ⟨1, _⟩ => show win0_4.index t (1 : Fin 2) * 4096 + 1 * s.val = s.val; rw [e1]; omega

/-! ## What a point writes back, entry by entry -/

/-- Heads that agree entry by entry give the same head of the specification. -/
theorem arr_headK_congr {q q' k k' v v' : Mat 4096 64} {mk mk' : Fin 4096 → EReal}
    (hq : q = q') (hk : k = k') (hv : v = v') (hm : mk = mk') (s : Fin 4096) (d : Fin 64) :
    headK q k v mk s d = headK q' k' v' mk' s d := by
  rw [hq, hk, hv, hm]

/-- At the point of coordinates `(b, p)`, entry `(0, hi, s, d)` of what the body leaves for the output is entry
    `(b, 2 p + hi, s, d)` of the specification's array of the arguments. -/
theorem arr_point_ix (c : Dev nD) (t : Fin cfg0.N) (hi : Fin 2) (s : Fin 4096) (d : Fin 64) (b : Fin 4) (h : Fin 12)
    (hb : b.val = (grid0.coords t 0).val) (hh : h.val = 2 * (grid0.coords t 1).val + hi.val) :
    out0_A_5 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (iblk m c 0 t) (iblk m c 1 t) (iblk m c 2 t) (iblk m c 3 t) (iblk m c 4 t) (ix4 0 hi s d)
      = GK (m ((c : Thread nD τ).loc main_arg0)) (m ((c : Thread nD τ).loc main_arg1))
          (m ((c : Thread nD τ).loc main_arg2)) (m ((c : Thread nD τ).loc main_arg3)) (ix4 b h s d) := by
  have hb' : (grid0.coords t 0 : Fin 4) = b := Fin.ext hb.symm
  refine (out_apply c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t)
    (fun l s' => arr_blk_pool m c t l s') hi s d).trans ?_
  refine arr_headK_congr (funext fun s' => funext fun d' => arr_blk_q m c t hi s' d' b h hb hh)
    (funext fun s' => funext fun d' => arr_blk_k m c t hi s' d' b h hb hh)
    (funext fun s' => funext fun d' => arr_blk_v m c t hi s' d' b h hb hh)
    (funext fun s' => ?_) s d
  show (iblk (F := Ideal) m c 3 t : S4x1x4096.Idx → EReal) (ix3 (grid0.coords t 0 : Fin 4) 0 s') = _
  rw [hb']
  exact arr_blk_mask m c t b s'

/-- The same at any entry of the block and any index of the array that sit at the same place. -/
theorem arr_point_eq (c : Dev nD) (t : Fin cfg0.N) (y : S1x2x4096x64.Idx) (i : S4x12x4096x64.Idx)
    (h0 : (i 0).val = (grid0.coords t 0).val) (h1 : (i 1).val = 2 * (grid0.coords t 1).val + (y 1).val)
    (h2 : (i 2).val = (y 2).val) (h3 : (i 3).val = (y 3).val) :
    out0_A_5 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (iblk m c 0 t) (iblk m c 1 t) (iblk m c 2 t) (iblk m c 3 t) (iblk m c 4 t) y
      = GK (m ((c : Thread nD τ).loc main_arg0)) (m ((c : Thread nD τ).loc main_arg1))
          (m ((c : Thread nD τ).loc main_arg2)) (m ((c : Thread nD τ).loc main_arg3)) i := by
  obtain ⟨a, hi, s, d, rfl⟩ : ∃ (a : Fin 1) (hi : Fin 2) (s : Fin 4096) (d : Fin 64), y = ix4 a hi s d :=
    ⟨y 0, y 1, y 2, y 3, eq_ix4 y⟩
  obtain ⟨b, h, s', d', rfl⟩ : ∃ (b : Fin 4) (h : Fin 12) (s' : Fin 4096) (d' : Fin 64), i = ix4 b h s' d' :=
    ⟨i 0, i 1, i 2, i 3, eq_ix4 i⟩
  obtain rfl : a = 0 := Fin.eq_zero a
  obtain rfl : s' = s := Fin.ext h2
  obtain rfl : d' = d := Fin.ext h3
  exact arr_point_ix m c t hi s' d' b h h0 h1

/-! ## From the blocks to the array -/

/-- What the point `t` writes back is its block of the specification's array of the arguments. -/
theorem arr_flushed_eq (c : Dev nD) (t : Fin cfg0.N) :
    (dats (F := Ideal) m 0 c).flushed 5 t
      = ((cfg0.win 5).blk t).view.read (Elt Ideal)
          (GK (m ((c : Thread nD τ).loc main_arg0)) (m ((c : Thread nD τ).loc main_arg1))
            (m ((c : Thread nD τ).loc main_arg2)) (m ((c : Thread nD τ).loc main_arg3))) := by
  rw [Value.flushed5_A]
  obtain ⟨e0, e1, e2, e3⟩ := arr_idx_o t
  funext y
  rw [View.read_apply]
  refine arr_point_eq m c t y (((cfg0.win 5).blk t).view.emb y) ?_ ?_ ?_ ?_
  · show win0_5.index t (0 : Fin 4) * 1 + 1 * (y 0).val = _
    have hy : (y 0).val < 1 := (y 0).isLt
    rw [e0]; omega
  · show win0_5.index t (1 : Fin 4) * 2 + 1 * (y 1).val = _
    rw [e1]; omega
  · show win0_5.index t (2 : Fin 4) * 4096 + 1 * (y 2).val = _
    rw [e2]; omega
  · show win0_5.index t (3 : Fin 4) * 64 + 1 * (y 3).val = _
    rw [e3]; omega

/-- An index of the array is in the point `t`'s block iff each coordinate is in the block's range on its axis. -/
theorem arr_mem_blk_o (t : Fin cfg0.N) (i : S4x12x4096x64.Idx) :
    i ∈ ((cfg0.win 5).blk t).view.set ↔ ∀ a : Fin 4, win0_5.index t a * S1x2x4096x64.size a ≤ (i a).val
      ∧ (i a).val < win0_5.index t a * S1x2x4096x64.size a + S1x2x4096x64.size a := by
  show i ∈ ((View.whole main_v11).slice (win0_5.rect t)).set ↔ _
  rw [View.set_slice_whole, Rect.mem_set_unit]
  exact Iff.rfl

/-- Every index `(b, h, s, d)` of the array is in the block of the point of coordinates `(b, h / 2)`. -/
theorem arr_cover_o (i : S4x12x4096x64.Idx) :
    ∃ t : Fin cfg0.N, (cfg0.win 5).flush t = true ∧ i ∈ ((cfg0.win 5).blk t).view.set := by
  have hi0 : (i 0).val < 4 := (i 0).isLt
  have hi1 : (i 1).val < 12 := (i 1).isLt
  have hi2 : (i 2).val < 4096 := (i 2).isLt
  have hi3 : (i 3).val < 64 := (i 3).isLt
  obtain ⟨t, ht0, ht1⟩ := arr_coords_onto ⟨(i 0).val, hi0⟩ ⟨(i 1).val / 2, by omega⟩
  have ht0' : (grid0.coords t 0).val = (i 0).val := ht0
  have ht1' : (grid0.coords t 1).val = (i 1).val / 2 := ht1
  obtain ⟨e0, e1, e2, e3⟩ := arr_idx_o t
  refine ⟨t, flush0_5 t, ?_⟩
  rw [arr_mem_blk_o]
  intro a
  match a with
  | ⟨0, _⟩ =>
    show win0_5.index t (0 : Fin 4) * 1 ≤ (i 0).val ∧ (i 0).val < win0_5.index t (0 : Fin 4) * 1 + 1
    rw [e0, ht0']; omega
  | ⟨1, _⟩ =>
    show win0_5.index t (1 : Fin 4) * 2 ≤ (i 1).val ∧ (i 1).val < win0_5.index t (1 : Fin 4) * 2 + 2
    rw [e1, ht1']; omega
  | ⟨2, _⟩ =>
    show win0_5.index t (2 : Fin 4) * 4096 ≤ (i 2).val ∧ (i 2).val < win0_5.index t (2 : Fin 4) * 4096 + 4096
    rw [e2]; omega
  | ⟨3, _⟩ =>
    show win0_5.index t (3 : Fin 4) * 64 ≤ (i 3).val ∧ (i 3).val < win0_5.index t (3 : Fin 4) * 64 + 64
    rw [e3]; omega

/-- After the run the output array is the specification's array, in the kernel's spelling, of the argument arrays. -/
theorem arr_eq (c : Dev nD) :
    ((dats (F := Ideal) m 0 c).arrAt 5 cfg0.N : S4x12x4096x64.Idx → EReal)
      = GK (m ((c : Thread nD τ).loc main_arg0)) (m ((c : Thread nD τ).loc main_arg1))
          (m ((c : Thread nD τ).loc main_arg2)) (m ((c : Thread nD τ).loc main_arg3)) :=
  (dats (F := Ideal) m 0 c).arrAt_eq_of_cover 5
    (GK (m ((c : Thread nD τ).loc main_arg0)) (m ((c : Thread nD τ).loc main_arg1))
      (m ((c : Thread nD τ).loc main_arg2)) (m ((c : Thread nD τ).loc main_arg3)))
    (fun t _ => arr_flushed_eq m c t) arr_cover_o

end Cert.KernelIdeal.Hand

end
-- ==== Proof.RefDefs.lean ====
import proofs.«416977_j76355928588535_3_alg».proof.Proof.Gen.ReferenceIdeal.Run
import proofs.«416977_j76355928588535_3_alg».proof.Proof.Spec
import Idealize.ShloMosaic.Lib.ValueIdx

noncomputable section

/-!
  The reference's run, named piece by piece, and the per-head mathematics each piece should be.

  The generated run states the result array as one term over named intermediate arrays.  Here its three
  inlined sub-terms get names (the first and third softmax, the sixth Newton–Schulz step) and so does the
  result; and for a head `(b, h)` the matrices of the specification are named from the argument arrays.
-/

namespace Cert.ReferenceIdeal.RefValue

open Cert.ReferenceIdeal Cert.ReferenceIdeal.Gen Cert.ReferenceIdeal.Value Idealize.ShloMosaic Idealize.ShloMosaic.TcCoe
open Idealize.ShloMosaic.StableHlo Idealize.ShloMosaic.ValueIdx Cert.Nys

/-- A valuation of the reference's buffers at the ideal instance. -/
abbrev Val := Valuation τ sig (Elt Ideal)

section Terms

variable {F : FTy → Type} [FloatOps F]

/-- The first softmax, as the run inlines it. -/
def refK1 (V0 : Valuation τ sig (Elt F)) : FVec F S4x12x4096x64 .f32 :=
  Host.divf (res_main_v25 V0) (broadcastInDim S4x12x4096x64 ![0, 1, 2, 3] bcast_S4x12x4096x1_S4x12x4096x64_0_1_2_3 (broadcastInDim S4x12x4096x1 ![0, 1, 2] bcast_S4x12x4096_S4x12x4096x1_0_1_2 (Host.reduceAdd (res_main_v25 V0) (constant S_ .f32 0x00000000#32) reducesTo_S4x12x4096x64_S4x12x4096_d3 h_S_)))

/-- The third softmax, as the run inlines it. -/
def refK3 (V0 : Valuation τ sig (Elt F)) : FVec F S4x12x64x4096 .f32 :=
  Host.divf (res_main_v56 V0) (broadcastInDim S4x12x64x4096 ![0, 1, 2, 3] bcast_S4x12x64x1_S4x12x64x4096_0_1_2_3 (broadcastInDim S4x12x64x1 ![0, 1, 2] bcast_S4x12x64_S4x12x64x1_0_1_2 (Host.reduceAdd (res_main_v56 V0) (constant S_ .f32 0x00000000#32) reducesTo_S4x12x64x4096_S4x12x64_d3 h_S_)))

/-- The sixth Newton–Schulz step, as the run inlines it. -/
def refZ6 (V0 : Valuation τ sig (Elt F)) : FVec F S4x12x64x64 .f32 :=
  Host.dotGeneral dot_S4x12x64x64_S4x12x64x64_S4x12x64x64_3_2_2_3_01_01 none (mulf (broadcastInDim S4x12x64x64 ![] bcast_S_S4x12x64x64 (constant S_ .f32 0x3E800000#32)) (res_main_v177 V0)) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant S_ .f32 0x41500000#32)) (res_main_v66 V0)))) (Host.dotGeneral dot_S4x12x64x64_S4x12x64x64_S4x12x64x64_3_2_2_3_01_01 none (res_main_v178 V0) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant S_ .f32 0x41700000#32)) (res_main_v66 V0)))) (Host.dotGeneral dot_S4x12x64x64_S4x12x64x64_S4x12x64x64_3_2_2_3_01_01 none (res_main_v178 V0) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant S_ .f32 0x40E00000#32)) (res_main_v66 V0)))) (res_main_v178 V0))))))

/-- The result array's term. -/
def refOut (V0 : Valuation τ sig (Elt F)) : FVec F S4x12x4096x64 .f32 :=
  Host.dotGeneral dot_S4x12x4096x64_S4x12x64x64_S4x12x4096x64_3_2_2_3_01_01 none (Host.dotGeneral dot_S4x12x4096x64_S4x12x64x64_S4x12x4096x64_3_2_2_3_01_01 none ((refK1 V0)) (refZ6 V0)) (Host.dotGeneral dot_S4x12x64x4096_S4x12x4096x64_S4x12x64x64_3_2_2_3_01_01 none ((refK3 V0)) (V0 (Proc.devRef .tc main_arg2)))

end Terms

/-- The argument arrays of a valuation. -/
def argQ (V0 : Val) : Nys.S4.Idx → EReal := V0 (Proc.devRef .tc main_arg0)
def argK (V0 : Val) : Nys.S4.Idx → EReal := V0 (Proc.devRef .tc main_arg1)
def argV (V0 : Val) : Nys.S4.Idx → EReal := V0 (Proc.devRef .tc main_arg2)
def argM (V0 : Val) : Nys.S2.Idx → EReal := V0 (Proc.devRef .tc main_arg3)

/-- Head `(b, h)` of a `[4, 12, A, B]` array, as a matrix. -/
def sl {A B : ℕ} (X : (⟨4, ![4, 12, A, B]⟩ : Shape).Idx → EReal) (b : Fin 4) (h : Fin 12) : Mat A B :=
  fun i j => X (ix4 b h i j)

/-- The specification's matrices of head `(b, h)`. -/
def qsOf (V0 : Val) (b : Fin 4) (h : Fin 12) : Mat 4096 64 := scaled (slice (argQ V0) b h) (mrow (argM V0) b)
def ksOf (V0 : Val) (b : Fin 4) (h : Fin 12) : Mat 4096 64 := scaled (slice (argK V0) b h) (mrow (argM V0) b)
def qlOf (V0 : Val) (b : Fin 4) (h : Fin 12) : Mat 64 64 := poolMean (qsOf V0 b h)
def klOf (V0 : Val) (b : Fin 4) (h : Fin 12) : Mat 64 64 := poolMean (ksOf V0 b h)
def k2Of (V0 : Val) (b : Fin 4) (h : Fin 12) : Mat 64 64 := ker2 (qlOf V0 b h) (klOf V0 b h)

end Cert.ReferenceIdeal.RefValue

end
-- ==== Proof.RefA.lean ====
import proofs.«416977_j76355928588535_3_alg».proof.Proof.RefDefs
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.Value Idealize.ShloMosaic Idealize.ShloMosaic.TcCoe
open Idealize.ShloMosaic.StableHlo Idealize.ShloMosaic.ValueIdx Cert.Nys

/-- The mask broadcast over heads and columns, read at an index: entry (b, h, s, d) is the mask's entry (b, s). -/
theorem maskBcast_apply {α : Type} (M : S4x4096.Idx → α) (b : Fin 4) (h : Fin 12) (s : Fin 4096) (d : Fin 64) :
    broadcastInDim S4x12x4096x64 ![0, 1, 2, 3] bcast_S4x1x4096x1_S4x12x4096x64_0_1_2_3
      (broadcastInDim S4x1x4096x1 ![0, 2] bcast_S4x4096_S4x1x4096x1_0_2 M) (ix4 b h s d) = M (ix2 b s) := by
  refine (broadcastInDim_apply _ _ _ (ix4 b h s d) (ix4 b (0 : Fin 1) s (0 : Fin 1)) (fun a => ?_)).trans ?_
  · match a with
    | ⟨0, _⟩ => rfl
    | ⟨1, _⟩ => rfl
    | ⟨2, _⟩ => rfl
    | ⟨3, _⟩ => rfl
  · refine broadcastInDim_apply _ _ _ (ix4 b (0 : Fin 1) s (0 : Fin 1)) (ix2 b s) (fun a => ?_)
    match a with
    | ⟨0, _⟩ => rfl
    | ⟨1, _⟩ => rfl

/-- An array times the broadcast mask times the broadcast scale word, read at an index. -/
theorem scaledArr_apply (X : FVec Ideal S4x12x4096x64 .f32) (M : FVec Ideal S4x4096 .f32)
    (b : Fin 4) (h : Fin 12) (s : Fin 4096) (d : Fin 64) :
    mulf (mulf X (broadcastInDim S4x12x4096x64 ![0, 1, 2, 3] bcast_S4x1x4096x1_S4x12x4096x64_0_1_2_3
        (broadcastInDim S4x1x4096x1 ![0, 2] bcast_S4x4096_S4x1x4096x1_0_2 M)))
      (broadcastInDim S4x12x4096x64 ![] bcast_S_S4x12x4096x64 (constant (F := Ideal) S_ .f32 0x3EB504F3#32)) (ix4 b h s d)
      = X (ix4 b h s d) * M (ix2 b s) * cScale := by
  rw [mulf_apply, mulf_apply, maskBcast_apply, broadcastInDim_scalar_apply, constant_apply]

/-- The scaled queries of head (b, h), entry by entry. -/
theorem res4_apply (V0 : Val) (b : Fin 4) (h : Fin 12) (s : Fin 4096) (d : Fin 64) :
    res_main_v4 (F := Ideal) V0 (ix4 b h s d) = qsOf V0 b h s d := by
  unfold res_main_v4
  exact scaledArr_apply _ _ b h s d

/-- The scaled keys of head (b, h), entry by entry. -/
theorem res9_apply (V0 : Val) (b : Fin 4) (h : Fin 12) (s : Fin 4096) (d : Fin 64) :
    res_main_v9 (F := Ideal) V0 (ix4 b h s d) = ksOf V0 b h s d := by
  unfold res_main_v9
  exact scaledArr_apply _ _ b h s d

/-- The scaled queries of head (b, h). -/
theorem res4_eq (V0 : Val) (b : Fin 4) (h : Fin 12) : sl (A := 4096) (B := 64) (res_main_v4 (F := Ideal) V0) b h = qsOf V0 b h := by
  funext s d
  exact res4_apply V0 b h s d

/-- The scaled keys of head (b, h). -/
theorem res9_eq (V0 : Val) (b : Fin 4) (h : Fin 12) : sl (A := 4096) (B := 64) (res_main_v9 (F := Ideal) V0) b h = ksOf V0 b h := by
  funext s d
  exact res9_apply V0 b h s d

/-- The reshape to segments read at an index: entry (b, h, l, r, d) of the reshaped array is entry
    (b, h, 64 l + r, d) of the array. -/
theorem segCast_apply {α : Type} (X : S4x12x4096x64.Idx → α) (j : S4x12x64x64x64.Idx) (b : Fin 4) (h : Fin 12) (l r d : Fin 64)
    (h0 : (j 0).val = b.val) (h1 : (j 1).val = h.val) (h2 : (j 2).val = l.val) (h3 : (j 3).val = r.val) (h4 : (j 4).val = d.val) :
    shapeCast S4x12x64x64x64 X shapeCasts_S4x12x4096x64_S4x12x64x64x64 j = X (ix4 b h (segIdx l r) d) := by
  refine shapeCast_apply X _ j (ix4 b h (segIdx l r) d) ?_
  rw [Shape.rowMajor_val_four, Shape.rowMajor_val_five, h0, h1, h2, h3, h4]
  show ((b.val * 12 + h.val) * 4096 + (64 * l.val + r.val)) * 64 + d.val
    = (((b.val * 12 + h.val) * 64 + l.val) * 64 + r.val) * 64 + d.val
  omega

/-- The fact that names the index a sum over axis 3 inserts. -/
theorem reduces_seg : S4x12x64x64x64.Reduces [3] S4x12x64x64 := by decide

/-- Landmark means of an array, read at an index: the sum over a segment's 64 rows from the zero word, divided by the
    broadcast word 64. -/
theorem poolArr_apply (X : FVec Ideal S4x12x4096x64 .f32) (b : Fin 4) (h : Fin 12) (l d : Fin 64) :
    Host.divf (Host.reduceAdd (F := Ideal) (shapeCast S4x12x64x64x64 X shapeCasts_S4x12x4096x64_S4x12x64x64x64)
        (constant (F := Ideal) S_ .f32 0x00000000#32) reducesTo_S4x12x64x64x64_S4x12x64x64_d3 h_S_)
      (broadcastInDim S4x12x64x64 ![] bcast_S_S4x12x64x64 (constant (F := Ideal) S_ .f32 0x42800000#32)) (ix4 b h l d)
      = Ideal.div (∑ r : Fin 64, X (ix4 b h (segIdx l r) d)) c64 := by
  rw [hostDivf_apply, hostReduceAdd_apply, broadcastInDim_scalar_apply, constant_apply, constant_apply,
    Ideal.hostReduceAdd_single _ reduces_seg, Ideal.ofBits_zero_f32, zero_add]
  refine congrArg (fun z => Ideal.div z c64) ?_
  refine Finset.sum_congr rfl (fun r _ => ?_)
  exact segCast_apply X _ b h l r d rfl rfl rfl rfl rfl

/-- The query landmarks of head (b, h): segment means. -/
theorem res13_eq (V0 : Val) (b : Fin 4) (h : Fin 12) : sl (A := 64) (B := 64) (res_main_v13 (F := Ideal) V0) b h = qlOf V0 b h := by
  funext l d
  unfold sl res_main_v13
  refine (poolArr_apply _ b h l d).trans ?_
  unfold qlOf poolMean
  refine congrArg (fun z => Ideal.div z c64) ?_
  exact Finset.sum_congr rfl (fun r _ => res4_apply V0 b h (segIdx l r) d)

/-- The key landmarks of head (b, h). -/
theorem res17_eq (V0 : Val) (b : Fin 4) (h : Fin 12) : sl (A := 64) (B := 64) (res_main_v17 (F := Ideal) V0) b h = klOf V0 b h := by
  funext l d
  unfold sl res_main_v17
  refine (poolArr_apply _ b h l d).trans ?_
  unfold klOf poolMean
  refine congrArg (fun z => Ideal.div z c64) ?_
  exact Finset.sum_congr rfl (fun r _ => res9_apply V0 b h (segIdx l r) d)

end Cert.ReferenceIdeal.RefValue

end
-- ==== Proof.RefB.lean ====
import proofs.«416977_j76355928588535_3_alg».proof.Proof.RefA
import Idealize.ShloMosaic.Lib.IdealHost
import Idealize.ShloMosaic.Lib.Pipeline.Value
import Idealize.ShloMosaic.PureOps.Ideal.Laws

noncomputable section

/-!
  The reference's row softmaxes, head by head.

  A softmax of the reference is, over a `[4, 12, A, B]` array `X`: the exponential of `X` minus its broadcast row
  maximum (taken as the maximum of the minus-infinity word and the reduction from it), divided by the broadcast row sum
  of that exponential.  The lemmas of `RowSoftmax` read each of these operations at an index `(b, h, i, j)`, for any
  extents `A` and `B`, and the batched product contracting both operands' last axes likewise; the theorems after them
  put the pieces together for the first and the second softmax.
-/

namespace Cert.ReferenceIdeal.RefValue

open Cert.ReferenceIdeal Cert.ReferenceIdeal.Gen Cert.ReferenceIdeal.Value Idealize.ShloMosaic Idealize.ShloMosaic.TcCoe
open Idealize.ShloMosaic.StableHlo Idealize.ShloMosaic.ValueIdx Cert.Nys
open scoped BigOperators

namespace RowSoftmax

/-- A batched product contracting the last axis of both operands, read at an index: the sum over the contracted
    coordinate of the products of the two heads' entries. -/
theorem dot33_apply {A B K : ℕ}
    (w : DotDims.WF ⟨4, ![4, 12, A, K]⟩ ⟨4, ![4, 12, B, K]⟩ ⟨4, ![4, 12, A, B]⟩ [3] [3] [2] [2] [0, 1] [0, 1])
    (X : FVec Ideal ⟨4, ![4, 12, A, K]⟩ .f32) (Y : FVec Ideal ⟨4, ![4, 12, B, K]⟩ .f32)
    (b : Fin 4) (h : Fin 12) (i : Fin A) (j : Fin B) :
    Host.dotGeneral (F := Ideal) (⟨[3], [3], [2], [2], [0, 1], [0, 1], w⟩ : DotDims _ _ _) none X Y (ix4 b h i j)
      = ∑ l : Fin K, X (ix4 b h i l) * Y (ix4 b h j l) := by
  show FloatOps.dotGeneral _ none _ X Y (ix4 b h i j) = _
  rw [Ideal.dotGeneral_apply,
    ← Equiv.sum_comp (contrEquiv1 (⟨[3], [3], [2], [2], [0, 1], [0, 1], w⟩ : DotDims _ _ _) K rfl rfl).symm]
  refine Finset.sum_congr rfl fun c _ => ?_
  have c3 := contrEquiv1_symm_val
    (⟨[3], [3], [2], [2], [0, 1], [0, 1], w⟩ : DotDims ⟨4, ![4, 12, A, K]⟩ ⟨4, ![4, 12, B, K]⟩ ⟨4, ![4, 12, A, B]⟩) K rfl rfl c
  have l3 : (⟨[3], [3], [2], [2], [0, 1], [0, 1], w⟩ : DotDims ⟨4, ![4, 12, A, K]⟩ ⟨4, ![4, 12, B, K]⟩ ⟨4, ![4, 12, A, B]⟩).lhsIdx (ix4 b h i j)
      ((contrEquiv1 _ K rfl rfl).symm c) = ix4 b h i c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [3], [2], [2], [0, 1], [0, 1], w⟩ : DotDims ⟨4, ![4, 12, A, K]⟩ ⟨4, ![4, 12, B, K]⟩ ⟨4, ![4, 12, A, B]⟩).rhsIdx (ix4 b h i j)
      ((contrEquiv1 _ K rfl rfl).symm c) = ix4 b h j c := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c3
  rw [l3, r3]

/-- A row vector broadcast along a new last axis, read at an index. -/
theorem bcast2_apply {A B : ℕ} {α : Type}
    (h1 : Shape.BroadcastsInDim ⟨3, ![4, 12, A]⟩ ⟨4, ![4, 12, A, 1]⟩ ![0, 1, 2])
    (h2 : Shape.BroadcastsInDim ⟨4, ![4, 12, A, 1]⟩ ⟨4, ![4, 12, A, B]⟩ ![0, 1, 2, 3])
    (v : (⟨3, ![4, 12, A]⟩ : Shape).Idx → α) (b : Fin 4) (h : Fin 12) (i : Fin A) (j : Fin B) :
    broadcastInDim ⟨4, ![4, 12, A, B]⟩ ![0, 1, 2, 3] h2 (broadcastInDim ⟨4, ![4, 12, A, 1]⟩ ![0, 1, 2] h1 v) (ix4 b h i j)
      = v (ix3 b h i) := by
  refine (broadcastInDim_apply _ h2 _ (ix4 b h i j) (ix4 b h i (0 : Fin 1)) ?_).trans ?_
  · intro a
    match a with
    | ⟨0, _⟩ => rfl
    | ⟨1, _⟩ => rfl
    | ⟨2, _⟩ =>
      show i.val = if A = 1 then 0 else i.val
      split_ifs with hA
      · have := i.isLt; omega
      · rfl
    | ⟨3, _⟩ => rfl
  · refine broadcastInDim_apply _ h1 _ (ix4 b h i (0 : Fin 1)) (ix3 b h i) ?_
    intro a
    match a with
    | ⟨0, _⟩ => rfl
    | ⟨1, _⟩ => rfl
    | ⟨2, _⟩ =>
      show i.val = if A = 1 then 0 else i.val
      split_ifs with hA
      · have := i.isLt; omega
      · rfl

/-- The index a reduction over the last axis inserts a coordinate into. -/
theorem lift3_eq {A B : ℕ} (hR : Shape.Reduces ⟨4, ![4, 12, A, B]⟩ [3] ⟨3, ![4, 12, A]⟩)
    (b : Fin 4) (h : Fin 12) (i : Fin A) (k : Fin B) : hR.lift (ix3 b h i) k = ix4 b h i k := by
  funext c
  apply Fin.ext
  match c with
  | ⟨0, _⟩ => rfl
  | ⟨1, _⟩ => rfl
  | ⟨2, _⟩ => rfl
  | ⟨3, _⟩ => rfl

/-- The word of minus infinity is the least extended real. -/
theorem cNegInf_eq_bot : cNegInf = ⊥ := by
  simp [Ideal.ofBits, Ideal.ieee]

/-- The row maximum the reference takes — the maximum of the minus-infinity word and the reduction from it — is the
    row's maximum. -/
theorem rowmax_apply {A B : ℕ} (X : FVec Ideal ⟨4, ![4, 12, A, B]⟩ .f32)
    (hr : Shape.ReducesTo ⟨4, ![4, 12, A, B]⟩ [3] ⟨3, ![4, 12, A]⟩)
    (hR : Shape.Reduces ⟨4, ![4, 12, A, B]⟩ [3] ⟨3, ![4, 12, A]⟩)
    (h0 : Shape.BroadcastsInDim ⟨0, ![]⟩ ⟨3, ![4, 12, A]⟩ ![])
    (hS : 0 < (⟨0, ![]⟩ : Shape).numel) (b : Fin 4) (h : Fin 12) (i : Fin A) :
    maximumf (F := Ideal) (broadcastInDim ⟨3, ![4, 12, A]⟩ ![] h0 (constant (F := Ideal) ⟨0, ![]⟩ .f32 0xFF800000#32))
        (Host.reduce FloatOps.maximumf X (constant (F := Ideal) ⟨0, ![]⟩ .f32 0xFF800000#32) hr hS) (ix3 b h i)
      = vmax (fun j : Fin B => X (ix4 b h i j)) := by
  rw [maximumf_apply, broadcastInDim_scalar_apply, constant_apply,
    Host.reduce_eq_fold_single FloatOps.maximumf X _ hr hR hS, constant_apply]
  have hf : (X ∘ hR.lift (ix3 b h i)) = fun j : Fin B => X (ix4 b h i j) := by
    funext k; exact congrArg X (lift3_eq hR b h i k)
  rw [hf]
  exact max_eq_right ((Finset.le_fold_max _).mpr (Or.inl le_rfl))

/-- The row sum the reference takes, read at an index. -/
theorem rowsum_apply {A B : ℕ} (E : FVec Ideal ⟨4, ![4, 12, A, B]⟩ .f32)
    (hr : Shape.ReducesTo ⟨4, ![4, 12, A, B]⟩ [3] ⟨3, ![4, 12, A]⟩)
    (hR : Shape.Reduces ⟨4, ![4, 12, A, B]⟩ [3] ⟨3, ![4, 12, A]⟩)
    (hS : 0 < (⟨0, ![]⟩ : Shape).numel) (b : Fin 4) (h : Fin 12) (i : Fin A) :
    Host.reduceAdd (F := Ideal) E (constant (F := Ideal) ⟨0, ![]⟩ .f32 0x00000000#32) hr hS (ix3 b h i)
      = ∑ j : Fin B, E (ix4 b h i j) := by
  rw [hostReduceAdd_apply, Ideal.hostReduceAdd_single hr hR, constant_apply, Ideal.ofBits_zero_f32, zero_add]
  exact Finset.sum_congr rfl fun k _ => congrArg E (lift3_eq hR b h i k)

/-- The shifted exponential the reference forms, read at an index. -/
theorem expshift_apply {A B : ℕ} (X : FVec Ideal ⟨4, ![4, 12, A, B]⟩ .f32)
    (hr : Shape.ReducesTo ⟨4, ![4, 12, A, B]⟩ [3] ⟨3, ![4, 12, A]⟩)
    (hR : Shape.Reduces ⟨4, ![4, 12, A, B]⟩ [3] ⟨3, ![4, 12, A]⟩)
    (h0 : Shape.BroadcastsInDim ⟨0, ![]⟩ ⟨3, ![4, 12, A]⟩ ![])
    (h1 : Shape.BroadcastsInDim ⟨3, ![4, 12, A]⟩ ⟨4, ![4, 12, A, 1]⟩ ![0, 1, 2])
    (h2 : Shape.BroadcastsInDim ⟨4, ![4, 12, A, 1]⟩ ⟨4, ![4, 12, A, B]⟩ ![0, 1, 2, 3])
    (hS : 0 < (⟨0, ![]⟩ : Shape).numel) (b : Fin 4) (h : Fin 12) (i : Fin A) (j : Fin B) :
    Host.exp (F := Ideal) (subf X (broadcastInDim ⟨4, ![4, 12, A, B]⟩ ![0, 1, 2, 3] h2 (broadcastInDim ⟨4, ![4, 12, A, 1]⟩ ![0, 1, 2] h1
        (maximumf (F := Ideal) (broadcastInDim ⟨3, ![4, 12, A]⟩ ![] h0 (constant (F := Ideal) ⟨0, ![]⟩ .f32 0xFF800000#32))
          (Host.reduce FloatOps.maximumf X (constant (F := Ideal) ⟨0, ![]⟩ .f32 0xFF800000#32) hr hS))))) (ix4 b h i j)
      = Ideal.exp (X (ix4 b h i j) - vmax (fun j' : Fin B => X (ix4 b h i j'))) := by
  show Ideal.exp (X (ix4 b h i j) - _) = _
  rw [bcast2_apply h1 h2, rowmax_apply X hr hR h0 hS]

/-- The quotient by the broadcast row sum, read at an index. -/
theorem divsum_apply {A B : ℕ} (E : FVec Ideal ⟨4, ![4, 12, A, B]⟩ .f32)
    (hr : Shape.ReducesTo ⟨4, ![4, 12, A, B]⟩ [3] ⟨3, ![4, 12, A]⟩)
    (hR : Shape.Reduces ⟨4, ![4, 12, A, B]⟩ [3] ⟨3, ![4, 12, A]⟩)
    (h1 : Shape.BroadcastsInDim ⟨3, ![4, 12, A]⟩ ⟨4, ![4, 12, A, 1]⟩ ![0, 1, 2])
    (h2 : Shape.BroadcastsInDim ⟨4, ![4, 12, A, 1]⟩ ⟨4, ![4, 12, A, B]⟩ ![0, 1, 2, 3])
    (hS : 0 < (⟨0, ![]⟩ : Shape).numel) (b : Fin 4) (h : Fin 12) (i : Fin A) (j : Fin B) :
    Host.divf (F := Ideal) E (broadcastInDim ⟨4, ![4, 12, A, B]⟩ ![0, 1, 2, 3] h2 (broadcastInDim ⟨4, ![4, 12, A, 1]⟩ ![0, 1, 2] h1
        (Host.reduceAdd (F := Ideal) E (constant (F := Ideal) ⟨0, ![]⟩ .f32 0x00000000#32) hr hS))) (ix4 b h i j)
      = Ideal.div (E (ix4 b h i j)) (∑ j' : Fin B, E (ix4 b h i j')) := by
  rw [hostDivf_apply, bcast2_apply h1 h2, rowsum_apply E hr hR hS]

/-- Head `(b, h)` of a batched product contracting both last axes is the product of the first head by the transpose of
    the second. -/
theorem dot33_sl {A B K : ℕ}
    (w : DotDims.WF ⟨4, ![4, 12, A, K]⟩ ⟨4, ![4, 12, B, K]⟩ ⟨4, ![4, 12, A, B]⟩ [3] [3] [2] [2] [0, 1] [0, 1])
    (X : FVec Ideal ⟨4, ![4, 12, A, K]⟩ .f32) (Y : FVec Ideal ⟨4, ![4, 12, B, K]⟩ .f32) (b : Fin 4) (h : Fin 12) :
    sl (A := A) (B := B) (Host.dotGeneral (F := Ideal) (⟨[3], [3], [2], [2], [0, 1], [0, 1], w⟩ : DotDims _ _ _) none X Y) b h
      = mmulT (sl (A := A) (B := K) X b h) (sl (A := B) (B := K) Y b h) := by
  funext i j
  exact dot33_apply w X Y b h i j

/-- Head `(b, h)` of the shifted exponential. -/
theorem expshift_sl {A B : ℕ} (X : FVec Ideal ⟨4, ![4, 12, A, B]⟩ .f32)
    (hr : Shape.ReducesTo ⟨4, ![4, 12, A, B]⟩ [3] ⟨3, ![4, 12, A]⟩)
    (hR : Shape.Reduces ⟨4, ![4, 12, A, B]⟩ [3] ⟨3, ![4, 12, A]⟩)
    (h0 : Shape.BroadcastsInDim ⟨0, ![]⟩ ⟨3, ![4, 12, A]⟩ ![])
    (h1 : Shape.BroadcastsInDim ⟨3, ![4, 12, A]⟩ ⟨4, ![4, 12, A, 1]⟩ ![0, 1, 2])
    (h2 : Shape.BroadcastsInDim ⟨4, ![4, 12, A, 1]⟩ ⟨4, ![4, 12, A, B]⟩ ![0, 1, 2, 3])
    (hS : 0 < (⟨0, ![]⟩ : Shape).numel) (b : Fin 4) (h : Fin 12) :
    sl (A := A) (B := B) (Host.exp (F := Ideal) (subf X (broadcastInDim ⟨4, ![4, 12, A, B]⟩ ![0, 1, 2, 3] h2 (broadcastInDim ⟨4, ![4, 12, A, 1]⟩ ![0, 1, 2] h1
        (maximumf (F := Ideal) (broadcastInDim ⟨3, ![4, 12, A]⟩ ![] h0 (constant (F := Ideal) ⟨0, ![]⟩ .f32 0xFF800000#32))
          (Host.reduce FloatOps.maximumf X (constant (F := Ideal) ⟨0, ![]⟩ .f32 0xFF800000#32) hr hS)))))) b h
      = fun i j => Ideal.exp (sl (A := A) (B := B) X b h i j - vmax (sl (A := A) (B := B) X b h i)) := by
  funext i j
  exact expshift_apply X hr hR h0 h1 h2 hS b h i j

/-- Head `(b, h)` of the quotient by the broadcast row sum. -/
theorem divsum_sl {A B : ℕ} (E : FVec Ideal ⟨4, ![4, 12, A, B]⟩ .f32)
    (hr : Shape.ReducesTo ⟨4, ![4, 12, A, B]⟩ [3] ⟨3, ![4, 12, A]⟩)
    (hR : Shape.Reduces ⟨4, ![4, 12, A, B]⟩ [3] ⟨3, ![4, 12, A]⟩)
    (h1 : Shape.BroadcastsInDim ⟨3, ![4, 12, A]⟩ ⟨4, ![4, 12, A, 1]⟩ ![0, 1, 2])
    (h2 : Shape.BroadcastsInDim ⟨4, ![4, 12, A, 1]⟩ ⟨4, ![4, 12, A, B]⟩ ![0, 1, 2, 3])
    (hS : 0 < (⟨0, ![]⟩ : Shape).numel) (b : Fin 4) (h : Fin 12) :
    sl (A := A) (B := B) (Host.divf (F := Ideal) E (broadcastInDim ⟨4, ![4, 12, A, B]⟩ ![0, 1, 2, 3] h2 (broadcastInDim ⟨4, ![4, 12, A, 1]⟩ ![0, 1, 2] h1
        (Host.reduceAdd (F := Ideal) E (constant (F := Ideal) ⟨0, ![]⟩ .f32 0x00000000#32) hr hS)))) b h
      = fun i j => Ideal.div (sl (A := A) (B := B) E b h i j) (∑ j' : Fin B, sl (A := A) (B := B) E b h i j') := by
  funext i j
  exact divsum_apply E hr hR h1 h2 hS b h i j

end RowSoftmax

open RowSoftmax

/-- The first softmax of head `(b, h)`. -/
theorem refK1_eq (V0 : Val) (b : Fin 4) (h : Fin 12) : sl (A := 4096) (B := 64) (refK1 (F := Ideal) V0) b h = ker1 (qsOf V0 b h) (klOf V0 b h) := by
  have hR : Shape.Reduces S4x12x4096x64 [3] S4x12x4096 := by decide
  have e18 : sl (A := 4096) (B := 64) (res_main_v18 (F := Ideal) V0) b h = mmulT (qsOf V0 b h) (klOf V0 b h) := by
    unfold res_main_v18
    refine (dot33_sl _ _ _ b h).trans ?_
    rw [res4_eq, res17_eq]
  have e25 : sl (A := 4096) (B := 64) (res_main_v25 (F := Ideal) V0) b h
      = fun i j => Ideal.exp (mmulT (qsOf V0 b h) (klOf V0 b h) i j - vmax (mmulT (qsOf V0 b h) (klOf V0 b h) i)) := by
    unfold res_main_v25
    refine (expshift_sl _ _ hR _ _ _ _ b h).trans ?_
    rw [e18]
  unfold refK1
  refine (divsum_sl _ _ hR _ _ _ b h).trans ?_
  rw [e25]
  rfl

/-- The second softmax of head `(b, h)`. -/
theorem res41_eq (V0 : Val) (b : Fin 4) (h : Fin 12) : sl (A := 64) (B := 64) (res_main_v41 (F := Ideal) V0) b h = k2Of V0 b h := by
  have hR : Shape.Reduces S4x12x64x64 [3] S4x12x64 := by decide
  have e30 : sl (A := 64) (B := 64) (res_main_v30 (F := Ideal) V0) b h = mmulT (qlOf V0 b h) (klOf V0 b h) := by
    unfold res_main_v30
    refine (dot33_sl _ _ _ b h).trans ?_
    rw [res13_eq, res17_eq]
  have e37 : sl (A := 64) (B := 64) (res_main_v37 (F := Ideal) V0) b h
      = fun i j => Ideal.exp (mmulT (qlOf V0 b h) (klOf V0 b h) i j - vmax (mmulT (qlOf V0 b h) (klOf V0 b h) i)) := by
    unfold res_main_v37
    refine (expshift_sl _ _ hR _ _ _ _ b h).trans ?_
    rw [e30]
  unfold res_main_v41
  refine (divsum_sl _ _ hR _ _ _ b h).trans ?_
  rw [e37]
  rfl

end Cert.ReferenceIdeal.RefValue

end
-- ==== Proof.RefC.lean ====
import proofs.«416977_j76355928588535_3_alg».proof.Proof.RefB
import Idealize.ShloMosaic.Lib.IdealHost
import Idealize.ShloMosaic.Lib.Pipeline.Value

noncomputable section

/-!
  The Newton–Schulz pseudo-inverse of the reference, head by head.

  A batched product of `[4, 12, 64, 64]` arrays is, on each head, the product of the heads; the identity
  array is the identity matrix; the start is the transpose of the second softmax over its largest column
  sum; and each of the six steps is `(¼ Z) · (13 I − AZ · (15 I − AZ · (7 I − AZ)))` on the heads.
-/

namespace Cert.ReferenceIdeal.RefValue

open Cert.ReferenceIdeal Cert.ReferenceIdeal.Gen Cert.ReferenceIdeal.Value Idealize.ShloMosaic Idealize.ShloMosaic.TcCoe
open Idealize.ShloMosaic.StableHlo Idealize.ShloMosaic.ValueIdx Cert.Nys
open scoped BigOperators

/-! ## The batched product, head by head -/

private theorem dotL0 (i : S4x12x64x64.Idx) (q : dot_S4x12x64x64_S4x12x64x64_S4x12x64x64_3_2_2_3_01_01.contr.Idx) :
    (dot_S4x12x64x64_S4x12x64x64_S4x12x64x64_3_2_2_3_01_01.lhsIdx i q 0).val = (i 0).val := by
  unfold DotDims.lhsIdx
  rw [dif_pos (show (0 : Fin S4x12x64x64.rank) ∈ dot_S4x12x64x64_S4x12x64x64_S4x12x64x64_3_2_2_3_01_01.lhsBatch by decide)]
  rfl
private theorem dotL1 (i : S4x12x64x64.Idx) (q : dot_S4x12x64x64_S4x12x64x64_S4x12x64x64_3_2_2_3_01_01.contr.Idx) :
    (dot_S4x12x64x64_S4x12x64x64_S4x12x64x64_3_2_2_3_01_01.lhsIdx i q 1).val = (i 1).val := by
  unfold DotDims.lhsIdx
  rw [dif_pos (show (1 : Fin S4x12x64x64.rank) ∈ dot_S4x12x64x64_S4x12x64x64_S4x12x64x64_3_2_2_3_01_01.lhsBatch by decide)]
  rfl
private theorem dotL2 (i : S4x12x64x64.Idx) (q : dot_S4x12x64x64_S4x12x64x64_S4x12x64x64_3_2_2_3_01_01.contr.Idx) :
    (dot_S4x12x64x64_S4x12x64x64_S4x12x64x64_3_2_2_3_01_01.lhsIdx i q 2).val = (i 2).val := by
  unfold DotDims.lhsIdx
  rw [dif_neg (show ¬(2 : Fin S4x12x64x64.rank) ∈ dot_S4x12x64x64_S4x12x64x64_S4x12x64x64_3_2_2_3_01_01.lhsBatch by decide),
    dif_pos (show (2 : Fin S4x12x64x64.rank) ∈ dot_S4x12x64x64_S4x12x64x64_S4x12x64x64_3_2_2_3_01_01.lhsNonContracting by decide)]
  rfl
private theorem dotL3 (i : S4x12x64x64.Idx) (q : dot_S4x12x64x64_S4x12x64x64_S4x12x64x64_3_2_2_3_01_01.contr.Idx) :
    (dot_S4x12x64x64_S4x12x64x64_S4x12x64x64_3_2_2_3_01_01.lhsIdx i q 3).val = (q ⟨0, by decide⟩).val :=
  dot_S4x12x64x64_S4x12x64x64_S4x12x64x64_3_2_2_3_01_01.lhsIdx_val_of_single rfl i q
private theorem dotR0 (i : S4x12x64x64.Idx) (q : dot_S4x12x64x64_S4x12x64x64_S4x12x64x64_3_2_2_3_01_01.contr.Idx) :
    (dot_S4x12x64x64_S4x12x64x64_S4x12x64x64_3_2_2_3_01_01.rhsIdx i q 0).val = (i 0).val := by
  unfold DotDims.rhsIdx
  rw [dif_pos (show (0 : Fin S4x12x64x64.rank) ∈ dot_S4x12x64x64_S4x12x64x64_S4x12x64x64_3_2_2_3_01_01.rhsBatch by decide)]
  rfl
private theorem dotR1 (i : S4x12x64x64.Idx) (q : dot_S4x12x64x64_S4x12x64x64_S4x12x64x64_3_2_2_3_01_01.contr.Idx) :
    (dot_S4x12x64x64_S4x12x64x64_S4x12x64x64_3_2_2_3_01_01.rhsIdx i q 1).val = (i 1).val := by
  unfold DotDims.rhsIdx
  rw [dif_pos (show (1 : Fin S4x12x64x64.rank) ∈ dot_S4x12x64x64_S4x12x64x64_S4x12x64x64_3_2_2_3_01_01.rhsBatch by decide)]
  rfl
private theorem dotR2 (i : S4x12x64x64.Idx) (q : dot_S4x12x64x64_S4x12x64x64_S4x12x64x64_3_2_2_3_01_01.contr.Idx) :
    (dot_S4x12x64x64_S4x12x64x64_S4x12x64x64_3_2_2_3_01_01.rhsIdx i q 2).val = (q ⟨0, by decide⟩).val :=
  dot_S4x12x64x64_S4x12x64x64_S4x12x64x64_3_2_2_3_01_01.rhsIdx_val_of_single rfl i q
private theorem dotR3 (i : S4x12x64x64.Idx) (q : dot_S4x12x64x64_S4x12x64x64_S4x12x64x64_3_2_2_3_01_01.contr.Idx) :
    (dot_S4x12x64x64_S4x12x64x64_S4x12x64x64_3_2_2_3_01_01.rhsIdx i q 3).val = (i 3).val := by
  unfold DotDims.rhsIdx
  rw [dif_neg (show ¬(3 : Fin S4x12x64x64.rank) ∈ dot_S4x12x64x64_S4x12x64x64_S4x12x64x64_3_2_2_3_01_01.rhsBatch by decide),
    dif_pos (show (3 : Fin S4x12x64x64.rank) ∈ dot_S4x12x64x64_S4x12x64x64_S4x12x64x64_3_2_2_3_01_01.rhsNonContracting by decide)]
  rfl

/-- Head `(b, h)` of a batched product of two `[4, 12, 64, 64]` arrays is the product of the heads. -/
private theorem dot_head (X Y : FVec Ideal S4x12x64x64 .f32) (b : Fin 4) (h : Fin 12) :
    sl (A := 64) (B := 64) (Host.dotGeneral (F := Ideal) dot_S4x12x64x64_S4x12x64x64_S4x12x64x64_3_2_2_3_01_01 none X Y) b h
      = mmul (sl (A := 64) (B := 64) X b h) (sl (A := 64) (B := 64) Y b h) := by
  funext i j
  show FloatOps.dotGeneral dot_S4x12x64x64_S4x12x64x64_S4x12x64x64_3_2_2_3_01_01 none .single X Y (ix4 b h i j)
    = ∑ l : Fin 64, X (ix4 b h i l) * Y (ix4 b h l j)
  rw [Ideal.dotGeneral_apply, ← Equiv.sum_comp (contrEquiv1 dot_S4x12x64x64_S4x12x64x64_S4x12x64x64_3_2_2_3_01_01 64 rfl rfl).symm]
  refine Finset.sum_congr rfl fun k _ => ?_
  have hk := contrEquiv1_symm_val dot_S4x12x64x64_S4x12x64x64_S4x12x64x64_3_2_2_3_01_01 64 rfl rfl k
  have el : dot_S4x12x64x64_S4x12x64x64_S4x12x64x64_3_2_2_3_01_01.lhsIdx (ix4 b h i j)
      ((contrEquiv1 dot_S4x12x64x64_S4x12x64x64_S4x12x64x64_3_2_2_3_01_01 64 rfl rfl).symm k) = ix4 b h i k :=
    funext fun a => Fin.ext (by
      match a with
      | ⟨0, _⟩ => exact dotL0 _ _
      | ⟨1, _⟩ => exact dotL1 _ _
      | ⟨2, _⟩ => exact dotL2 _ _
      | ⟨3, _⟩ => exact (dotL3 _ _).trans hk)
  have er : dot_S4x12x64x64_S4x12x64x64_S4x12x64x64_3_2_2_3_01_01.rhsIdx (ix4 b h i j)
      ((contrEquiv1 dot_S4x12x64x64_S4x12x64x64_S4x12x64x64_3_2_2_3_01_01 64 rfl rfl).symm k) = ix4 b h k j :=
    funext fun a => Fin.ext (by
      match a with
      | ⟨0, _⟩ => exact dotR0 _ _
      | ⟨1, _⟩ => exact dotR1 _ _
      | ⟨2, _⟩ => exact (dotR2 _ _).trans hk
      | ⟨3, _⟩ => exact dotR3 _ _)
  rw [el, er]

/-! ## The identity array -/

/-- The word `iota₀ + 0 == iota₁`, read unsigned as a number, is the identity matrix's entry. -/
private theorem eye_word (i j : Fin 64) :
    (FloatOps.uitofp (F := Ideal) .f32 (IntOp.cmpi .eq (IntOp.addi (BitVec.ofNat 32 i.val) 0#32) (BitVec.ofNat 32 j.val)) : EReal)
      = eye i j := by
  show (((IntOp.cmpi .eq (IntOp.addi (BitVec.ofNat 32 i.val) 0#32) (BitVec.ofNat 32 j.val)).toNat : ℝ) : EReal) = eye i j
  unfold eye IntOp.cmpi IntOp.addi
  have hi := i.isLt
  have hj := j.isLt
  by_cases hij : i = j
  · subst hij
    simp
  · have hv : i.val ≠ j.val := fun e => hij (Fin.ext e)
    have hne : ¬ (BitVec.ofNat 32 i.val = BitVec.ofNat 32 j.val) := by
      intro e
      have := congrArg BitVec.toNat e
      simp at this
      omega
    simp [hij, hne]

/-- The identity array at an index. -/
private theorem res66_apply (V0 : Val) (i j : Fin 64) : res_main_v66 (F := Ideal) V0 (ix2 i j) = eye i j := by
  unfold res_main_v66
  refine Eq.trans ?_ (eye_word i j)
  show FloatOps.uitofp (F := Ideal) .f32 (IntOp.cmpi .eq (IntOp.addi (BitVec.ofNat 32 i.val)
      (broadcastInDim S64x64 ![] bcast_S_S64x64 (constantI S_ 32 0#32) (ix2 i j))) (BitVec.ofNat 32 j.val)) = _
  rw [broadcastInDim_scalar_apply]
  rfl

/-- A scalar constant broadcast to any shape reads the constant's word. -/
private theorem bcast_const_apply {T : Shape} (hb : S_.BroadcastsInDim T ![]) (c : BitVec 32) (j : T.Idx) :
    broadcastInDim T ![] hb (constant (F := Ideal) S_ .f32 c) j = Ideal.ofBits .f32 c := by
  rw [broadcastInDim_scalar_apply]
  rfl

/-- A `[64, 64]` array broadcast to every head reads the array. -/
private theorem bcast_mat_apply (W : FVec Ideal S64x64 .f32) (b : Fin 4) (h : Fin 12) (i j : Fin 64) :
    broadcastInDim S4x12x64x64 ![0, 1, 2, 3] bcast_S1x1x64x64_S4x12x64x64_0_1_2_3
      (broadcastInDim S1x1x64x64 ![2, 3] bcast_S64x64_S1x1x64x64_2_3 W) (ix4 b h i j) = W (ix2 i j) := by
  rw [broadcastInDim_apply _ _ _ _ (ix4 (0 : Fin 1) (0 : Fin 1) i j) (fun a => by
    match a with
    | ⟨0, _⟩ => rfl
    | ⟨1, _⟩ => rfl
    | ⟨2, _⟩ => rfl
    | ⟨3, _⟩ => rfl)]
  rw [broadcastInDim_apply _ _ _ _ (ix2 i j) (fun a => by
    match a with
    | ⟨0, _⟩ => rfl
    | ⟨1, _⟩ => rfl)]

/-! ## The start of the iteration -/

/-- The transpose of the last two axes at an index. -/
private theorem transpose_head (X : FVec Ideal S4x12x64x64 .f32) (b : Fin 4) (h : Fin 12) (i j : Fin 64) :
    transpose S4x12x64x64 [0, 1, 3, 2] X transposes_S4x12x64x64_S4x12x64x64_0_1_3_2 (ix4 b h i j) = X (ix4 b h j i) :=
  transpose_apply _ X _ (ix4 b h i j) (ix4 b h j i) (fun a => by
    match a with
    | ⟨0, _⟩ => rfl
    | ⟨1, _⟩ => rfl
    | ⟨2, _⟩ => rfl
    | ⟨3, _⟩ => rfl)

/-- A `[4, 12]` array broadcast over the last two axes reads the array at the head. -/
private theorem bcast_head_apply (R : FVec Ideal S4x12 .f32) (b : Fin 4) (h : Fin 12) (i j : Fin 64) :
    broadcastInDim S4x12x64x64 ![0, 1, 2, 3] bcast_S4x12x1x1_S4x12x64x64_0_1_2_3
      (broadcastInDim S4x12x1x1 ![0, 1] bcast_S4x12_S4x12x1x1_0_1 R) (ix4 b h i j) = R (ix2 b h) := by
  rw [broadcastInDim_apply _ _ _ _ (ix4 b h (0 : Fin 1) (0 : Fin 1)) (fun a => by
    match a with
    | ⟨0, _⟩ => rfl
    | ⟨1, _⟩ => rfl
    | ⟨2, _⟩ => rfl
    | ⟨3, _⟩ => rfl)]
  rw [broadcastInDim_apply _ _ _ _ (ix2 b h) (fun a => by
    match a with
    | ⟨0, _⟩ => rfl
    | ⟨1, _⟩ => rfl)]

/-- The column sums of a head. -/
private theorem colsum_apply (X : FVec Ideal S4x12x64x64 .f32) (b : Fin 4) (h : Fin 12) (k : Fin 64) :
    Host.reduceAdd (F := Ideal) X (constant (F := Ideal) S_ .f32 0x00000000#32) reducesTo_S4x12x64x64_S4x12x64_d2 h_S_ (ix3 b h k)
      = ∑ i' : Fin 64, X (ix4 b h i' k) := by
  have hr1 : S4x12x64x64.Reduces [2] S4x12x64 := by decide
  rw [hostReduceAdd_apply, Ideal.hostReduceAdd_single _ hr1]
  show Ideal.ofBits .f32 0x00000000#32 + _ = _
  rw [Ideal.ofBits_zero_f32, zero_add]
  refine Finset.sum_congr rfl fun i' _ => congrArg X (funext fun a => Fin.ext ?_)
  match a with
  | ⟨0, _⟩ => rfl
  | ⟨1, _⟩ => rfl
  | ⟨2, _⟩ => rfl
  | ⟨3, _⟩ => rfl

/-- The largest column sum of a head. -/
private theorem init_den (X : FVec Ideal S4x12x64x64 .f32) (b : Fin 4) (h : Fin 12) :
    Host.reduce FloatOps.maximumf
        (Host.reduceAdd (F := Ideal) X (constant (F := Ideal) S_ .f32 0x00000000#32) reducesTo_S4x12x64x64_S4x12x64_d2 h_S_)
        (constant (F := Ideal) S_ .f32 0xFF800000#32) reducesTo_S4x12x64_S4x12_d2 h_S_ (ix2 b h)
      = vmax fun j' : Fin 64 => ∑ i' : Fin 64, sl (A := 64) (B := 64) X b h i' j' := by
  have hr2 : S4x12x64.Reduces [2] S4x12 := by decide
  rw [Host.reduce_eq_fold_single FloatOps.maximumf _ _ reducesTo_S4x12x64_S4x12_d2 hr2 h_S_ (ix2 b h)]
  unfold vmax
  refine congrArg (fun f => Finset.fold max cNegInf f (Finset.univ : Finset (Fin 64))) (funext fun k => ?_)
  show Host.reduceAdd (F := Ideal) X (constant (F := Ideal) S_ .f32 0x00000000#32) reducesTo_S4x12x64x64_S4x12x64_d2 h_S_
      (hr2.lift (ix2 b h) k) = _
  rw [show hr2.lift (ix2 b h) k = ix3 b h k from funext fun a => Fin.ext (by
    match a with
    | ⟨0, _⟩ => rfl
    | ⟨1, _⟩ => rfl
    | ⟨2, _⟩ => rfl)]
  exact colsum_apply X b h k

/-- The start: the transpose over the largest column sum. -/
private theorem init_head (X : FVec Ideal S4x12x64x64 .f32) (b : Fin 4) (h : Fin 12) :
    sl (A := 64) (B := 64) (Host.divf (F := Ideal) (transpose S4x12x64x64 [0, 1, 3, 2] X transposes_S4x12x64x64_S4x12x64x64_0_1_3_2)
      (broadcastInDim S4x12x64x64 ![0, 1, 2, 3] bcast_S4x12x1x1_S4x12x64x64_0_1_2_3
        (broadcastInDim S4x12x1x1 ![0, 1] bcast_S4x12_S4x12x1x1_0_1
          (Host.reduce FloatOps.maximumf
            (Host.reduceAdd (F := Ideal) X (constant (F := Ideal) S_ .f32 0x00000000#32) reducesTo_S4x12x64x64_S4x12x64_d2 h_S_)
            (constant (F := Ideal) S_ .f32 0xFF800000#32) reducesTo_S4x12x64_S4x12_d2 h_S_)))) b h
      = nsInit (sl (A := 64) (B := 64) X b h) := by
  funext i j
  unfold nsInit
  rw [← init_den X b h]
  show Ideal.div _ _ = _
  rw [transpose_head, bcast_head_apply]
  rfl

/-! ## One Newton–Schulz step -/

/-- A constant times the identity, broadcast to every head, at an index. -/
private theorem scaled_eye_apply (c : BitVec 32) (I : FVec Ideal S64x64 .f32) (hI : ∀ i j : Fin 64, I (ix2 i j) = eye i j)
    (b : Fin 4) (h : Fin 12) (i j : Fin 64) :
    (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant (F := Ideal) S_ .f32 c)) I))) (ix4 b h i j) = Ideal.ofBits .f32 c * eye i j := by
  rw [bcast_mat_apply]
  show broadcastInDim S64x64 ![] bcast_S_S64x64 (constant (F := Ideal) S_ .f32 c) (ix2 i j) * I (ix2 i j) = _
  rw [bcast_const_apply, hI]

/-- Head `(b, h)` of `c I − KV · W`. -/
private theorem poly_head (c : BitVec 32) (I : FVec Ideal S64x64 .f32) (hI : ∀ i j : Fin 64, I (ix2 i j) = eye i j)
    (KV W : FVec Ideal S4x12x64x64 .f32) (b : Fin 4) (h : Fin 12) :
    sl (A := 64) (B := 64) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant (F := Ideal) S_ .f32 c)) I))) (Host.dotGeneral (F := Ideal) dot_S4x12x64x64_S4x12x64x64_S4x12x64x64_3_2_2_3_01_01 none KV W)) b h
      = fun i j => Ideal.ofBits .f32 c * eye i j - mmul (sl (A := 64) (B := 64) KV b h) (sl (A := 64) (B := 64) W b h) i j := by
  funext i j
  show (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant (F := Ideal) S_ .f32 c)) I))) (ix4 b h i j) - Host.dotGeneral (F := Ideal) dot_S4x12x64x64_S4x12x64x64_S4x12x64x64_3_2_2_3_01_01 none KV W (ix4 b h i j) = _
  rw [scaled_eye_apply c I hI]
  exact congrArg (fun M : Mat 64 64 => Ideal.ofBits .f32 c * eye i j - M i j) (dot_head KV W b h)

/-- Head `(b, h)` of `c I − KV`. -/
private theorem poly0_head (c : BitVec 32) (I : FVec Ideal S64x64 .f32) (hI : ∀ i j : Fin 64, I (ix2 i j) = eye i j)
    (KV : FVec Ideal S4x12x64x64 .f32) (b : Fin 4) (h : Fin 12) :
    sl (A := 64) (B := 64) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant (F := Ideal) S_ .f32 c)) I))) KV) b h
      = fun i j => Ideal.ofBits .f32 c * eye i j - sl (A := 64) (B := 64) KV b h i j := by
  funext i j
  show (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant (F := Ideal) S_ .f32 c)) I))) (ix4 b h i j) - KV (ix4 b h i j) = _
  rw [scaled_eye_apply c I hI]
  rfl

/-- One step's term over arrays: `(¼ Z) · (13 I − KV · (15 I − KV · (7 I − KV)))`. -/
private def stepT (Z KV : FVec Ideal S4x12x64x64 .f32) (I : FVec Ideal S64x64 .f32) : FVec Ideal S4x12x64x64 .f32 :=
  Host.dotGeneral dot_S4x12x64x64_S4x12x64x64_S4x12x64x64_3_2_2_3_01_01 none (mulf (broadcastInDim S4x12x64x64 ![] bcast_S_S4x12x64x64 (constant (F := Ideal) S_ .f32 0x3E800000#32)) Z) (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant (F := Ideal) S_ .f32 0x41500000#32)) I))) (Host.dotGeneral dot_S4x12x64x64_S4x12x64x64_S4x12x64x64_3_2_2_3_01_01 none KV (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant (F := Ideal) S_ .f32 0x41700000#32)) I))) (Host.dotGeneral dot_S4x12x64x64_S4x12x64x64_S4x12x64x64_3_2_2_3_01_01 none KV (subf (broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant (F := Ideal) S_ .f32 0x40E00000#32)) I))) KV)))))

/-- Head `(b, h)` of the step's term is the step on the heads, when `KV`'s head is `A · Z` and `I` is the identity. -/
private theorem stepT_head (Z KV : FVec Ideal S4x12x64x64 .f32) (I : FVec Ideal S64x64 .f32) (hI : ∀ i j : Fin 64, I (ix2 i j) = eye i j)
    (A : Mat 64 64) (b : Fin 4) (h : Fin 12)
    (hKV : sl (A := 64) (B := 64) KV b h = mmul A (sl (A := 64) (B := 64) Z b h)) :
    sl (A := 64) (B := 64) (stepT Z KV I) b h = nsStep A (sl (A := 64) (B := 64) Z b h) := by
  unfold stepT nsStep
  rw [dot_head, poly_head _ I hI, poly_head _ I hI, poly0_head _ I hI, hKV]
  refine congrArg (fun M : Mat 64 64 => mmul M _) (funext fun i => funext fun j => ?_)
  show broadcastInDim S4x12x64x64 ![] bcast_S_S4x12x64x64 (constant (F := Ideal) S_ .f32 0x3E800000#32) (ix4 b h i j) * Z (ix4 b h i j) = _
  rw [bcast_const_apply]
  rfl

/-! ## The six steps -/

/-- The start, head by head. -/
private theorem res72_head (V0 : Val) (b : Fin 4) (h : Fin 12) :
    sl (A := 64) (B := 64) (res_main_v72 (F := Ideal) V0) b h = nsInit (k2Of V0 b h) := by
  unfold res_main_v72
  rw [init_head, res41_eq]

/-- A step over `Z` and `k₂ · Z`, head by head. -/
private theorem step_head (V0 : Val) (b : Fin 4) (h : Fin 12) (Z : FVec Ideal S4x12x64x64 .f32) (M : Mat 64 64)
    (hZ : sl (A := 64) (B := 64) Z b h = M) :
    sl (A := 64) (B := 64) (stepT Z (Host.dotGeneral (F := Ideal) (φ₁ := .f32) (φ₂ := .f32) dot_S4x12x64x64_S4x12x64x64_S4x12x64x64_3_2_2_3_01_01 none (res_main_v41 (F := Ideal) V0) Z) (res_main_v66 (F := Ideal) V0)) b h
      = nsStep (k2Of V0 b h) M := by
  rw [stepT_head Z _ (res_main_v66 (F := Ideal) V0) (res66_apply V0) (k2Of V0 b h) b h (by rw [dot_head, res41_eq]), hZ]

private theorem res93_eq (V0 : Val) : res_main_v93 (F := Ideal) V0
    = stepT (res_main_v72 (F := Ideal) V0) (Host.dotGeneral (F := Ideal) (φ₁ := .f32) (φ₂ := .f32) dot_S4x12x64x64_S4x12x64x64_S4x12x64x64_3_2_2_3_01_01 none (res_main_v41 (F := Ideal) V0) (res_main_v72 (F := Ideal) V0)) (res_main_v66 (F := Ideal) V0) := by
  unfold res_main_v93 res_main_v73 stepT
  rfl
private theorem res114_eq (V0 : Val) : res_main_v114 (F := Ideal) V0
    = stepT (res_main_v93 (F := Ideal) V0) (Host.dotGeneral (F := Ideal) (φ₁ := .f32) (φ₂ := .f32) dot_S4x12x64x64_S4x12x64x64_S4x12x64x64_3_2_2_3_01_01 none (res_main_v41 (F := Ideal) V0) (res_main_v93 (F := Ideal) V0)) (res_main_v66 (F := Ideal) V0) := by
  unfold res_main_v114 res_main_v94 stepT
  rfl
private theorem res135_eq (V0 : Val) : res_main_v135 (F := Ideal) V0
    = stepT (res_main_v114 (F := Ideal) V0) (Host.dotGeneral (F := Ideal) (φ₁ := .f32) (φ₂ := .f32) dot_S4x12x64x64_S4x12x64x64_S4x12x64x64_3_2_2_3_01_01 none (res_main_v41 (F := Ideal) V0) (res_main_v114 (F := Ideal) V0)) (res_main_v66 (F := Ideal) V0) := by
  unfold res_main_v135 res_main_v115 stepT
  rfl
private theorem res156_eq (V0 : Val) : res_main_v156 (F := Ideal) V0
    = stepT (res_main_v135 (F := Ideal) V0) (Host.dotGeneral (F := Ideal) (φ₁ := .f32) (φ₂ := .f32) dot_S4x12x64x64_S4x12x64x64_S4x12x64x64_3_2_2_3_01_01 none (res_main_v41 (F := Ideal) V0) (res_main_v135 (F := Ideal) V0)) (res_main_v66 (F := Ideal) V0) := by
  unfold res_main_v156 res_main_v136 stepT
  rfl
private theorem res177_eq (V0 : Val) : res_main_v177 (F := Ideal) V0
    = stepT (res_main_v156 (F := Ideal) V0) (Host.dotGeneral (F := Ideal) (φ₁ := .f32) (φ₂ := .f32) dot_S4x12x64x64_S4x12x64x64_S4x12x64x64_3_2_2_3_01_01 none (res_main_v41 (F := Ideal) V0) (res_main_v156 (F := Ideal) V0)) (res_main_v66 (F := Ideal) V0) := by
  unfold res_main_v177 res_main_v157 stepT
  rfl
private theorem refZ6_eq_stepT (V0 : Val) : refZ6 (F := Ideal) V0
    = stepT (res_main_v177 (F := Ideal) V0) (Host.dotGeneral (F := Ideal) (φ₁ := .f32) (φ₂ := .f32) dot_S4x12x64x64_S4x12x64x64_S4x12x64x64_3_2_2_3_01_01 none (res_main_v41 (F := Ideal) V0) (res_main_v177 (F := Ideal) V0)) (res_main_v66 (F := Ideal) V0) := by
  unfold refZ6 res_main_v178 stepT
  rfl

/-- The pseudo-inverse of head `(b, h)`: six Newton–Schulz steps on its second softmax. -/
theorem refZ6_eq (V0 : Val) (b : Fin 4) (h : Fin 12) : sl (A := 64) (B := 64) (refZ6 (F := Ideal) V0) b h = nsInv (k2Of V0 b h) := by
  have h0 := res72_head V0 b h
  have h1 := step_head V0 b h _ _ h0
  rw [← res93_eq] at h1
  have h2 := step_head V0 b h _ _ h1
  rw [← res114_eq] at h2
  have h3 := step_head V0 b h _ _ h2
  rw [← res135_eq] at h3
  have h4 := step_head V0 b h _ _ h3
  rw [← res156_eq] at h4
  have h5 := step_head V0 b h _ _ h4
  rw [← res177_eq] at h5
  have h6 := step_head V0 b h _ _ h5
  rw [← refZ6_eq_stepT] at h6
  exact h6

end Cert.ReferenceIdeal.RefValue

end
-- ==== Proof.RefB3.lean ====
import proofs.«416977_j76355928588535_3_alg».proof.Proof.RefA
import Idealize.ShloMosaic.Lib.IdealHost
import Idealize.ShloMosaic.PureOps.Ideal.Laws
import Idealize.ShloMosaic.Lib.Pipeline.Value

noncomputable section

namespace Cert.ReferenceIdeal.RefValue

open Cert.ReferenceIdeal Cert.ReferenceIdeal.Gen Cert.ReferenceIdeal.Value Idealize.ShloMosaic Idealize.ShloMosaic.TcCoe
open Idealize.ShloMosaic.StableHlo Idealize.ShloMosaic.ValueIdx Cert.Nys

/-! ## The batched product `A · Bᵀ` of `[4,12,64,64]` by `[4,12,4096,64]`, read at an index -/

private abbrev D3 := dot_S4x12x64x64_S4x12x4096x64_S4x12x64x4096_3_3_2_2_01_01

private theorem D3_lhs0 (j : S4x12x64x4096.Idx) (k : D3.contr.Idx) : (D3.lhsIdx j k 0 : ℕ) = j 0 := by
  simp [DotDims.lhsIdx, D3, dot_S4x12x64x64_S4x12x4096x64_S4x12x64x4096_3_3_2_2_01_01]; rfl
private theorem D3_lhs1 (j : S4x12x64x4096.Idx) (k : D3.contr.Idx) : (D3.lhsIdx j k 1 : ℕ) = j 1 := by
  simp [DotDims.lhsIdx, D3, dot_S4x12x64x64_S4x12x4096x64_S4x12x64x4096_3_3_2_2_01_01]; rfl
private theorem D3_lhs2 (j : S4x12x64x4096.Idx) (k : D3.contr.Idx) : (D3.lhsIdx j k 2 : ℕ) = j 2 := by
  simp [DotDims.lhsIdx, D3, dot_S4x12x64x64_S4x12x4096x64_S4x12x64x4096_3_3_2_2_01_01]; rfl
private theorem D3_lhs3 (j : S4x12x64x4096.Idx) (k : D3.contr.Idx) : (D3.lhsIdx j k 3 : ℕ) = k ⟨0, by decide⟩ := by
  simp [DotDims.lhsIdx, D3, dot_S4x12x64x64_S4x12x4096x64_S4x12x64x4096_3_3_2_2_01_01]; rfl
private theorem D3_rhs0 (j : S4x12x64x4096.Idx) (k : D3.contr.Idx) : (D3.rhsIdx j k 0 : ℕ) = j 0 := by
  simp [DotDims.rhsIdx, D3, dot_S4x12x64x64_S4x12x4096x64_S4x12x64x4096_3_3_2_2_01_01]; rfl
private theorem D3_rhs1 (j : S4x12x64x4096.Idx) (k : D3.contr.Idx) : (D3.rhsIdx j k 1 : ℕ) = j 1 := by
  simp [DotDims.rhsIdx, D3, dot_S4x12x64x64_S4x12x4096x64_S4x12x64x4096_3_3_2_2_01_01]; rfl
private theorem D3_rhs2 (j : S4x12x64x4096.Idx) (k : D3.contr.Idx) : (D3.rhsIdx j k 2 : ℕ) = j 3 := by
  simp [DotDims.rhsIdx, D3, dot_S4x12x64x64_S4x12x4096x64_S4x12x64x4096_3_3_2_2_01_01]; rfl
private theorem D3_rhs3 (j : S4x12x64x4096.Idx) (k : D3.contr.Idx) : (D3.rhsIdx j k 3 : ℕ) = k ⟨0, by decide⟩ := by
  simp [DotDims.rhsIdx, D3, dot_S4x12x64x64_S4x12x4096x64_S4x12x64x4096_3_3_2_2_01_01]; rfl

private theorem D3_idx_l (b : Fin 4) (h : Fin 12) (l : Fin 64) (s : Fin 4096) (d : Fin 64) :
    D3.lhsIdx (ix4 b h l s) ((contrEquiv1 D3 64 rfl rfl).symm d) = ix4 b h l d := by
  funext a
  apply Fin.ext
  match a with
  | ⟨0, _⟩ => exact D3_lhs0 _ _
  | ⟨1, _⟩ => exact D3_lhs1 _ _
  | ⟨2, _⟩ => exact D3_lhs2 _ _
  | ⟨3, _⟩ => exact (D3_lhs3 _ _).trans (contrEquiv1_symm_val D3 64 rfl rfl d)

private theorem D3_idx_r (b : Fin 4) (h : Fin 12) (l : Fin 64) (s : Fin 4096) (d : Fin 64) :
    D3.rhsIdx (ix4 b h l s) ((contrEquiv1 D3 64 rfl rfl).symm d) = ix4 b h s d := by
  funext a
  apply Fin.ext
  match a with
  | ⟨0, _⟩ => exact D3_rhs0 _ _
  | ⟨1, _⟩ => exact D3_rhs1 _ _
  | ⟨2, _⟩ => exact D3_rhs2 _ _
  | ⟨3, _⟩ => exact (D3_rhs3 _ _).trans (contrEquiv1_symm_val D3 64 rfl rfl d)

/-- Entry `(l, s)` of head `(b, h)` of the batched product is `∑ d, X[b,h,l,d] · Y[b,h,s,d]`. -/
private theorem dotT_apply (X : FVec Ideal S4x12x64x64 .f32) (Y : FVec Ideal S4x12x4096x64 .f32)
    (b : Fin 4) (h : Fin 12) (l : Fin 64) (s : Fin 4096) :
    Host.dotGeneral D3 none X Y (ix4 b h l s) = ∑ d : Fin 64, X (ix4 b h l d) * Y (ix4 b h s d) := by
  refine (Ideal.dotGeneral_apply D3 none .single X Y (ix4 b h l s)).trans ?_
  rw [← Equiv.sum_comp (contrEquiv1 D3 64 rfl rfl).symm]
  refine Finset.sum_congr rfl fun d _ => ?_
  rw [D3_idx_l, D3_idx_r]

/-! ## Reductions over the last axis of a `[4,12,64,4096]` array -/

private theorem red3 : S4x12x64x4096.Reduces [3] S4x12x64 := by decide

private theorem lift3 (b : Fin 4) (h : Fin 12) (l : Fin 64) (s : Fin 4096) :
    red3.lift (ix3 b h l) s = ix4 b h l s := by
  funext a
  apply Fin.ext
  match a with
  | ⟨0, _⟩ => rfl
  | ⟨1, _⟩ => rfl
  | ⟨2, _⟩ => rfl
  | ⟨3, _⟩ => rfl

/-- The row maximum, folded from the `-∞` word. -/
private theorem rowmax_apply (X : FVec Ideal S4x12x64x4096 .f32) (b : Fin 4) (h : Fin 12) (l : Fin 64) :
    Host.reduce FloatOps.maximumf X (constant (F := Ideal) S_ .f32 0xFF800000#32) reducesTo_S4x12x64x4096_S4x12x64_d3 h_S_ (ix3 b h l)
      = vmax (fun s : Fin 4096 => X (ix4 b h l s)) := by
  refine (Host.reduce_eq_fold_single FloatOps.maximumf X _ reducesTo_S4x12x64x4096_S4x12x64_d3 red3 h_S_ (ix3 b h l)).trans ?_
  unfold vmax
  show (Finset.univ : Finset (Fin 4096)).fold max cNegInf (X ∘ red3.lift (ix3 b h l)) = _
  exact Finset.fold_congr fun s _ => congrArg X (lift3 b h l s)

/-- The row sum. -/
private theorem rowsum_apply (X : FVec Ideal S4x12x64x4096 .f32) (b : Fin 4) (h : Fin 12) (l : Fin 64) :
    Host.reduceAdd X (constant (F := Ideal) S_ .f32 0x00000000#32) reducesTo_S4x12x64x4096_S4x12x64_d3 h_S_ (ix3 b h l)
      = ∑ s : Fin 4096, X (ix4 b h l s) := by
  refine (hostReduceAdd_apply X _ _ h_S_ (ix3 b h l)).trans ?_
  refine (Ideal.hostReduceAdd_single reducesTo_S4x12x64x4096_S4x12x64_d3 red3 X _ (ix3 b h l)).trans ?_
  rw [constant_apply, Ideal.ofBits_zero_f32, zero_add]
  exact Finset.sum_congr rfl fun s _ => congrArg X (lift3 b h l s)

/-! ## Broadcasts -/

/-- A per-row value broadcast along the last axis reads the row's value. -/
private theorem bcastRow_apply (R : FVec Ideal S4x12x64 .f32) (b : Fin 4) (h : Fin 12) (l : Fin 64) (s : Fin 4096) :
    broadcastInDim S4x12x64x4096 ![0, 1, 2, 3] bcast_S4x12x64x1_S4x12x64x4096_0_1_2_3
      (broadcastInDim S4x12x64x1 ![0, 1, 2] bcast_S4x12x64_S4x12x64x1_0_1_2 R) (ix4 b h l s) = R (ix3 b h l) := by
  refine (broadcastInDim_apply _ _ _ (ix4 b h l s) (ix4 b h l (0 : Fin 1)) (fun a => ?_)).trans ?_
  · match a with
    | ⟨0, _⟩ => rfl
    | ⟨1, _⟩ => rfl
    | ⟨2, _⟩ => rfl
    | ⟨3, _⟩ => rfl
  · refine broadcastInDim_apply _ _ _ (ix4 b h l (0 : Fin 1)) (ix3 b h l) (fun a => ?_)
    match a with
    | ⟨0, _⟩ => rfl
    | ⟨1, _⟩ => rfl
    | ⟨2, _⟩ => rfl

/-- A `[4,1,1,4096]` array broadcast over heads and rows reads at batch and column. -/
private theorem bcastMask_apply (W : FVec Ideal S4x1x1x4096 .f32) (b : Fin 4) (h : Fin 12) (l : Fin 64) (s : Fin 4096) :
    broadcastInDim S4x12x64x4096 ![0, 1, 2, 3] bcast_S4x1x1x4096_S4x12x64x4096_0_1_2_3 W (ix4 b h l s)
      = W (ix4 b (0 : Fin 1) (0 : Fin 1) s) := by
  refine broadcastInDim_apply _ _ _ (ix4 b h l s) (ix4 b (0 : Fin 1) (0 : Fin 1) s) (fun a => ?_)
  match a with
  | ⟨0, _⟩ => rfl
  | ⟨1, _⟩ => rfl
  | ⟨2, _⟩ => rfl
  | ⟨3, _⟩ => rfl

/-- The `[4,4096]` mask placed on axes 0 and 3 of a `[4,1,1,4096]` array. -/
private theorem bcastMask2_apply (M : FVec Ideal S4x4096 .f32) (b : Fin 4) (s : Fin 4096) :
    broadcastInDim S4x1x1x4096 ![0, 3] bcast_S4x4096_S4x1x1x4096_0_3 M (ix4 b (0 : Fin 1) (0 : Fin 1) s) = M (ix2 b s) := by
  refine broadcastInDim_apply _ _ _ (ix4 b (0 : Fin 1) (0 : Fin 1) s) (ix2 b s) (fun a => ?_)
  match a with
  | ⟨0, _⟩ => rfl
  | ⟨1, _⟩ => rfl

private theorem hostExp_apply {s : Shape} {φ : FTy} (X : FVec Ideal s φ) (i : s.Idx) :
    Host.exp X i = Ideal.exp (X i) := rfl

/-- The `-∞` word is the bottom element, so a maximum with it is the other operand. -/
private theorem max_negInf (x : EReal) : max (Ideal.ofBits .f32 0xFF800000#32) x = x := by
  rw [show Ideal.ofBits .f32 0xFF800000#32 = (⊥ : EReal) by simp [Ideal.ofBits, Ideal.ieee]]
  exact max_bot_left x

/-! ## The third softmax -/

private theorem v13_apply (V0 : Val) (b : Fin 4) (h : Fin 12) (l d : Fin 64) :
    (res_main_v13 (F := Ideal) V0 : FVec Ideal S4x12x64x64 .f32) (ix4 b h l d) = qlOf V0 b h l d := by
  have e := congrFun (congrFun (res13_eq V0 b h) l) d
  unfold sl at e
  exact e

private theorem v9_apply (V0 : Val) (b : Fin 4) (h : Fin 12) (s : Fin 4096) (d : Fin 64) :
    (res_main_v9 (F := Ideal) V0 : FVec Ideal S4x12x4096x64 .f32) (ix4 b h s d) = ksOf V0 b h s d := by
  have e := congrFun (congrFun (res9_eq V0 b h) s) d
  unfold sl at e
  exact e

/-- The logits of head `(b, h)`: `ql · ksᵀ` less the mask bias of the key position. -/
private abbrev L3 (V0 : Val) (b : Fin 4) (h : Fin 12) : Mat 64 4096 :=
  fun l s => mmulT (qlOf V0 b h) (ksOf V0 b h) l s - maskBias (mrow (argM V0) b) s

set_option maxRecDepth 8192 in
private theorem v49_apply (V0 : Val) (b : Fin 4) (h : Fin 12) (l : Fin 64) (s : Fin 4096) :
    (res_main_v49 (F := Ideal) V0 : FVec Ideal S4x12x64x4096 .f32) (ix4 b h l s) = L3 V0 b h l s := by
  unfold res_main_v49
  refine (subf_apply _ _ _).trans ?_
  refine congrArg₂ (· - ·) ?_ ?_
  · refine (dotT_apply _ _ b h l s).trans ?_
    unfold mmulT
    exact Finset.sum_congr rfl fun d _ => congrArg₂ (· * ·) (v13_apply V0 b h l d) (v9_apply V0 b h s d)
  · refine (bcastMask_apply _ b h l s).trans ?_
    refine (mulf_apply _ _ _).trans ?_
    rw [broadcastInDim_scalar_apply, constant_apply, bcastMask2_apply, subf_apply, broadcastInDim_scalar_apply,
      constant_apply]
    rfl

set_option maxRecDepth 8192 in
private theorem v56_apply (V0 : Val) (b : Fin 4) (h : Fin 12) (l : Fin 64) (s : Fin 4096) :
    (res_main_v56 (F := Ideal) V0 : FVec Ideal S4x12x64x4096 .f32) (ix4 b h l s)
      = Ideal.exp (L3 V0 b h l s - vmax (L3 V0 b h l)) := by
  unfold res_main_v56
  refine (hostExp_apply _ _).trans (congrArg Ideal.exp ?_)
  refine (subf_apply _ _ _).trans ?_
  refine congrArg₂ (· - ·) (v49_apply V0 b h l s) ?_
  refine (bcastRow_apply _ b h l s).trans ?_
  refine (maximumf_apply _ _ _).trans ?_
  rw [broadcastInDim_scalar_apply, constant_apply, rowmax_apply, max_negInf]
  exact congrArg vmax (funext fun s' => v49_apply V0 b h l s')

/-- The third softmax of head `(b, h)`. -/
theorem refK3_eq (V0 : Val) (b : Fin 4) (h : Fin 12) :
    sl (A := 64) (B := 4096) (refK3 (F := Ideal) V0) b h = ker3 (qlOf V0 b h) (ksOf V0 b h) (mrow (argM V0) b) := by
  funext l s
  have key : ker3 (qlOf V0 b h) (ksOf V0 b h) (mrow (argM V0) b) l s
      = Ideal.div (Ideal.exp (L3 V0 b h l s - vmax (L3 V0 b h l)))
          (∑ s' : Fin 4096, Ideal.exp (L3 V0 b h l s' - vmax (L3 V0 b h l))) := rfl
  rw [key]
  unfold sl refK3
  refine (hostDivf_apply _ _ _).trans ?_
  refine congrArg₂ Ideal.div (v56_apply V0 b h l s) ?_
  refine (bcastRow_apply _ b h l s).trans ?_
  refine (rowsum_apply _ b h l).trans ?_
  exact Finset.sum_congr rfl fun s' _ => v56_apply V0 b h l s'

end Cert.ReferenceIdeal.RefValue

end
-- ==== Proof.RefOut.lean ====
import proofs.«416977_j76355928588535_3_alg».proof.Proof.RefC
import proofs.«416977_j76355928588535_3_alg».proof.Proof.RefB3
import Idealize.ShloMosaic.PureOps.Ideal.Laws

noncomputable section

/-!
  The reference's result array, head by head.

  The result is two batched matrix products over the first softmax, the pseudo-inverse, the third softmax and
  the value argument: `(k₁ · Z) · (k₃ · v)`, batch axes 0 and 1, each product contracting the left factor's last
  axis with the right factor's second-to-last.  Read at head `(b, h)` each batched product is the plain product of
  the two heads; with the three factors' heads already identified, the head of the result is `headR`.
-/

namespace Cert.ReferenceIdeal.RefValue

open Cert.ReferenceIdeal Cert.ReferenceIdeal.Gen Cert.ReferenceIdeal.Value Idealize.ShloMosaic Idealize.ShloMosaic.TcCoe
open Idealize.ShloMosaic.StableHlo Idealize.ShloMosaic.ValueIdx Cert.Nys

/-- The batched product `[4,12,4096,64] · [4,12,64,64]` at an index: the sum over the contracted coordinate. -/
theorem dotA_apply (X : FVec Ideal S4x12x4096x64 .f32) (Y : FVec Ideal S4x12x64x64 .f32)
    (b : Fin 4) (h : Fin 12) (s : Fin 4096) (d : Fin 64) :
    Host.dotGeneral (F := Ideal) dot_S4x12x4096x64_S4x12x64x64_S4x12x4096x64_3_2_2_3_01_01 none X Y (ix4 b h s d)
      = ∑ c : Fin 64, X (ix4 b h s c) * Y (ix4 b h c d) := by
  show FloatOps.dotGeneral _ none _ X Y (ix4 b h s d) = _
  rw [Ideal.dotGeneral_apply,
    ← Equiv.sum_comp (contrEquiv1 dot_S4x12x4096x64_S4x12x64x64_S4x12x4096x64_3_2_2_3_01_01 64 rfl rfl).symm]
  refine Finset.sum_congr rfl fun c _ => ?_
  have c3 := contrEquiv1_symm_val dot_S4x12x4096x64_S4x12x64x64_S4x12x4096x64_3_2_2_3_01_01 64 rfl rfl c
  have l3 : dot_S4x12x4096x64_S4x12x64x64_S4x12x4096x64_3_2_2_3_01_01.lhsIdx (ix4 b h s d)
      ((contrEquiv1 dot_S4x12x4096x64_S4x12x64x64_S4x12x4096x64_3_2_2_3_01_01 64 rfl rfl).symm c) = ix4 b h s c := by
    funext ax; apply Fin.ext
    match ax with
    | ⟨0, _⟩ => simp [DotDims.lhsIdx, dot_S4x12x4096x64_S4x12x64x64_S4x12x4096x64_3_2_2_3_01_01]; rfl
    | ⟨1, _⟩ => simp [DotDims.lhsIdx, dot_S4x12x4096x64_S4x12x64x64_S4x12x4096x64_3_2_2_3_01_01]; rfl
    | ⟨2, _⟩ => simp [DotDims.lhsIdx, dot_S4x12x4096x64_S4x12x64x64_S4x12x4096x64_3_2_2_3_01_01]; rfl
    | ⟨3, _⟩ => simp [DotDims.lhsIdx, dot_S4x12x4096x64_S4x12x64x64_S4x12x4096x64_3_2_2_3_01_01]; exact c3
  have r3 : dot_S4x12x4096x64_S4x12x64x64_S4x12x4096x64_3_2_2_3_01_01.rhsIdx (ix4 b h s d)
      ((contrEquiv1 dot_S4x12x4096x64_S4x12x64x64_S4x12x4096x64_3_2_2_3_01_01 64 rfl rfl).symm c) = ix4 b h c d := by
    funext ax; apply Fin.ext
    match ax with
    | ⟨0, _⟩ => simp [DotDims.rhsIdx, dot_S4x12x4096x64_S4x12x64x64_S4x12x4096x64_3_2_2_3_01_01]; rfl
    | ⟨1, _⟩ => simp [DotDims.rhsIdx, dot_S4x12x4096x64_S4x12x64x64_S4x12x4096x64_3_2_2_3_01_01]; rfl
    | ⟨2, _⟩ => simp [DotDims.rhsIdx, dot_S4x12x4096x64_S4x12x64x64_S4x12x4096x64_3_2_2_3_01_01]; exact c3
    | ⟨3, _⟩ => simp [DotDims.rhsIdx, dot_S4x12x4096x64_S4x12x64x64_S4x12x4096x64_3_2_2_3_01_01]; rfl
  rw [l3, r3]

/-- The batched product `[4,12,64,4096] · [4,12,4096,64]` at an index: the sum over the contracted coordinate. -/
theorem dotB_apply (X : FVec Ideal S4x12x64x4096 .f32) (Y : FVec Ideal S4x12x4096x64 .f32)
    (b : Fin 4) (h : Fin 12) (l : Fin 64) (d : Fin 64) :
    Host.dotGeneral (F := Ideal) dot_S4x12x64x4096_S4x12x4096x64_S4x12x64x64_3_2_2_3_01_01 none X Y (ix4 b h l d)
      = ∑ c : Fin 4096, X (ix4 b h l c) * Y (ix4 b h c d) := by
  show FloatOps.dotGeneral _ none _ X Y (ix4 b h l d) = _
  rw [Ideal.dotGeneral_apply,
    ← Equiv.sum_comp (contrEquiv1 dot_S4x12x64x4096_S4x12x4096x64_S4x12x64x64_3_2_2_3_01_01 4096 rfl rfl).symm]
  refine Finset.sum_congr rfl fun c _ => ?_
  have c3 := contrEquiv1_symm_val dot_S4x12x64x4096_S4x12x4096x64_S4x12x64x64_3_2_2_3_01_01 4096 rfl rfl c
  have l3 : dot_S4x12x64x4096_S4x12x4096x64_S4x12x64x64_3_2_2_3_01_01.lhsIdx (ix4 b h l d)
      ((contrEquiv1 dot_S4x12x64x4096_S4x12x4096x64_S4x12x64x64_3_2_2_3_01_01 4096 rfl rfl).symm c) = ix4 b h l c := by
    funext ax; apply Fin.ext
    match ax with
    | ⟨0, _⟩ => simp [DotDims.lhsIdx, dot_S4x12x64x4096_S4x12x4096x64_S4x12x64x64_3_2_2_3_01_01]; rfl
    | ⟨1, _⟩ => simp [DotDims.lhsIdx, dot_S4x12x64x4096_S4x12x4096x64_S4x12x64x64_3_2_2_3_01_01]; rfl
    | ⟨2, _⟩ => simp [DotDims.lhsIdx, dot_S4x12x64x4096_S4x12x4096x64_S4x12x64x64_3_2_2_3_01_01]; rfl
    | ⟨3, _⟩ => simp [DotDims.lhsIdx, dot_S4x12x64x4096_S4x12x4096x64_S4x12x64x64_3_2_2_3_01_01]; exact c3
  have r3 : dot_S4x12x64x4096_S4x12x4096x64_S4x12x64x64_3_2_2_3_01_01.rhsIdx (ix4 b h l d)
      ((contrEquiv1 dot_S4x12x64x4096_S4x12x4096x64_S4x12x64x64_3_2_2_3_01_01 4096 rfl rfl).symm c) = ix4 b h c d := by
    funext ax; apply Fin.ext
    match ax with
    | ⟨0, _⟩ => simp [DotDims.rhsIdx, dot_S4x12x64x4096_S4x12x4096x64_S4x12x64x64_3_2_2_3_01_01]; rfl
    | ⟨1, _⟩ => simp [DotDims.rhsIdx, dot_S4x12x64x4096_S4x12x4096x64_S4x12x64x64_3_2_2_3_01_01]; rfl
    | ⟨2, _⟩ => simp [DotDims.rhsIdx, dot_S4x12x64x4096_S4x12x4096x64_S4x12x64x64_3_2_2_3_01_01]; exact c3
    | ⟨3, _⟩ => simp [DotDims.rhsIdx, dot_S4x12x64x4096_S4x12x4096x64_S4x12x64x64_3_2_2_3_01_01]; rfl
  rw [l3, r3]

/-- Head `(b, h)` of the first batched product is the product of the heads. -/
theorem sl_dotA (X : FVec Ideal S4x12x4096x64 .f32) (Y : FVec Ideal S4x12x64x64 .f32) (b : Fin 4) (h : Fin 12) :
    sl (A := 4096) (B := 64)
        (Host.dotGeneral (F := Ideal) dot_S4x12x4096x64_S4x12x64x64_S4x12x4096x64_3_2_2_3_01_01 none X Y) b h
      = mmul (sl (A := 4096) (B := 64) X b h) (sl (A := 64) (B := 64) Y b h) := by
  funext s d
  exact dotA_apply X Y b h s d

/-- Head `(b, h)` of the second batched product is the product of the heads. -/
theorem sl_dotB (X : FVec Ideal S4x12x64x4096 .f32) (Y : FVec Ideal S4x12x4096x64 .f32) (b : Fin 4) (h : Fin 12) :
    sl (A := 64) (B := 64)
        (Host.dotGeneral (F := Ideal) dot_S4x12x64x4096_S4x12x4096x64_S4x12x64x64_3_2_2_3_01_01 none X Y) b h
      = mmul (sl (A := 64) (B := 4096) X b h) (sl (A := 4096) (B := 64) Y b h) := by
  funext l d
  exact dotB_apply X Y b h l d

/-- Head `(b, h)` of the result array is `headR` of the argument heads. -/
theorem refOut_head (V0 : Val) (b : Fin 4) (h : Fin 12) :
    sl (A := 4096) (B := 64) (refOut (F := Ideal) V0) b h
      = headR (slice (argQ V0) b h) (slice (argK V0) b h) (slice (argV V0) b h) (mrow (argM V0) b) := by
  unfold refOut
  rw [sl_dotA, sl_dotA, sl_dotB, refK1_eq, refZ6_eq, refK3_eq]
  rfl

/-- The reference's result array is the specification's, index by index. -/
theorem refOut_eq (V0 : Val) : (refOut (F := Ideal) V0 : Nys.S4.Idx → EReal) = G (argQ V0) (argK V0) (argV V0) (argM V0) := by
  funext i
  obtain ⟨b, h, s, d, rfl⟩ : ∃ (b : Fin 4) (h : Fin 12) (s : Fin 4096) (d : Fin 64), i = ix4 b h s d :=
    ⟨i 0, i 1, i 2, i 3, eq_ix4 i⟩
  exact congrFun (congrFun (refOut_head V0 b h) s) d

end Cert.ReferenceIdeal.RefValue

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Algebra.lean ====
import proofs.«416977_j76355928588535_3_alg».proof.Proof.Spec
import proofs.«416977_j76355928588535_3_alg».proof.Proof.LibReal
import Mathlib.Data.Finset.Fold
import Mathlib.Algebra.BigOperators.Fin
import Mathlib.Algebra.Order.BigOperators.Group.Finset
import Mathlib.Tactic.Linarith
import Mathlib.Tactic.NormNum

noncomputable section

namespace Cert.Nys

open Idealize.ShloMosaic Cert.LibReal
open scoped BigOperators

/-! ## The float words -/

/-- A pattern whose exponent field is not all ones denotes a real number. -/
theorem isReal_ieee (e m : ℕ) {w : ℕ} (b : BitVec w) (h : (b.extractLsb' m e).toNat ≠ 2 ^ e - 1) :
    IsReal (Ideal.ieee e m b) := by
  simp only [Ideal.ieee]
  rw [if_neg h]
  split_ifs <;> exact ⟨_, rfl⟩

theorem isReal_f32 (b : BitVec 32) (h : (b.extractLsb' 23 8).toNat ≠ 2 ^ 8 - 1) :
    IsReal (Ideal.ofBits .f32 b) := isReal_ieee 8 23 b h

theorem cScale_isReal : IsReal cScale := isReal_f32 _ (by decide)
theorem cOne_isReal : IsReal cOne := isReal_f32 _ (by decide)
theorem cBig_isReal : IsReal cBig := isReal_f32 _ (by decide)
theorem c7_isReal : IsReal c7 := isReal_f32 _ (by decide)
theorem c15_isReal : IsReal c15 := isReal_f32 _ (by decide)
theorem c13_isReal : IsReal c13 := isReal_f32 _ (by decide)
theorem cQuarter_isReal : IsReal cQuarter := isReal_f32 _ (by decide)

theorem cZero_eq : cZero = 0 := by simp [cZero, Ideal.ofBits, Ideal.ieee]

theorem cNegInf_eq : cNegInf = ⊥ := by simp [cNegInf, Ideal.ofBits, Ideal.ieee]

theorem c64_eq : c64 = ((64 : ℝ) : EReal) := by
  simp [c64, Ideal.ofBits, Ideal.ieee, -EReal.coe_mul]; norm_num

theorem cInv64_eq : cInv64 = ((1 / 64 : ℝ) : EReal) := by
  simp [cInv64, Ideal.ofBits, Ideal.ieee, -EReal.coe_mul]; norm_num

/-! ## Positive reals among the extended reals -/

/-- An extended real that is a positive real number. -/
def IsPos (x : EReal) : Prop := ∃ r : ℝ, 0 < r ∧ x = (r : EReal)

theorem IsPos.isReal {x : EReal} (h : IsPos x) : IsReal x := by
  rcases h with ⟨r, _, e⟩
  exact ⟨r, e⟩

theorem IsPos.exp {x : EReal} (h : IsReal x) : IsPos (Ideal.exp x) := by
  rcases h with ⟨a, rfl⟩
  exact ⟨Real.exp a, Real.exp_pos a, Ideal.exp_coe a⟩

/-- A sum of positive reals over a nonempty `Fin n` is a positive real. -/
theorem IsPos.sum_fin {n : ℕ} (f : Fin n → EReal) (hf : ∀ i, IsPos (f i)) (i0 : Fin n) :
    IsPos (∑ i : Fin n, f i) := by
  choose a ha using hf
  have hF : f = fun i => ((a i : ℝ) : EReal) := funext fun i => (ha i).2
  subst hF
  exact ⟨∑ i : Fin n, a i, Finset.sum_pos (fun i _ => (ha i).1) ⟨i0, Finset.mem_univ _⟩,
    (coe_sum _ _).symm⟩

theorem IsPos.div {x y : EReal} : IsPos x → IsPos y → IsPos (Ideal.div x y) := by
  rintro ⟨a, ha, rfl⟩ ⟨b, hb, rfl⟩
  rw [Ideal.div_coe (ne_of_gt hb)]
  exact ⟨a * (1 / b), mul_pos ha (one_div_pos.mpr hb), (EReal.coe_mul _ _).symm⟩

/-! ## The maximum of a finite family -/

theorem isReal_ne_bot {x : EReal} (h : IsReal x) : x ≠ ⊥ := by
  rcases h with ⟨r, rfl⟩
  exact EReal.coe_ne_bot r

/-- Folding `max` from `⊥` over real values gives `⊥` or a real. -/
theorem fold_max_bot_or_real {ι : Type} (s : Finset ι) (f : ι → EReal) :
    (∀ i ∈ s, IsReal (f i)) →
      (s.fold max (⊥ : EReal) f = ⊥ ∨ IsReal (s.fold max (⊥ : EReal) f)) := by
  classical
  refine Finset.induction_on s ?_ ?_
  · intro _; left; exact Finset.fold_empty
  · intro a t ha ih h
    rw [Finset.fold_insert ha]
    right
    rcases ih (fun i hi => h i (Finset.mem_insert_of_mem hi)) with h' | h'
    · rw [h', max_eq_left bot_le]; exact h a (Finset.mem_insert_self a t)
    · exact IsReal.max (h a (Finset.mem_insert_self a t)) h'

theorem le_vmax {n : ℕ} (f : Fin n → EReal) (i : Fin n) : f i ≤ vmax f := by
  unfold vmax
  exact (Finset.le_fold_max (f i)).mpr (Or.inr ⟨i, Finset.mem_univ i, le_refl _⟩)

/-- The maximum of a nonempty finite family of reals is real. -/
theorem vmax_isReal {n : ℕ} (f : Fin n → EReal) (hf : ∀ i, IsReal (f i)) (i0 : Fin n) :
    IsReal (vmax f) := by
  have h := fold_max_bot_or_real Finset.univ f (fun i _ => hf i)
  have hle := le_vmax f i0
  unfold vmax at hle ⊢
  rw [cNegInf_eq] at hle ⊢
  rcases h with h | h
  · rw [h] at hle
    exact absurd (le_bot_iff.mp hle) (isReal_ne_bot (hf i0))
  · exact h

/-! ## Each function of the vocabulary keeps real entries real -/

theorem mmul_isReal {n k m : ℕ} (A : Mat n k) (B : Mat k m) (hA : ∀ i j, IsReal (A i j))
    (hB : ∀ i j, IsReal (B i j)) (i : Fin n) (j : Fin m) : IsReal (mmul A B i j) := by
  show IsReal (∑ l : Fin k, A i l * B l j)
  exact IsReal.sum _ _ (fun l _ => IsReal.mul (hA i l) (hB l j))

theorem mmulT_isReal {n k m : ℕ} (A : Mat n k) (B : Mat m k) (hA : ∀ i j, IsReal (A i j))
    (hB : ∀ i j, IsReal (B i j)) (i : Fin n) (j : Fin m) : IsReal (mmulT A B i j) := by
  show IsReal (∑ l : Fin k, A i l * B j l)
  exact IsReal.sum _ _ (fun l _ => IsReal.mul (hA i l) (hB j l))

/-- The softmax of a real matrix with a nonempty row has positive real entries. -/
theorem softmax_isPos {n m : ℕ} (L : Mat n m) (hL : ∀ i j, IsReal (L i j)) (j0 : Fin m)
    (i : Fin n) (j : Fin m) : IsPos (softmax L i j) := by
  have hM : IsReal (vmax (L i)) := vmax_isReal (L i) (hL i) j0
  show IsPos (Ideal.div (Ideal.exp (L i j - vmax (L i)))
    (∑ j' : Fin m, Ideal.exp (L i j' - vmax (L i))))
  exact IsPos.div (IsPos.exp (IsReal.sub (hL i j) hM))
    (IsPos.sum_fin _ (fun j' => IsPos.exp (IsReal.sub (hL i j') hM)) j0)

theorem eye_isReal {n : ℕ} (i j : Fin n) : IsReal (eye i j) := by
  unfold eye
  split_ifs
  · exact IsReal.one
  · exact IsReal.zero

theorem scaled_isReal (x : Mat 4096 64) (mk : Fin 4096 → EReal) (hx : ∀ s d, IsReal (x s d))
    (hm : ∀ s, IsReal (mk s)) (s : Fin 4096) (d : Fin 64) : IsReal (scaled x mk s d) := by
  show IsReal (x s d * mk s * cScale)
  exact IsReal.mul (IsReal.mul (hx s d) (hm s)) cScale_isReal

theorem poolMean_isReal (x : Mat 4096 64) (hx : ∀ s d, IsReal (x s d)) (l d : Fin 64) :
    IsReal (poolMean x l d) := by
  show IsReal (Ideal.div (∑ r : Fin 64, x (segIdx l r) d) c64)
  refine IsReal.div (IsReal.sum _ _ (fun r _ => hx _ _)) ?_ ?_
  · rw [c64_eq]; exact IsReal.coe _
  · rw [c64_eq]; exact_mod_cast (by norm_num : (64 : ℝ) ≠ 0)

theorem ker1_isReal (qs : Mat 4096 64) (kl : Mat 64 64) (hq : ∀ s d, IsReal (qs s d))
    (hk : ∀ l d, IsReal (kl l d)) (s : Fin 4096) (l : Fin 64) : IsReal (ker1 qs kl s l) :=
  (softmax_isPos _ (mmulT_isReal qs kl hq hk) 0 s l).isReal

theorem ker2_isPos (ql kl : Mat 64 64) (hq : ∀ l d, IsReal (ql l d))
    (hk : ∀ l d, IsReal (kl l d)) (i j : Fin 64) : IsPos (ker2 ql kl i j) :=
  softmax_isPos _ (mmulT_isReal ql kl hq hk) 0 i j

theorem ker3_isReal (ql : Mat 64 64) (ks : Mat 4096 64) (mk : Fin 4096 → EReal)
    (hq : ∀ l d, IsReal (ql l d)) (hk : ∀ s d, IsReal (ks s d)) (hm : ∀ s, IsReal (mk s))
    (l : Fin 64) (s : Fin 4096) : IsReal (ker3 ql ks mk l s) := by
  refine (softmax_isPos _ (fun l s => ?_) 0 l s).isReal
  refine IsReal.sub (mmulT_isReal ql ks hq hk l s) ?_
  show IsReal (cBig * (cOne - mk s))
  exact IsReal.mul cBig_isReal (IsReal.sub cOne_isReal (hm s))

/-- The start of the iteration divides by the largest column sum, a positive real. -/
theorem nsInit_isReal (A : Mat 64 64) (hA : ∀ i j, IsPos (A i j)) (i j : Fin 64) :
    IsReal (nsInit A i j) := by
  have hcol : ∀ j' : Fin 64, IsPos (∑ i' : Fin 64, A i' j') :=
    fun j' => IsPos.sum_fin _ (fun i' => hA i' j') 0
  have hM : IsReal (vmax fun j' : Fin 64 => ∑ i' : Fin 64, A i' j') :=
    vmax_isReal _ (fun j' => (hcol j').isReal) 0
  have hle : (∑ i' : Fin 64, A i' 0) ≤ vmax fun j' : Fin 64 => ∑ i' : Fin 64, A i' j' :=
    le_vmax (fun j' : Fin 64 => ∑ i' : Fin 64, A i' j') 0
  have hne : (vmax fun j' : Fin 64 => ∑ i' : Fin 64, A i' j') ≠ 0 := by
    rcases hM with ⟨r, hr⟩
    rcases hcol 0 with ⟨p, hp, hpe⟩
    rw [hr, hpe] at hle
    rw [hr]
    have hpr : p ≤ r := by exact_mod_cast hle
    intro h0
    have hr0 : r = 0 := by exact_mod_cast h0
    linarith
  show IsReal (Ideal.div (A j i) (vmax fun j' : Fin 64 => ∑ i' : Fin 64, A i' j'))
  exact IsReal.div (hA j i).isReal hM hne

theorem nsStep_isReal (A Z : Mat 64 64) (hA : ∀ i j, IsReal (A i j)) (hZ : ∀ i j, IsReal (Z i j))
    (i j : Fin 64) : IsReal (nsStep A Z i j) := by
  have hAZ := mmul_isReal A Z hA hZ
  unfold nsStep
  exact mmul_isReal _ _ (fun i j => IsReal.mul cQuarter_isReal (hZ i j))
    (fun i j => IsReal.sub (IsReal.mul c13_isReal (eye_isReal i j))
      (mmul_isReal _ _ hAZ
        (fun i j => IsReal.sub (IsReal.mul c15_isReal (eye_isReal i j))
          (mmul_isReal _ _ hAZ
            (fun i j => IsReal.sub (IsReal.mul c7_isReal (eye_isReal i j)) (hAZ i j)) i j)) i j)) i j

theorem nsInv_isReal (A : Mat 64 64) (hA : ∀ i j, IsPos (A i j)) (i j : Fin 64) :
    IsReal (nsInv A i j) := by
  have hR : ∀ i j, IsReal (A i j) := fun i j => (hA i j).isReal
  unfold nsInv
  exact nsStep_isReal A _ hR (nsStep_isReal A _ hR (nsStep_isReal A _ hR (nsStep_isReal A _ hR
    (nsStep_isReal A _ hR (nsStep_isReal A _ hR (nsInit_isReal A hA)))))) i j

/-! ## Landmarks: the product with the pooling matrix is the segment mean -/

/-- A position `s` is row `s % 64` of segment `s / 64`. -/
def segEquiv : Fin 64 × Fin 64 ≃ Fin 4096 where
  toFun p := segIdx p.1 p.2
  invFun s := (⟨s.val / 64, by have := s.isLt; omega⟩, ⟨s.val % 64, by omega⟩)
  left_inv p := by
    rcases p with ⟨l, r⟩
    have hl := l.isLt
    have hr := r.isLt
    refine Prod.ext (Fin.ext ?_) (Fin.ext ?_)
    · show (64 * l.val + r.val) / 64 = l.val
      omega
    · show (64 * l.val + r.val) % 64 = r.val
      omega
  right_inv s := by
    refine Fin.ext ?_
    show 64 * (s.val / 64) + s.val % 64 = s.val
    omega

theorem poolW_segIdx (l l' r : Fin 64) :
    poolW l (segIdx l' r) = if l' = l then cInv64 else cZero := by
  have hr := r.isLt
  have hdiv : (segIdx l' r).val / 64 = l'.val := by
    show (64 * l'.val + r.val) / 64 = l'.val
    omega
  unfold poolW
  rw [hdiv]
  by_cases h : l' = l
  · rw [if_pos h, if_pos (congrArg Fin.val h)]
  · rw [if_neg h, if_neg (fun hv => h (Fin.ext hv))]

theorem poolDot_eq_poolMean (x : Mat 4096 64) (hx : ∀ s d, IsReal (x s d)) :
    poolDot x = poolMean x := by
  choose a ha using hx
  have hX : x = fun s d => ((a s d : ℝ) : EReal) := funext fun s => funext fun d => ha s d
  subst hX
  funext l d
  show ∑ s : Fin 4096, poolW l s * ((a s d : ℝ) : EReal)
    = Ideal.div (∑ r : Fin 64, ((a (segIdx l r) d : ℝ) : EReal)) c64
  rw [c64_eq, Ideal.div_coe (by norm_num : (64 : ℝ) ≠ 0)]
  rw [← Equiv.sum_comp segEquiv (fun s : Fin 4096 => poolW l s * ((a s d : ℝ) : EReal)),
    Fintype.sum_prod_type]
  have step : ∀ l' : Fin 64,
      (∑ r : Fin 64, poolW l (segEquiv (l', r)) * ((a (segEquiv (l', r)) d : ℝ) : EReal))
        = if l' = l then ∑ r : Fin 64, cInv64 * ((a (segIdx l r) d : ℝ) : EReal) else 0 := by
    intro l'
    by_cases h : l' = l
    · subst h
      rw [if_pos rfl]
      refine Finset.sum_congr rfl (fun r _ => ?_)
      show poolW l' (segIdx l' r) * ((a (segIdx l' r) d : ℝ) : EReal) = _
      rw [poolW_segIdx, if_pos rfl]
    · rw [if_neg h]
      refine Finset.sum_eq_zero (fun r _ => ?_)
      show poolW l (segIdx l' r) * ((a (segIdx l' r) d : ℝ) : EReal) = 0
      rw [poolW_segIdx, if_neg h, cZero_eq, zero_mul]
  rw [Finset.sum_eq_single l (fun l' _ h => by rw [step, if_neg h])
    (fun h => absurd (Finset.mem_univ l) h), step, if_pos rfl, cInv64_eq]
  simp only [← EReal.coe_mul, ← coe_sum]
  congr 1
  rw [Finset.sum_mul]
  exact Finset.sum_congr rfl (fun r _ => mul_comm _ _)

/-! ## Matrix products of real matrices associate -/

theorem mmul_assoc_real {n k m p : ℕ} (A : Mat n k) (Z : Mat k m) (B : Mat m p)
    (hA : ∀ i j, IsReal (A i j)) (hZ : ∀ i j, IsReal (Z i j)) (hB : ∀ i j, IsReal (B i j)) :
    mmul (mmul A Z) B = mmul A (mmul Z B) := by
  choose a ha using hA
  choose z hz using hZ
  choose b hb using hB
  have hA' : A = fun i j => ((a i j : ℝ) : EReal) := funext fun i => funext fun j => ha i j
  have hZ' : Z = fun i j => ((z i j : ℝ) : EReal) := funext fun i => funext fun j => hz i j
  have hB' : B = fun i j => ((b i j : ℝ) : EReal) := funext fun i => funext fun j => hb i j
  subst hA' hZ' hB'
  funext i j
  show ∑ l : Fin m, (∑ q : Fin k, ((a i q : ℝ) : EReal) * ((z q l : ℝ) : EReal)) * ((b l j : ℝ) : EReal)
    = ∑ q : Fin k, ((a i q : ℝ) : EReal) * ∑ l : Fin m, ((z q l : ℝ) : EReal) * ((b l j : ℝ) : EReal)
  simp only [← EReal.coe_mul, ← coe_sum]
  congr 1
  simp only [Finset.sum_mul, Finset.mul_sum]
  rw [Finset.sum_comm]
  exact Finset.sum_congr rfl fun q _ => Finset.sum_congr rfl fun l _ => mul_assoc _ _ _

/-- On real entries the two spellings of a head agree: a segment's mean is its product with the pooling row,
    and the three matrix products associate. -/
theorem headK_eq_headR (q k v : Mat 4096 64) (mk : Fin 4096 → EReal)
    (hq : ∀ s d, IsReal (q s d)) (hk : ∀ s d, IsReal (k s d)) (hv : ∀ s d, IsReal (v s d)) (hm : ∀ s, IsReal (mk s)) :
    headK q k v mk = headR q k v mk := by
  have hqs := scaled_isReal q mk hq hm
  have hks := scaled_isReal k mk hk hm
  have hql := poolMean_isReal (scaled q mk) hqs
  have hkl := poolMean_isReal (scaled k mk) hks
  unfold headK headR
  rw [poolDot_eq_poolMean _ hqs, poolDot_eq_poolMean _ hks]
  exact (mmul_assoc_real _ _ _ (ker1_isReal _ _ hqs hkl)
    (nsInv_isReal _ (ker2_isPos _ _ hql hkl))
    (mmul_isReal _ _ (ker3_isReal _ _ _ hql hks hm) hv)).symm

/-- So the two spellings of the result array agree on real arrays. -/
theorem GK_eq_G (Q K V : S4.Idx → EReal) (M : S2.Idx → EReal)
    (hQ : ∀ i, IsReal (Q i)) (hK : ∀ i, IsReal (K i)) (hV : ∀ i, IsReal (V i)) (hM : ∀ i, IsReal (M i)) :
    GK Q K V M = G Q K V M := by
  funext i
  exact congrFun (congrFun (headK_eq_headR _ _ _ _ (fun _ _ => hQ _) (fun _ _ => hK _) (fun _ _ => hV _) (fun _ => hM _)) (i 2)) (i 3)

end Cert.Nys

end
-- ==== Proof.Finite.lean ====
import proofs.«416977_j76355928588535_3_alg».proof.Defs
import proofs.«416977_j76355928588535_3_alg».proof.Proof.Gen.Pre_finite_inputs
import proofs.«416977_j76355928588535_3_alg».proof.Proof.Gen.KernelIdeal
import proofs.«416977_j76355928588535_3_alg».proof.Proof.LibReal
import Idealize.ShloMosaic.Lib.ReduceAll
import Idealize.ShloMosaic.Lib.ValueIdx
import Idealize.ShloMosaic.Lib.IdealHost

noncomputable section

namespace Cert.Proof

open Idealize.ShloMosaic Idealize.ShloMosaic.TcCoe Idealize.SL.Sem Cert.LibReal

/-- The word `0x7F800000` read as a float is `+∞`. -/
private theorem ofBits_inf : Ideal.ofBits .f32 0x7F800000#32 = (⊤ : EReal) := by
  simp [Ideal.ofBits, Ideal.ieee]

/-- An extended real whose absolute value is strictly below `+∞` is a real number:
    `-∞` and `+∞` both have absolute value `+∞`. -/
private theorem isReal_of_abs_lt (x : EReal)
    (h : Ideal.cmp .olt (max x (-x)) (Ideal.ofBits .f32 0x7F800000#32) = 1#1) : IsReal x := by
  rw [ofBits_inf] at h
  induction x using EReal.rec with
  | bot => exact absurd h (by simp [Ideal.cmp])
  | top => exact absurd h (by simp [Ideal.cmp])
  | coe r => exact ⟨r, rfl⟩

/-- The conjunction of two one-bit arrays, read at an index. -/
private theorem andi_apply {s : Shape} {w : ℕ} (x y : IVec s w) (i : s.Idx) :
    andi x y i = IntOp.andi (x i) (y i) := rfl

/-- If `|x| < +∞` holds at every index (the conjunction over all axes of the elementwise
    comparison against the broadcast word `0x7F800000` is one), every entry of `x` is real. -/
private theorem real_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu ValueIdx.ix0 = 1#1)
    (i : S.Idx) : IsReal (x i) := by
  -- the rank-0 shape has one index
  haveI : Subsingleton Cert.Pre_finite_inputs.S_.Idx := ⟨fun a b => funext fun d => d.elim0⟩
  have hi := Host.reduce_andi_all _ _ hr hu ValueIdx.ix0 e i
  rw [ValueIdx.cmpf_apply, ValueIdx.broadcastInDim_scalar_apply, ValueIdx.constant_apply] at hi
  exact isReal_of_abs_lt (x i) hi

/-- Under the precondition every entry of the four argument arrays is a real number. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, IsReal ((m ((c.tc : Thread Cert.KernelIdeal.nD Cert.KernelIdeal.τ).loc Cert.KernelIdeal.main_arg0) : Cert.KernelIdeal.S4x12x4096x64.Idx → EReal) i))
    ∧ (∀ i, IsReal ((m ((c.tc : Thread Cert.KernelIdeal.nD Cert.KernelIdeal.τ).loc Cert.KernelIdeal.main_arg1) : Cert.KernelIdeal.S4x12x4096x64.Idx → EReal) i))
    ∧ (∀ i, IsReal ((m ((c.tc : Thread Cert.KernelIdeal.nD Cert.KernelIdeal.τ).loc Cert.KernelIdeal.main_arg2) : Cert.KernelIdeal.S4x12x4096x64.Idx → EReal) i))
    ∧ (∀ i, IsReal ((m ((c.tc : Thread Cert.KernelIdeal.nD Cert.KernelIdeal.τ).loc Cert.KernelIdeal.main_arg3) : Cert.KernelIdeal.S4x4096.Idx → EReal) i)) := by
  have h0 := congrFun (h c) ValueIdx.ix0
  dsimp only [Cert.Pre_finite_inputs.fn, Cert.Pre_finite_inputs.fn_part1] at h0
  rw [andi_apply, IntOp.andi_eq_one, andi_apply, IntOp.andi_eq_one, andi_apply, IntOp.andi_eq_one] at h0
  obtain ⟨⟨⟨e0, e1⟩, e2⟩, e3⟩ := h0
  exact ⟨real_of_all _ _ _ _ e0, real_of_all _ _ _ _ e1, real_of_all _ _ _ _ e2, real_of_all _ _ _ _ e3⟩

end Cert.Proof

end
-- ==== Proof.lean ====
import proofs.«416977_j76355928588535_3_alg».proof.Defs
import proofs.«416977_j76355928588535_3_alg».proof.Proof.Gen.Kernel
import proofs.«416977_j76355928588535_3_alg».proof.Proof.Gen.Kernel.Skeleton
import proofs.«416977_j76355928588535_3_alg».proof.Proof.Gen.Kernel.Launch
import proofs.«416977_j76355928588535_3_alg».proof.Proof.Gen.Kernel.Points
import proofs.«416977_j76355928588535_3_alg».proof.Proof.Gen.Kernel.Frame
import proofs.«416977_j76355928588535_3_alg».proof.Proof.Gen.KernelIdeal
import proofs.«416977_j76355928588535_3_alg».proof.Proof.Gen.KernelIdeal.Skeleton
import proofs.«416977_j76355928588535_3_alg».proof.Proof.Gen.KernelIdeal.Launch
import proofs.«416977_j76355928588535_3_alg».proof.Proof.Gen.KernelIdeal.Points
import proofs.«416977_j76355928588535_3_alg».proof.Proof.Gen.KernelIdeal.Frame
import proofs.«416977_j76355928588535_3_alg».proof.Proof.Gen.ReferenceIdeal
import proofs.«416977_j76355928588535_3_alg».proof.Proof.Gen.Pre_finite_inputs
import proofs.«416977_j76355928588535_3_alg».proof.Proof.Gen.KernelIdeal.Value
import proofs.«416977_j76355928588535_3_alg».proof.Proof.Gen.ReferenceIdeal.Run
import proofs.«416977_j76355928588535_3_alg».proof.Proof.KerBlocks
import proofs.«416977_j76355928588535_3_alg».proof.Proof.RefOut
import proofs.«416977_j76355928588535_3_alg».proof.Proof.Algebra
import proofs.«416977_j76355928588535_3_alg».proof.Proof.Finite
import Idealize.ShloMosaic.Adequacy
import Idealize.ShloMosaic.Init

/-!
  Nyström attention: a Pallas kernel that runs two heads per grid point against the plain jnp reference.

  Both idealized programs compute, for every head `(b, h)`, `k₁ · Z · (k₃ · v)` with `k₁, k₂, k₃` row
  softmaxes of products of the mask-scaled queries and keys with their 64 landmark means and `Z` six
  Newton–Schulz steps on `k₂`.  They differ in two places: the kernel takes the landmark means as a product
  with a pooling matrix of entries 1/64 and 0 where the reference sums a segment and divides by 64, and the
  kernel multiplies `k₁ · (Z · (k₃ · v))` where the reference multiplies `(k₁ · Z) · (k₃ · v)`.  On the
  extended reals both identities need every entry to be a real number, which the precondition gives for the
  inputs and which every operation on the way preserves.
-/

noncomputable section

namespace Cert.Proof

open Idealize.ShloMosaic Idealize.ShloMosaic.TcCoe Idealize.SL.Sem Cert.Nys

/-- The two idealized programs end with the same result array: the kernel's is the specification in the kernel's
    spelling, the reference's is the specification in the reference's spelling, and the two spellings agree on the
    real arrays the precondition admits. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Value.run_blocks (F := Ideal) m ρ)
    obtain ⟨h0, h1, h2, h3⟩ := real_of_pre m hpre c
    exact (Cert.KernelIdeal.Hand.arr_eq m c).trans (GK_eq_G _ _ _ _ h0 h1 h2 h3)
  · refine (θ_run Cert.ReferenceIdeal.defs _ _).mono (fun r h c => ⟨(h c).1.trans ?_, (h c).2⟩)
      (Cert.ReferenceIdeal.Value.run (F := Ideal) m' ρ')
    refine (Cert.ReferenceIdeal.RefValue.refOut_eq (Idealize.ShloMosaic.StableHlo.launchContents m' c)).trans ?_
    have eQ : Cert.ReferenceIdeal.RefValue.argQ (Idealize.ShloMosaic.StableHlo.launchContents m' c)
        = (m ((c.tc : Thread Cert.KernelIdeal.nD Cert.KernelIdeal.τ).loc Cert.KernelIdeal.main_arg0) : S4.Idx → EReal) := (hagree c).1
    have eK : Cert.ReferenceIdeal.RefValue.argK (Idealize.ShloMosaic.StableHlo.launchContents m' c)
        = (m ((c.tc : Thread Cert.KernelIdeal.nD Cert.KernelIdeal.τ).loc Cert.KernelIdeal.main_arg1) : S4.Idx → EReal) := (hagree c).2.1
    have eV : Cert.ReferenceIdeal.RefValue.argV (Idealize.ShloMosaic.StableHlo.launchContents m' c)
        = (m ((c.tc : Thread Cert.KernelIdeal.nD Cert.KernelIdeal.τ).loc Cert.KernelIdeal.main_arg2) : S4.Idx → EReal) := (hagree c).2.2.1
    have eM : Cert.ReferenceIdeal.RefValue.argM (Idealize.ShloMosaic.StableHlo.launchContents m' c)
        = (m ((c.tc : Thread Cert.KernelIdeal.nD Cert.KernelIdeal.τ).loc Cert.KernelIdeal.main_arg3) : S2.Idx → EReal) := (hagree c).2.2.2
    rw [eQ, eK, eV, eM]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
